-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S256x256 : Shape := ⟨2, ![256, 256]⟩
abbrev S256x8 : Shape := ⟨2, ![256, 8]⟩
abbrev S8 : Shape := ⟨1, ![8]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S256x8 .f32) (main_arg6 : FVec F S8 .f32) (main_arg7 : FVec F S256x256 .f32) (main_arg8 : FVec F S256 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S256x8 .f32 := Host.absf main_arg5
  let main_cst_6 : FVec F S_ .f32 := constant S_ .f32 0x7F800000#32
  let main_v20 : FVec F S256x8 .f32 := broadcastInDim S256x8 ![] bcast_S_S256x8 main_cst_6
  let main_v21 : IVec S256x8 1 := cmpf .olt main_v19 main_v20
  let main_c_7 : IVec S_ 1 := constantI S_ 1 1#1
  let main_v22 : IVec S_ 1 := (fun x v => Host.reduce IntOp.andi x v reducesTo_S256x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_v33

def fn {F : FTy → Type} [FloatOps F] (main_arg0 : FVec F S20000x256 .f32) (main_arg1 : IVec S2x320000 32) (main_arg2 : FVec F S256x256 .f32) (main_arg3 : FVec F S256x8 .f32) (main_arg4 : FVec F S8 .f32) (main_arg5 : FVec F S256x8 .f32) (main_arg6 : FVec F S8 .f32) (main_arg7 : FVec F S256x256 .f32) (main_arg8 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x8 .f32 := Host.absf main_arg3
  let main_cst_2 : FVec F S_ .f32 := constant S_ .f32 0x7F800000#32
  let main_v10 : FVec F S256x8 .f32 := broadcastInDim S256x8 ![] bcast_S_S256x8 main_cst_2
  let main_v11 : IVec S256x8 1 := cmpf .olt main_v9 main_v10
  let main_c_3 : IVec S_ 1 := constantI S_ 1 1#1
  let main_v12 : IVec S_ 1 := (fun x v => Host.reduce IntOp.andi x v reducesTo_S256x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_arg7 main_arg8 main_v13 main_v16
-- ==== Kernel.lean ====
abbrev S20000x256 : Shape := ⟨2, ![20000, 256]⟩
abbrev S2x320000 : Shape := ⟨2, ![2, 320000]⟩
abbrev S256x256 : Shape := ⟨2, ![256, 256]⟩
abbrev S256x8 : Shape := ⟨2, ![256, 8]⟩
abbrev S8 : Shape := ⟨1, ![8]⟩
abbrev S256 : Shape := ⟨1, ![256]⟩
abbrev S1x320000 : Shape := ⟨2, ![1, 320000]⟩
abbrev S320000 : Shape := ⟨1, ![320000]⟩
abbrev S1x8 : Shape := ⟨2, ![1, 8]⟩
abbrev S20000x8 : Shape := ⟨2, ![20000, 8]⟩
abbrev S2000x256 : Shape := ⟨2, ![2000, 256]⟩
abbrev S2000x8 : Shape := ⟨2, ![2000, 8]⟩
abbrev S_ : Shape := ⟨0, ![]⟩
abbrev S320000x1 : Shape := ⟨2, ![320000, 1]⟩
abbrev S320000x8 : Shape := ⟨2, ![320000, 8]⟩
abbrev S20000x128 : Shape := ⟨2, ![20000, 128]⟩
abbrev S2000x128 : Shape := ⟨2, ![2000, 128]⟩
abbrev S1x1 : Shape := ⟨2, ![1, 1]⟩
abbrev S20000x8x32 : Shape := ⟨3, ![20000, 8, 32]⟩
abbrev S320000x8x32 : Shape := ⟨3, ![320000, 8, 32]⟩
abbrev S320000x256 : Shape := ⟨2, ![320000, 256]⟩
abbrev S8x8 : Shape := ⟨2, ![8, 8]⟩
abbrev S8x8x32 : Shape := ⟨3, ![8, 8, 32]⟩
abbrev S8x256 : Shape := ⟨2, ![8, 256]⟩
abbrev S5000x256 : Shape := ⟨2, ![5000, 256]⟩
abbrev S5000x8 : Shape := ⟨2, ![5000, 8]⟩
abbrev S1x256 : Shape := ⟨2, ![1, 256]⟩

abbrev nBuf : Space → Nat
  | .hbm => 91
  | .vmem => 41
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x256, .f32⟩
  | .hbm, ⟨3, _⟩ => ⟨S256x8, .f32⟩
  | .hbm, ⟨4, _⟩ => ⟨S8, .f32⟩
  | .hbm, ⟨5, _⟩ => ⟨S256x8, .f32⟩
  | .hbm, ⟨6, _⟩ => ⟨S8, .f32⟩
  | .hbm, ⟨7, _⟩ => ⟨S256x256, .f32⟩
  | .hbm, ⟨8, _⟩ => ⟨S256, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S1x8, .f32⟩
  | .hbm, ⟨14, _⟩ => ⟨S1x8, .f32⟩
  | .hbm, ⟨15, _⟩ => ⟨S20000x256, .f32⟩
  | .hbm, ⟨16, _⟩ => ⟨S20000x256, .f32⟩
  | .hbm, ⟨17, _⟩ => ⟨S20000x8, .f32⟩
  | .hbm, ⟨18, _⟩ => ⟨S20000x8, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x8, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x8, .f32⟩
  | .hbm, ⟨37, _⟩ => ⟨S20000x128, .f32⟩
  | .hbm, ⟨38, _⟩ => ⟨S20000x128, .f32⟩
  | .hbm, ⟨39, _⟩ => ⟨S20000x128, .f32⟩
  | .hbm, ⟨40, _⟩ => ⟨S_, .f32⟩
  | .hbm, ⟨41, _⟩ => ⟨S_, .f32⟩
  | .hbm, ⟨42, _⟩ => ⟨S1x1, .f32⟩
  | .hbm, ⟨43, _⟩ => ⟨S20000x128, .f32⟩
  | .hbm, ⟨44, _⟩ => ⟨S320000x8, .f32⟩
  | .hbm, ⟨45, _⟩ => ⟨S_, .f32⟩
  | .hbm, ⟨46, _⟩ => ⟨S20000x8, .f32⟩
  | .hbm, ⟨47, _⟩ => ⟨S320000x1, .i32⟩
  | .hbm, ⟨48, _⟩ => ⟨S20000x8, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S320000x8, .f32⟩
  | .hbm, ⟨58, _⟩ => ⟨S_, .f32⟩
  | .hbm, ⟨59, _⟩ => ⟨S320000x8, .f32⟩
  | .hbm, ⟨60, _⟩ => ⟨S320000x8, .f32⟩
  | .hbm, ⟨61, _⟩ => ⟨S320000x8, .f32⟩
  | .hbm, ⟨62, _⟩ => ⟨S20000x8x32, .f32⟩
  | .hbm, ⟨63, _⟩ => ⟨S_, .i32⟩
  | .hbm, ⟨64, _⟩ => ⟨S320000, .i32⟩
  | .hbm, ⟨65, _⟩ => ⟨S320000, .i1⟩
  | .hbm, ⟨66, _⟩ => ⟨S_, .i32⟩
  | .hbm, ⟨67, _⟩ => ⟨S320000, .i32⟩
  | .hbm, ⟨68, _⟩ => ⟨S320000, .i32⟩
  | .hbm, ⟨69, _⟩ => ⟨S320000, .i32⟩
  | .hbm, ⟨70, _⟩ => ⟨S320000x1, .i32⟩
  | .hbm, ⟨71, _⟩ => ⟨S320000x8x32, .f32⟩
  | .hbm, ⟨72, _⟩ => ⟨S320000x256, .f32⟩
  | .hbm, ⟨73, _⟩ => ⟨S8x8, .i32⟩
  | .hbm, ⟨74, _⟩ => ⟨S8x8, .i32⟩
  | .hbm, ⟨75, _⟩ => ⟨S_, .i32⟩
  | .hbm, ⟨76, _⟩ => ⟨S8x8, .i32⟩
  | .hbm, ⟨77, _⟩ => ⟨S8x8, .i32⟩
  | .hbm, ⟨78, _⟩ => ⟨S8x8, .i1⟩
  | .hbm, ⟨79, _⟩ => ⟨S8x8, .f32⟩
  | .hbm, ⟨80, _⟩ => ⟨S8x8x32, .f32⟩
  | .hbm, ⟨81, _⟩ => ⟨S8x256, .f32⟩
  | .hbm, ⟨82, _⟩ => ⟨S320000x256, .f32⟩
  | .hbm, ⟨83, _⟩ => ⟨S320000x8x32, .f32⟩
  | .hbm, ⟨84, _⟩ => ⟨S_, .f32⟩
  | .hbm, ⟨85, _⟩ => ⟨S20000x8x32, .f32⟩
  | .hbm, ⟨86, _⟩ => ⟨S320000x1, .i32⟩
  | .hbm, ⟨87, _⟩ => ⟨S20000x8x32, .f32⟩
  | .hbm, ⟨88, _⟩ => ⟨S20000x256, .f32⟩
  | .hbm, ⟨89, _⟩ => ⟨S1x256, .f32⟩
  | .hbm, ⟨90, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x256, .f32⟩
  | .local _ .vmem, ⟨4, _⟩ => ⟨S256x8, .f32⟩
  | .local _ .vmem, ⟨5, _⟩ => ⟨S256x8, .f32⟩
  | .local _ .vmem, ⟨6, _⟩ => ⟨S1x8, .f32⟩
  | .local _ .vmem, ⟨7, _⟩ => ⟨S1x8, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x8, .f32⟩
  | .local _ .vmem, ⟨13, _⟩ => ⟨S2000x8, .f32⟩
  | .local _ .vmem, ⟨14, _⟩ => ⟨S2000x8, .f32⟩
  | .local _ .vmem, ⟨15, _⟩ => ⟨S2000x8, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S1x1, .f32⟩
  | .local _ .vmem, ⟨25, _⟩ => ⟨S2000x128, .f32⟩
  | .local _ .vmem, ⟨26, _⟩ => ⟨S2000x128, .f32⟩
  | .local _ .vmem, ⟨27, _⟩ => ⟨S5000x256, .f32⟩
  | .local _ .vmem, ⟨28, _⟩ => ⟨S5000x256, .f32⟩
  | .local _ .vmem, ⟨29, _⟩ => ⟨S5000x8, .f32⟩
  | .local _ .vmem, ⟨30, _⟩ => ⟨S5000x8, .f32⟩
  | .local _ .vmem, ⟨31, _⟩ => ⟨S8x256, .f32⟩
  | .local _ .vmem, ⟨32, _⟩ => ⟨S5000x256, .f32⟩
  | .local _ .vmem, ⟨33, _⟩ => ⟨S5000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S1x256, .f32⟩
  | .local _ .vmem, ⟨39, _⟩ => ⟨S2000x256, .f32⟩
  | .local _ .vmem, ⟨40, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem3_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S8x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S8_S1x8 : S8.ShapeCasts S1x8
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x8_S256x8_0_0 : ∀ a, (![0, 0] : Fin 2 → Nat) a + S256x8.size a ≤ S256x8.size a
  h_S256x8 : 0 < S256x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  bcast_S_S320000 : S_.BroadcastsInDim S320000 (![] : Fin 0 → Fin S320000.rank)
  bcast_S320000_S320000x1_0 : S320000.BroadcastsInDim S320000x1 (![0] : Fin 1 → Fin S320000x1.rank)
  shapeCasts_S320000x8_S20000x128 : S320000x8.ShapeCasts S20000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reducesTo_S20000x128_S_d0_1 : S20000x128.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S20000x128_S320000x8 : S20000x128.ShapeCasts S320000x8
  bcast_S_S20000x8 : S_.BroadcastsInDim S20000x8 (![] : Fin 0 → Fin S20000x8.rank)
  bcast_S_S320000x8 : S_.BroadcastsInDim S320000x8 (![] : Fin 0 → Fin S320000x8.rank)
  shapeCasts_S20000x256_S20000x8x32 : S20000x256.ShapeCasts S20000x8x32
  shapeCasts_S320000x8x32_S320000x256 : S320000x8x32.ShapeCasts S320000x256
  bcast_S_S8x8 : S_.BroadcastsInDim S8x8 (![] : Fin 0 → Fin S8x8.rank)
  bcast_S8x8_S8x8x32_0_1 : S8x8.BroadcastsInDim S8x8x32 (![0, 1] : Fin 2 → Fin S8x8x32.rank)
  shapeCasts_S8x8x32_S8x256 : S8x8x32.ShapeCasts S8x256
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  shapeCasts_S320000x256_S320000x8x32 : S320000x256.ShapeCasts S320000x8x32
  bcast_S_S20000x8x32 : S_.BroadcastsInDim S20000x8x32 (![] : Fin 0 → Fin S20000x8x32.rank)
  shapeCasts_S20000x8x32_S20000x256 : S20000x8x32.ShapeCasts S20000x256
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S2000x256_S256x256_S2000x256_1_0_0_1_n_n_wf : DotDims.WF S2000x256 S256x256 S2000x256 [1] [0] [0] [1] [] []
  dot_S2000x256_S256x8_S2000x8_1_0_0_1_n_n_wf : DotDims.WF S2000x256 S256x8 S2000x8 [1] [0] [0] [1] [] []
  gather_S20000x8_S320000x1_S320000x8_1_0_n_n_0_1_18_wf : GatherDims.WF S20000x8 S320000x1 S320000x8 [1] [0] [] [0] [] 1 ![1, 8]
  scatter_S20000x8_S320000x1_S320000x8_1_0_0_1_wf : ScatterDims.WF S20000x8 S320000x1 S320000x8 [1] [0] [0] 1
  gather_S20000x8x32_S320000x1_S320000x8x32_12_0_n_n_0_1_1832_wf : GatherDims.WF S20000x8x32 S320000x1 S320000x8x32 [1, 2] [0] [] [0] [] 1 ![1, 8, 32]
  dot_S5000x8_S8x256_S5000x256_1_0_0_1_n_n_wf : DotDims.WF S5000x8 S8x256 S5000x256 [1] [0] [0] [1] [] []
  scatter_S20000x8x32_S320000x1_S320000x8x32_12_0_0_1_wf : ScatterDims.WF S20000x8x32 S320000x1 S320000x8x32 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S256x8.size a
  hwx0_3 : ∀ i : grid0.Coords, EltTy.bits .f32 = 32 ∨ (Rect.block (s := S256x8) S256x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x8.size a ≤ S256x8.size a
  hwx0_4 : ∀ i : grid0.Coords, EltTy.bits .f32 = 32 ∨ (Rect.block (s := S256x8) S256x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S20000x256.size a
  hwx0_7 : ∀ i : grid0.Coords, EltTy.bits .f32 = 32 ∨ (Rect.block (s := S20000x256) S2000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S20000x256.size a
  hwx0_8 : ∀ i : grid0.Coords, EltTy.bits .f32 = 32 ∨ (Rect.block (s := S20000x256) S2000x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x8.size a ≤ S20000x8.size a
  hwx0_9 : ∀ i : grid0.Coords, EltTy.bits .f32 = 32 ∨ (Rect.block (s := S20000x8) S2000x8.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x8.size a ≤ S20000x8.size a
  hwx0_10 : ∀ i : grid0.Coords, EltTy.bits .f32 = 32 ∨ (Rect.block (s := S20000x8) S2000x8.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S20000x128.size a
  hwx1_2 : ∀ i : grid1.Coords, EltTy.bits .f32 = 32 ∨ (Rect.block (s := S20000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S20000x128.size a
  hwx2_2 : ∀ i : grid2.Coords, EltTy.bits .f32 = 32 ∨ (Rect.block (s := S20000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S320000x256.size a
  hwx3_0 : ∀ i : grid3.Coords, EltTy.bits .f32 = 32 ∨ (Rect.block (s := S320000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x8.size a ≤ S320000x8.size a
  hwx3_1 : ∀ i : grid3.Coords, EltTy.bits .f32 = 32 ∨ (Rect.block (s := S320000x8) S5000x8.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8x256.size a ≤ S8x256.size a
  hwx3_2 : ∀ i : grid3.Coords, EltTy.bits .f32 = 32 ∨ (Rect.block (s := S8x256) S8x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S320000x256.size a
  hwx3_3 : ∀ i : grid3.Coords, EltTy.bits .f32 = 32 ∨ (Rect.block (s := S320000x256) S5000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S20000x256.size a
  hwx4_1 : ∀ i : grid4.Coords, EltTy.bits .f32 = 32 ∨ (Rect.block (s := S20000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S20000x256.size a
  hwx4_3 : ∀ i : grid4.Coords, EltTy.bits .f32 = 32 ∨ (Rect.block (s := S20000x256) S2000x256.size (cc4_transform_3 i) (hinb4_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x8_S2000x8_1_0_0_1_n_n : DotDims S2000x256 S256x8 S2000x8 where
  lhsContracting := [1]
  rhsContracting := [0]
  lhsNonContracting := [0]
  rhsNonContracting := [1]
  lhsBatch := []
  rhsBatch := []
  wf := dot_S2000x256_S256x8_S2000x8_1_0_0_1_n_n_wf
def gather_S20000x8_S320000x1_S320000x8_1_0_n_n_0_1_18 : GatherDims S20000x8 S320000x1 S320000x8 where
  offsetDims := [1]
  collapsedSliceDims := [0]
  operandBatchingDims := []
  startIndicesBatchingDims := []
  startIndexMap := [0]
  indexVectorDim := 1
  sliceSizes := ![1, 8]
  wf := gather_S20000x8_S320000x1_S320000x8_1_0_n_n_0_1_18_wf
def scatter_S20000x8_S320000x1_S320000x8_1_0_0_1 : ScatterDims S20000x8 S320000x1 S320000x8 where
  updateWindowDims := [1]
  insertedWindowDims := [0]
  scatterDimsToOperandDims := [0]
  indexVectorDim := 1
  wf := scatter_S20000x8_S320000x1_S320000x8_1_0_0_1_wf
def gather_S20000x8x32_S320000x1_S320000x8x32_12_0_n_n_0_1_1832 : GatherDims S20000x8x32 S320000x1 S320000x8x32 where
  offsetDims := [1, 2]
  collapsedSliceDims := [0]
  operandBatchingDims := []
  startIndicesBatchingDims := []
  startIndexMap := [0]
  indexVectorDim := 1
  sliceSizes := ![1, 8, 32]
  wf := gather_S20000x8x32_S320000x1_S320000x8x32_12_0_n_n_0_1_1832_wf
def dot_S5000x8_S8x256_S5000x256_1_0_0_1_n_n : DotDims S5000x8 S8x256 S5000x256 where
  lhsContracting := [1]
  rhsContracting := [0]
  lhsNonContracting := [0]
  rhsNonContracting := [1]
  lhsBatch := []
  rhsBatch := []
  wf := dot_S5000x8_S8x256_S5000x256_1_0_0_1_n_n_wf
def scatter_S20000x8x32_S320000x1_S320000x8x32_12_0_0_1 : ScatterDims S20000x8x32 S320000x1 S320000x8x32 where
  updateWindowDims := [1, 2]
  insertedWindowDims := [0]
  scatterDimsToOperandDims := [0]
  indexVectorDim := 1
  wf := scatter_S20000x8x32_S320000x1_S320000x8x32_12_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S2000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S2000x8.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_3) S2000x8.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v23) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S8x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v63) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6_1) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S256x256 : Shape := ⟨2, ![256, 256]⟩
abbrev S256x8 : Shape := ⟨2, ![256, 8]⟩
abbrev S8 : Shape := ⟨1, ![8]⟩
abbrev S256 : Shape := ⟨1, ![256]⟩
abbrev S1x320000 : Shape := ⟨2, ![1, 320000]⟩
abbrev S320000 : Shape := ⟨1, ![320000]⟩
abbrev S20000x8 : Shape := ⟨2, ![20000, 8]⟩
abbrev S1x8 : Shape := ⟨2, ![1, 8]⟩
abbrev S_ : Shape := ⟨0, ![]⟩
abbrev S320000x1 : Shape := ⟨2, ![320000, 1]⟩
abbrev S320000x8 : Shape := ⟨2, ![320000, 8]⟩
abbrev S320000x8x1 : Shape := ⟨3, ![320000, 8, 1]⟩
abbrev S20000x8x32 : Shape := ⟨3, ![20000, 8, 32]⟩
abbrev S320000x8x32 : Shape := ⟨3, ![320000, 8, 32]⟩
abbrev S1x256 : Shape := ⟨2, ![1, 256]⟩

abbrev nBuf : Space → Nat
  | .hbm => 117
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x256, .f32⟩
  | .hbm, ⟨3, _⟩ => ⟨S256x8, .f32⟩
  | .hbm, ⟨4, _⟩ => ⟨S8, .f32⟩
  | .hbm, ⟨5, _⟩ => ⟨S256x8, .f32⟩
  | .hbm, ⟨6, _⟩ => ⟨S8, .f32⟩
  | .hbm, ⟨7, _⟩ => ⟨S256x256, .f32⟩
  | .hbm, ⟨8, _⟩ => ⟨S256, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S20000x256, .f32⟩
  | .hbm, ⟨14, _⟩ => ⟨S20000x8, .f32⟩
  | .hbm, ⟨15, _⟩ => ⟨S1x8, .f32⟩
  | .hbm, ⟨16, _⟩ => ⟨S20000x8, .f32⟩
  | .hbm, ⟨17, _⟩ => ⟨S20000x8, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x8, .f32⟩
  | .hbm, ⟨27, _⟩ => ⟨S20000x8, .f32⟩
  | .hbm, ⟨28, _⟩ => ⟨S1x8, .f32⟩
  | .hbm, ⟨29, _⟩ => ⟨S20000x8, .f32⟩
  | .hbm, ⟨30, _⟩ => ⟨S20000x8, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000x8, .f32⟩
  | .hbm, ⟨40, _⟩ => ⟨S320000x8, .f32⟩
  | .hbm, ⟨41, _⟩ => ⟨S_, .f32⟩
  | .hbm, ⟨42, _⟩ => ⟨S320000x8, .f32⟩
  | .hbm, ⟨43, _⟩ => ⟨S320000x8, .i1⟩
  | .hbm, ⟨44, _⟩ => ⟨S_, .f32⟩
  | .hbm, ⟨45, _⟩ => ⟨S320000x8, .f32⟩
  | .hbm, ⟨46, _⟩ => ⟨S320000x8, .i1⟩
  | .hbm, ⟨47, _⟩ => ⟨S_, .f32⟩
  | .hbm, ⟨48, _⟩ => ⟨S_, .f32⟩
  | .hbm, ⟨49, _⟩ => ⟨S320000x8, .f32⟩
  | .hbm, ⟨50, _⟩ => ⟨S320000x8, .f32⟩
  | .hbm, ⟨51, _⟩ => ⟨S320000x8, .f32⟩
  | .hbm, ⟨52, _⟩ => ⟨S_, .f32⟩
  | .hbm, ⟨53, _⟩ => ⟨S320000x8, .f32⟩
  | .hbm, ⟨54, _⟩ => ⟨S320000x8, .f32⟩
  | .hbm, ⟨55, _⟩ => ⟨S320000x8, .f32⟩
  | .hbm, ⟨56, _⟩ => ⟨S_, .f32⟩
  | .hbm, ⟨57, _⟩ => ⟨S_, .f32⟩
  | .hbm, ⟨58, _⟩ => ⟨S320000x8, .f32⟩
  | .hbm, ⟨59, _⟩ => ⟨S320000x8, .f32⟩
  | .hbm, ⟨60, _⟩ => ⟨S320000x8, .f32⟩
  | .hbm, ⟨61, _⟩ => ⟨S_, .f32⟩
  | .hbm, ⟨62, _⟩ => ⟨S20000x8, .f32⟩
  | .hbm, ⟨63, _⟩ => ⟨S320000x1, .i32⟩
  | .hbm, ⟨64, _⟩ => ⟨S20000x8, .f32⟩
  | .hbm, ⟨65, _⟩ => ⟨S_, .i32⟩
  | .hbm, ⟨66, _⟩ => ⟨S320000, .i32⟩
  | .hbm, ⟨67, _⟩ => ⟨S320000, .i1⟩
  | .hbm, ⟨68, _⟩ => ⟨S_, .i32⟩
  | .hbm, ⟨69, _⟩ => ⟨S320000, .i32⟩
  | .hbm, ⟨70, _⟩ => ⟨S320000, .i32⟩
  | .hbm, ⟨71, _⟩ => ⟨S320000, .i32⟩
  | .hbm, ⟨72, _⟩ => ⟨S320000x1, .i32⟩
  | .hbm, ⟨73, _⟩ => ⟨S320000x8, .f32⟩
  | .hbm, ⟨74, _⟩ => ⟨S_, .f32⟩
  | .hbm, ⟨75, _⟩ => ⟨S320000x8, .f32⟩
  | .hbm, ⟨76, _⟩ => ⟨S320000x8, .f32⟩
  | .hbm, ⟨77, _⟩ => ⟨S320000x8, .f32⟩
  | .hbm, ⟨78, _⟩ => ⟨S320000x8x1, .f32⟩
  | .hbm, ⟨79, _⟩ => ⟨S20000x8x32, .f32⟩
  | .hbm, ⟨80, _⟩ => ⟨S_, .i32⟩
  | .hbm, ⟨81, _⟩ => ⟨S320000, .i32⟩
  | .hbm, ⟨82, _⟩ => ⟨S320000, .i1⟩
  | .hbm, ⟨83, _⟩ => ⟨S_, .i32⟩
  | .hbm, ⟨84, _⟩ => ⟨S320000, .i32⟩
  | .hbm, ⟨85, _⟩ => ⟨S320000, .i32⟩
  | .hbm, ⟨86, _⟩ => ⟨S320000, .i32⟩
  | .hbm, ⟨87, _⟩ => ⟨S320000x1, .i32⟩
  | .hbm, ⟨88, _⟩ => ⟨S320000x8x32, .f32⟩
  | .hbm, ⟨89, _⟩ => ⟨S320000x8x32, .f32⟩
  | .hbm, ⟨90, _⟩ => ⟨S320000x8x32, .f32⟩
  | .hbm, ⟨91, _⟩ => ⟨S_, .f32⟩
  | .hbm, ⟨92, _⟩ => ⟨S20000x8x32, .f32⟩
  | .hbm, ⟨93, _⟩ => ⟨S320000x1, .i32⟩
  | .hbm, ⟨94, _⟩ => ⟨S20000x8x32, .f32⟩
  | .hbm, ⟨95, _⟩ => ⟨S20000x256, .f32⟩
  | .hbm, ⟨96, _⟩ => ⟨S20000x8x32, .f32⟩
  | .hbm, ⟨97, _⟩ => ⟨S20000x8x32, .f32⟩
  | .hbm, ⟨98, _⟩ => ⟨S20000x256, .f32⟩
  | .hbm, ⟨99, _⟩ => ⟨S1x256, .f32⟩
  | .hbm, ⟨100, _⟩ => ⟨S20000x256, .f32⟩
  | .hbm, ⟨101, _⟩ => ⟨S20000x256, .f32⟩
  | .hbm, ⟨102, _⟩ => ⟨S_, .f32⟩
  | .hbm, ⟨103, _⟩ => ⟨S20000x256, .f32⟩
  | .hbm, ⟨104, _⟩ => ⟨S20000x256, .i1⟩
  | .hbm, ⟨105, _⟩ => ⟨S_, .f32⟩
  | .hbm, ⟨106, _⟩ => ⟨S20000x256, .f32⟩
  | .hbm, ⟨107, _⟩ => ⟨S20000x256, .i1⟩
  | .hbm, ⟨108, _⟩ => ⟨S_, .f32⟩
  | .hbm, ⟨109, _⟩ => ⟨S_, .f32⟩
  | .hbm, ⟨110, _⟩ => ⟨S20000x256, .f32⟩
  | .hbm, ⟨111, _⟩ => ⟨S20000x256, .f32⟩
  | .hbm, ⟨112, _⟩ => ⟨S20000x256, .f32⟩
  | .hbm, ⟨113, _⟩ => ⟨S_, .f32⟩
  | .hbm, ⟨114, _⟩ => ⟨S20000x256, .f32⟩
  | .hbm, ⟨115, _⟩ => ⟨S20000x256, .f32⟩
  | .hbm, ⟨116, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_cst_1 : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_v4 : Ref sig .tc := ⟨.hbm, 50, rfl⟩
abbrev main_call0_v5 : Ref sig .tc := ⟨.hbm, 51, rfl⟩
abbrev main_call0_cst_2 : Ref sig .tc := ⟨.hbm, 52, rfl⟩
abbrev main_call0_v6 : Ref sig .tc := ⟨.hbm, 53, rfl⟩
abbrev main_call0_v7 : Ref sig .tc := ⟨.hbm, 54, rfl⟩
abbrev main_v28 : Ref sig .tc := ⟨.hbm, 55, rfl⟩
abbrev main_cst : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_4 : Ref sig .tc := ⟨.hbm, 65, rfl⟩
abbrev main_v36 : Ref sig .tc := ⟨.hbm, 66, rfl⟩
abbrev main_v37 : Ref sig .tc := ⟨.hbm, 67, rfl⟩
abbrev main_c_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_7 : Ref sig .tc := ⟨.hbm, 80, rfl⟩
abbrev main_v48 : Ref sig .tc := ⟨.hbm, 81, rfl⟩
abbrev main_v49 : Ref sig .tc := ⟨.hbm, 82, rfl⟩
abbrev main_c_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_9 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_cst_1 : Ref sig .tc := ⟨.hbm, 108, rfl⟩
abbrev main_call1_call0_v0 : Ref sig .tc := ⟨.hbm, 109, rfl⟩
abbrev main_call1_call0_v1 : Ref sig .tc := ⟨.hbm, 110, rfl⟩
abbrev main_call1_v4 : Ref sig .tc := ⟨.hbm, 111, rfl⟩
abbrev main_call1_v5 : Ref sig .tc := ⟨.hbm, 112, rfl⟩
abbrev main_call1_cst_2 : Ref sig .tc := ⟨.hbm, 113, rfl⟩
abbrev main_call1_v6 : Ref sig .tc := ⟨.hbm, 114, rfl⟩
abbrev main_call1_v7 : Ref sig .tc := ⟨.hbm, 115, rfl⟩
abbrev main_v67 : Ref sig .tc := ⟨.hbm, 116, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S8_S1x8_1 : S8.BroadcastsInDim S1x8 (![1] : Fin 1 → Fin S1x8.rank)
  bcast_S1x8_S20000x8_0_1 : S1x8.BroadcastsInDim S20000x8 (![0, 1] : Fin 2 → Fin S20000x8.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x8 : S_.BroadcastsInDim S320000x8 (![] : Fin 0 → Fin S320000x8.rank)
  reducesTo_S320000x8_S_d0_1 : S320000x8.ReducesTo [0, 1] S_
  h_S_ : 0 < S_.numel
  bcast_S_S20000x8 : S_.BroadcastsInDim S20000x8 (![] : Fin 0 → Fin S20000x8.rank)
  bcast_S320000x8_S320000x8x1_0_1 : S320000x8.BroadcastsInDim S320000x8x1 (![0, 1] : Fin 2 → Fin S320000x8x1.rank)
  shapeCasts_S20000x256_S20000x8x32 : S20000x256.ShapeCasts S20000x8x32
  bcast_S320000x8x1_S320000x8x32_0_1_2 : S320000x8x1.BroadcastsInDim S320000x8x32 (![0, 1, 2] : Fin 3 → Fin S320000x8x32.rank)
  bcast_S_S20000x8x32 : S_.BroadcastsInDim S20000x8x32 (![] : Fin 0 → Fin S20000x8x32.rank)
  shapeCasts_S20000x8x32_S20000x256 : S20000x8x32.ShapeCasts S20000x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  dot_S20000x256_S256x256_S20000x256_1_0_0_1_n_n_wf : DotDims.WF S20000x256 S256x256 S20000x256 [1] [0] [0] [1] [] []
  dot_S20000x256_S256x8_S20000x8_1_0_0_1_n_n_wf : DotDims.WF S20000x256 S256x8 S20000x8 [1] [0] [0] [1] [] []
  gather_S20000x8_S320000x1_S320000x8_1_0_n_n_0_1_18_wf : GatherDims.WF S20000x8 S320000x1 S320000x8 [1] [0] [] [0] [] 1 ![1, 8]
  scatter_S20000x8_S320000x1_S320000x8_1_0_0_1_wf : ScatterDims.WF S20000x8 S320000x1 S320000x8 [1] [0] [0] 1
  gather_S20000x8x32_S320000x1_S320000x8x32_12_0_n_n_0_1_1832_wf : GatherDims.WF S20000x8x32 S320000x1 S320000x8x32 [1, 2] [0] [] [0] [] 1 ![1, 8, 32]
  scatter_S20000x8x32_S320000x1_S320000x8x32_12_0_0_1_wf : ScatterDims.WF S20000x8x32 S320000x1 S320000x8x32 [1, 2] [0] [0] 1

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x256_S256x8_S20000x8_1_0_0_1_n_n : DotDims S20000x256 S256x8 S20000x8 where
  lhsContracting := [1]
  rhsContracting := [0]
  lhsNonContracting := [0]
  rhsNonContracting := [1]
  lhsBatch := []
  rhsBatch := []
  wf := dot_S20000x256_S256x8_S20000x8_1_0_0_1_n_n_wf
def gather_S20000x8_S320000x1_S320000x8_1_0_n_n_0_1_18 : GatherDims S20000x8 S320000x1 S320000x8 where
  offsetDims := [1]
  collapsedSliceDims := [0]
  operandBatchingDims := []
  startIndicesBatchingDims := []
  startIndexMap := [0]
  indexVectorDim := 1
  sliceSizes := ![1, 8]
  wf := gather_S20000x8_S320000x1_S320000x8_1_0_n_n_0_1_18_wf
def scatter_S20000x8_S320000x1_S320000x8_1_0_0_1 : ScatterDims S20000x8 S320000x1 S320000x8 where
  updateWindowDims := [1]
  insertedWindowDims := [0]
  scatterDimsToOperandDims := [0]
  indexVectorDim := 1
  wf := scatter_S20000x8_S320000x1_S320000x8_1_0_0_1_wf
def gather_S20000x8x32_S320000x1_S320000x8x32_12_0_n_n_0_1_1832 : GatherDims S20000x8x32 S320000x1 S320000x8x32 where
  offsetDims := [1, 2]
  collapsedSliceDims := [0]
  operandBatchingDims := []
  startIndicesBatchingDims := []
  startIndexMap := [0]
  indexVectorDim := 1
  sliceSizes := ![1, 8, 32]
  wf := gather_S20000x8x32_S320000x1_S320000x8x32_12_0_n_n_0_1_1832_wf
def scatter_S20000x8x32_S320000x1_S320000x8x32_12_0_0_1 : ScatterDims S20000x8x32 S320000x1 S320000x8x32 where
  updateWindowDims := [1, 2]
  insertedWindowDims := [0]
  scatterDimsToOperandDims := [0]
  indexVectorDim := 1
  wf := scatter_S20000x8x32_S320000x1_S320000x8x32_12_0_0_1_wf

class Facts : Prop extends Facts₀ where

variable [Facts]
-- ==== Proof.Spec.lean ====
/-
  The mathematics of the certificate: one graph-attention layer over 20000 nodes and 320000 edges, as ONE function
  of the argument arrays at the ideal instance (floats are extended reals).

  For node features X and weights Wp, Ws, Wt, Wk: the projection P = X·Wp, the skip term K = X·Wk, the per-node head
  scores S = P·Ws + bs and T = P·Wt + bt. For an edge e from node src e to node tgt e and a head h the logit is
  elu (S[src e, h] + T[tgt e, h]); with g the greatest logit, x = exp (logit − g); the softmax denominator at a node
  is the sum of x over the edges that end there (a scatter-add), the attention weight a = x / (denominator at tgt e + ε).
  The message of edge e at head h, channel f is P[src e, 32h + f] · a[e, h]; messages are summed per target node, and
  the result is elu (sum + K + bias).

  The four index operations (reading rows at the edges' ends, summing rows into the edges' targets) are the SAME
  operations in both programs, applied to arrays this file proves equal; they are carried as parameters and never
  opened. The edge index arrays (source and target rows, and the raw target rows the scatter takes) are inputs here.
-/
import Idealize.ShloMosaic.PureOps.Ideal
import Idealize.ShloMosaic.PureOps.Vector
import Idealize.ShloMosaic.PureOps.Contract
import Idealize.ShloMosaic.Lib.ValueIdx

noncomputable section

namespace Cert.Spec

open Idealize.ShloMosaic Idealize.ShloMosaic.ValueIdx
open scoped BigOperators

abbrev sNF : Shape := ⟨2, ![20000, 256]⟩
abbrev sFF : Shape := ⟨2, ![256, 256]⟩
abbrev sFH : Shape := ⟨2, ![256, 8]⟩
abbrev sH : Shape := ⟨1, ![8]⟩
abbrev sF : Shape := ⟨1, ![256]⟩
abbrev sNH : Shape := ⟨2, ![20000, 8]⟩
abbrev sEH : Shape := ⟨2, ![320000, 8]⟩
abbrev sE1 : Shape := ⟨2, ![320000, 1]⟩
abbrev sNHC : Shape := ⟨3, ![20000, 8, 32]⟩
abbrev sEHC : Shape := ⟨3, ![320000, 8, 32]⟩

/-- The float words of the two programs, as extended reals: zero, the softmax's ε, and −∞ (the maximum's start). -/
abbrev zero : EReal := Ideal.ofBits .f32 0x00000000#32
abbrev eps : EReal := Ideal.ofBits .f32 0x2EDBE6FF#32
abbrev negInf : EReal := Ideal.ofBits .f32 0xFF800000#32

/-- elu on the extended reals: x where x > 0, else eˣ − 1. -/
def elu (x : EReal) : EReal := Scalar.select (FloatOps.cmpf (F := Ideal) (φ := .f32) .ogt x zero) x (Ideal.exp x - 1)

section
variable (gatH : (sNH.Idx → EReal) → (sE1.Idx → BitVec 32) → (sEH.Idx → EReal))
variable (scatH : (sNH.Idx → EReal) → (sE1.Idx → BitVec 32) → (sEH.Idx → EReal) → (sNH.Idx → EReal))
variable (gatHC : (sNHC.Idx → EReal) → (sE1.Idx → BitVec 32) → (sEHC.Idx → EReal))
variable (scatHC : (sNHC.Idx → EReal) → (sE1.Idx → BitVec 32) → (sEHC.Idx → EReal) → (sNHC.Idx → EReal))
variable (src tgt tgtRaw : sE1.Idx → BitVec 32)
variable (X : sNF.Idx → EReal) (Wp : sFF.Idx → EReal) (Ws : sFH.Idx → EReal) (bs : sH.Idx → EReal)
  (Wt : sFH.Idx → EReal) (bt : sH.Idx → EReal) (Wk : sFF.Idx → EReal) (bias : sF.Idx → EReal)

/-- A node's features times a 256 × 256 weight: row n of X against column j of W. -/
def feat (X : sNF.Idx → EReal) (W : sFF.Idx → EReal) : sNF.Idx → EReal :=
  fun i => ∑ k : Fin 256, X (ix2 (i 0) k) * W (ix2 k (i 1))

/-- A node's head scores: row n of P against column h of W, plus the head's bias. -/
def score (P : sNF.Idx → EReal) (W : sFH.Idx → EReal) (b : sH.Idx → EReal) : sNH.Idx → EReal :=
  fun i => (∑ k : Fin 256, P (ix2 (i 0) k) * W (ix2 k (i 1))) + b (ix1 (i 1))

/-- The edge logits: elu of the source's score plus the target's. -/
def logit : sEH.Idx → EReal :=
  fun i => elu (gatH (score (feat X Wp) Ws bs) src i + gatH (score (feat X Wp) Wt bt) tgt i)

/-- The greatest logit over all edges and heads (from −∞). -/
def gmax : EReal := Finset.univ.fold max negInf (logit gatH src tgt X Wp Ws bs Wt bt)

/-- The softmax numerators. -/
def ex : sEH.Idx → EReal :=
  fun i => Ideal.exp (logit gatH src tgt X Wp Ws bs Wt bt i - gmax gatH src tgt X Wp Ws bs Wt bt)

/-- The softmax denominators: the numerators summed into the edges' targets. -/
def denom : sNH.Idx → EReal := scatH (fun _ => zero) tgtRaw (ex gatH src tgt X Wp Ws bs Wt bt)

/-- The attention weights. -/
def att : sEH.Idx → EReal :=
  fun i => Ideal.div (ex gatH src tgt X Wp Ws bs Wt bt i) (gatH (denom gatH scatH src tgt tgtRaw X Wp Ws bs Wt bt) tgt i + eps)

/-- The projection read as nodes × heads × channels, gathered at the edges' sources. -/
def gathered : sEHC.Idx → EReal := gatHC (shapeCast sNHC (feat X Wp) (by decide)) src

/-- The messages: the source's projection scaled by the edge's attention weight at that head. -/
def weighted : sEHC.Idx → EReal :=
  fun j => gathered gatHC src X Wp j * att gatH scatH src tgt tgtRaw X Wp Ws bs Wt bt (ix2 (j 0) (j 1))

/-- The messages summed into the edges' targets. -/
def agg : sNHC.Idx → EReal := scatHC (fun _ => zero) tgtRaw (weighted gatH scatH gatHC src tgt tgtRaw X Wp Ws bs Wt bt)

/-- THE RESULT: elu of the aggregated messages plus the skip term plus the bias. -/
def out : sNF.Idx → EReal :=
  fun i => elu (shapeCast sNF (agg gatH scatH gatHC scatHC src tgt tgtRaw X Wp Ws bs Wt bt) (by decide) i
    + feat X Wk i + bias (ix1 (i 1)))

end

/-! ## The closed form: the index operations and the edge rows as the two programs spell them -/

abbrev s2E : Shape := ⟨2, ![2, 320000]⟩
abbrev s1E : Shape := ⟨2, ![1, 320000]⟩
abbrev sE : Shape := ⟨1, ![320000]⟩
abbrev s0 : Shape := ⟨0, ![]⟩

/-- Reading rows of a nodes × heads array at the edges' ends. -/
def gdH : GatherDims sNH sE1 sEH where
  offsetDims := [1]
  collapsedSliceDims := [0]
  operandBatchingDims := []
  startIndicesBatchingDims := []
  startIndexMap := [0]
  indexVectorDim := 1
  sliceSizes := ![1, 8]
/-- Summing edge rows of an edges × heads array into the rows of their targets. -/
def sdH : ScatterDims sNH sE1 sEH where
  updateWindowDims := [1]
  insertedWindowDims := [0]
  scatterDimsToOperandDims := [0]
  indexVectorDim := 1
/-- Reading rows of a nodes × heads × channels array at the edges' ends. -/
def gdHC : GatherDims sNHC sE1 sEHC where
  offsetDims := [1, 2]
  collapsedSliceDims := [0]
  operandBatchingDims := []
  startIndicesBatchingDims := []
  startIndexMap := [0]
  indexVectorDim := 1
  sliceSizes := ![1, 8, 32]
/-- Summing edge rows of an edges × heads × channels array into the rows of their targets. -/
def sdHC : ScatterDims sNHC sE1 sEHC where
  updateWindowDims := [1, 2]
  insertedWindowDims := [0]
  scatterDimsToOperandDims := [0]
  indexVectorDim := 1

/-- Row r of the 2 × 320000 edge table, as a vector of 320000 node numbers. -/
def edgeRow (r : Nat) (E : IVec s2E 32) (h : s2E.Slices ![r, 0] s1E) : IVec sE 32 :=
  shapeCast sE (extractStridedSlice s1E ![r, 0] E h) (by decide)

/-- The rows a gather reads: a negative node number counts from the end (20000 is added), as a column. -/
def normIdx (v : IVec sE 32) : IVec sE1 32 :=
  broadcastInDim sE1 ![0] (by decide)
    (select (cmpi .slt v (broadcastInDim sE ![] (by decide) (constantI s0 32 0#32)))
      (addi v (broadcastInDim sE ![] (by decide) (constantI s0 32 20000#32))) v)

/-- The rows a scatter writes: the node numbers as they are, as a column. -/
def rawIdx (v : IVec sE 32) : IVec sE1 32 := broadcastInDim sE1 ![0] (by decide) v

/-- THE RESULT as one function of the nine argument arrays. -/
def result (X : sNF.Idx → EReal) (E : IVec s2E 32) (Wp : sFF.Idx → EReal) (Ws : sFH.Idx → EReal) (bs : sH.Idx → EReal)
    (Wt : sFH.Idx → EReal) (bt : sH.Idx → EReal) (Wk : sFF.Idx → EReal) (bias : sF.Idx → EReal) : sNF.Idx → EReal :=
  out (fun x i => Host.gather gdH x i) (fun x i u => Host.scatterAdd (F := Ideal) (φ := .f32) sdH x i u)
    (fun x i => Host.gather gdHC x i) (fun x i u => Host.scatterAdd (F := Ideal) (φ := .f32) sdHC x i u)
    (normIdx (edgeRow 0 E (by decide))) (normIdx (edgeRow 1 E (by decide))) (rawIdx (edgeRow 1 E (by decide)))
    X Wp Ws bs Wt bt Wk bias

end Cert.Spec

end
-- ==== Proof.KerMath.lean ====
/-
  Pure facts about arrays of extended reals that the kernel's program needs and the reference's does not:
  the 8 × 256 expansion matrix (an 8 × 8 identity with each column repeated 32 times) read at an index and summed
  against a row of weights; the message array written as edges × 256 and read back as edges × 8 × 32; and the greatest
  entry of an array, which does not depend on the shape the array is viewed in.
-/
import proofs.«128282_j20770461843840_1_alg».proof.Proof.Spec
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

set_option maxRecDepth 16384

noncomputable section

namespace Cert.KerMath

open Idealize.ShloMosaic Idealize.ShloMosaic.ValueIdx Cert.Spec
open scoped BigOperators

abbrev t88 : Shape := ⟨2, ![8, 8]⟩
abbrev t8832 : Shape := ⟨3, ![8, 8, 32]⟩
abbrev t8256 : Shape := ⟨2, ![8, 256]⟩
abbrev sE256 : Shape := ⟨2, ![320000, 256]⟩
abbrev sN128 : Shape := ⟨2, ![20000, 128]⟩

/-- The expansion matrix as the kernel's program builds it: row k, column q is whether k is q's head. -/
def emat : t8256.Idx → EReal :=
  shapeCast t8256 (broadcastInDim t8832 ![0, 1] (by decide)
    (uitofp (F := Ideal) .f32 (cmpi .eq (addi (iotaInDim t88 32 0) (broadcastInDim t88 ![] (by decide) (constantI s0 32 0#32)))
      (iotaInDim t88 32 1)))) (by decide)

/-- Row k, column q of the expansion matrix is 1 when k = q / 32 and 0 otherwise. -/
theorem emat_apply (k : Fin 8) (q : Fin 256) : emat (ix2 k q) = if k.val = q.val / 32 then 1 else 0 := by
  have hq := q.isLt
  have hk := k.isLt
  unfold emat
  -- position k·256 + q of the 8 × 256 view is position (k·8 + q/32)·32 + q%32 of the 8 × 8 × 32 array
  rw [shapeCast_apply _ _ (ix2 k q) (ix3 k (⟨q.val / 32, by omega⟩ : Fin 8) (⟨q.val % 32, by omega⟩ : Fin 32))
    (by
      rw [Shape.rowMajor_val_three, Shape.rowMajor_val_two]
      show (k.val * 8 + q.val / 32) * 32 + q.val % 32 = k.val * 256 + q.val
      omega)]
  -- the last axis is a repetition: the entry is the 8 × 8 comparison of the row number with the column number q/32
  rw [broadcastInDim_apply _ _ _ _ (ix2 k (⟨q.val / 32, by omega⟩ : Fin 8))
    (by intro a; match a with | ⟨0, _⟩ => rfl | ⟨1, _⟩ => rfl)]
  show (((IntOp.cmpi .eq (BitVec.ofNat 32 k.val + 0#32) (BitVec.ofNat 32 (q.val / 32))).toNat : ℝ) : EReal) = _
  rw [BitVec.add_zero]
  by_cases h : k.val = q.val / 32
  · rw [if_pos h, h]
    simp [IntOp.cmpi]
  · rw [if_neg h]
    -- two numbers below 8 are different as 32-bit words when they are different
    have hne : BitVec.ofNat 32 k.val ≠ BitVec.ofNat 32 (q.val / 32) := by
      intro e
      have e' := congrArg BitVec.toNat e
      simp only [BitVec.toNat_ofNat] at e'
      omega
    simp [IntOp.cmpi, hne]

/-- A row of eight weights against column q of the expansion matrix is the weight of q's head. -/
theorem sum_emat (a : Fin 8 → EReal) (q : Fin 256) :
    ∑ k : Fin 8, a k * emat (ix2 k q) = a ⟨q.val / 32, by have := q.isLt; omega⟩ := by
  have hq := q.isLt
  rw [Finset.sum_eq_single (⟨q.val / 32, by omega⟩ : Fin 8)]
  · rw [emat_apply, if_pos rfl, mul_one]
  · intro k _ hk
    rw [emat_apply, if_neg (fun e => hk (Fin.ext e)), mul_zero]
  · intro hn
    exact absurd (Finset.mem_univ _) hn

/-- The same at one edge e, head h and channel f: position e·256 + (32h + f) of the edges × 256 view is position
    (e·8 + h)·32 + f of the edges × heads × channels view, and column 32h + f of the expansion matrix picks head h. -/
theorem weighted_reshape_at (g : sEHC.Idx → EReal) (a : sEH.Idx → EReal) (h1 : sEHC.ShapeCasts sE256) (h2 : sE256.ShapeCasts sEHC)
    (e : Fin 320000) (h : Fin 8) (f : Fin 32) :
    shapeCast sEHC (fun i : sE256.Idx => shapeCast sE256 g h1 i * ∑ k : Fin 8, a (ix2 (i 0) k) * emat (ix2 k (i 1))) h2 (ix3 e h f)
      = g (ix3 e h f) * a (ix2 e h) := by
  have hh := h.isLt
  have hf := f.isLt
  have hpos : (sE256.rowMajor (ix2 e (⟨32 * h.val + f.val, by omega⟩ : Fin 256))).val = (sEHC.rowMajor (ix3 e h f)).val := by
    rw [Shape.rowMajor_val_three, Shape.rowMajor_val_two]
    show e.val * 256 + (32 * h.val + f.val) = (e.val * 8 + h.val) * 32 + f.val
    omega
  rw [shapeCast_apply _ h2 (ix3 e h f) (ix2 e (⟨32 * h.val + f.val, by omega⟩ : Fin 256)) hpos]
  show shapeCast sE256 g h1 (ix2 e (⟨32 * h.val + f.val, by omega⟩ : Fin 256))
      * ∑ k : Fin 8, a (ix2 e k) * emat (ix2 k (⟨32 * h.val + f.val, by omega⟩ : Fin 256)) = _
  rw [shapeCast_apply g h1 _ (ix3 e h f) hpos.symm, sum_emat (fun k => a (ix2 e k))]
  have hd : (⟨(32 * h.val + f.val) / 32, by omega⟩ : Fin 8) = h := Fin.ext (by show (32 * h.val + f.val) / 32 = h.val; omega)
  show g (ix3 e h f) * a (ix2 e (⟨(32 * h.val + f.val) / 32, _⟩ : Fin 8)) = _
  rw [hd]

/-- The messages written as edges × 256 (the gathered projection times the weights spread by the expansion matrix) and
    read back as edges × heads × channels are the gathered projection times the weight of the edge's head. -/
theorem weighted_reshape (g : sEHC.Idx → EReal) (a : sEH.Idx → EReal) (h1 : sEHC.ShapeCasts sE256) (h2 : sE256.ShapeCasts sEHC) :
    shapeCast sEHC (fun i : sE256.Idx => shapeCast sE256 g h1 i * ∑ k : Fin 8, a (ix2 (i 0) k) * emat (ix2 k (i 1))) h2
      = fun j => g j * a (ix2 (j 0) (j 1)) := by
  funext j
  obtain ⟨e, h, f, rfl⟩ : ∃ e h f, j = ix3 e h f := ⟨j 0, j 1, j 2, eq_ix3 j⟩
  exact weighted_reshape_at g a h1 h2 e h f

/-- The greatest entry (from the start value) of an edges × heads array viewed as 20000 × 128 is its greatest entry. -/
theorem reduce_max_reshape (f : sEH.Idx → EReal) (init : s0.Idx → EReal) (hc : sEH.ShapeCasts sN128)
    (h : sN128.ReducesTo [0, 1] s0) (hu : 0 < s0.numel) (j : s0.Idx) :
    Host.reduce (FloatOps.maximumf (F := Ideal) (φ := .f32)) (shapeCast sN128 f hc) init h hu j
      = Finset.univ.fold max (init (Shape.Idx.first hu)) f := by
  show Host.reduce (max : EReal → EReal → EReal) (shapeCast sN128 f hc) init h hu j = _
  rw [Host.reduce_eq_fold]
  -- the result has one index, so every source index drops to it: the fold runs over all of them
  have hs : Subsingleton s0.Idx := ⟨fun a b => funext fun d => d.elim0⟩
  rw [Finset.filter_true_of_mem (fun i _ => Subsingleton.elim _ _)]
  -- the 20000 × 128 view reads f through a bijection of the index sets, and a fold over a set does not see a bijection
  have hm := Finset.fold_map (op := (max : EReal → EReal → EReal)) (b := init (Shape.Idx.first hu)) (f := f)
    (g := (Shape.reshapeEquiv hc).toEmbedding) (s := Finset.univ)
  rw [Finset.map_univ_equiv] at hm
  exact hm.symm

end Cert.KerMath

end
-- ==== Proof.Region0.lean ====
/-
  Region 0 (the node projections), read as whole arrays at the ideal instance: over ten blocks of 2000 rows the kernel
  leaves in its four result arrays the projection X·Wp, the skip term X·Wk and the two head scores
  (X·Wp)·Ws + bs and (X·Wp)·Wt + bt, row by row the same sums the whole-array products are.
-/
import proofs.«128282_j20770461843840_1_alg».proof.Proof.Gen.KernelIdeal.Frame
import proofs.«128282_j20770461843840_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Region0

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen
open scoped BigOperators

theorem hz : (![0, 0] : Fin 2 → Nat) = fun _ => 0 := funext fun a => by fin_cases a <;> rfl

/-! ## The two contractions' operand indices, axis by axis -/

theorem lhs_ff_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem lhs_ff_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_ff_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_ff_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

theorem lhs_fh_0 (i : S2000x8.Idx) (q : dot_S2000x256_S256x8_S2000x8_1_0_0_1_n_n.contr.Idx) :
    (dot_S2000x256_S256x8_S2000x8_1_0_0_1_n_n.lhsIdx i q 0).val = (i 0).val := by
  unfold DotDims.lhsIdx
  rw [dif_neg (show ¬(0 : Fin S2000x256.rank) ∈ dot_S2000x256_S256x8_S2000x8_1_0_0_1_n_n.lhsBatch by decide),
    dif_pos (show (0 : Fin S2000x256.rank) ∈ dot_S2000x256_S256x8_S2000x8_1_0_0_1_n_n.lhsNonContracting by decide)]
  rfl
theorem lhs_fh_1 (i : S2000x8.Idx) (q : dot_S2000x256_S256x8_S2000x8_1_0_0_1_n_n.contr.Idx) :
    (dot_S2000x256_S256x8_S2000x8_1_0_0_1_n_n.lhsIdx i q 1).val = (q ⟨0, by decide⟩).val :=
  dot_S2000x256_S256x8_S2000x8_1_0_0_1_n_n.lhsIdx_val_of_single rfl i q
theorem rhs_fh_0 (i : S2000x8.Idx) (q : dot_S2000x256_S256x8_S2000x8_1_0_0_1_n_n.contr.Idx) :
    (dot_S2000x256_S256x8_S2000x8_1_0_0_1_n_n.rhsIdx i q 0).val = (q ⟨0, by decide⟩).val :=
  dot_S2000x256_S256x8_S2000x8_1_0_0_1_n_n.rhsIdx_val_of_single rfl i q
theorem rhs_fh_1 (i : S2000x8.Idx) (q : dot_S2000x256_S256x8_S2000x8_1_0_0_1_n_n.contr.Idx) :
    (dot_S2000x256_S256x8_S2000x8_1_0_0_1_n_n.rhsIdx i q 1).val = (i 1).val := by
  unfold DotDims.rhsIdx
  rw [dif_neg (show ¬(1 : Fin S256x8.rank) ∈ dot_S2000x256_S256x8_S2000x8_1_0_0_1_n_n.rhsBatch by decide),
    dif_pos (show (1 : Fin S256x8.rank) ∈ dot_S2000x256_S256x8_S2000x8_1_0_0_1_n_n.rhsNonContracting by decide)]
  rfl

/-! ## The payloads at an index -/

/-- The product into the zero accumulator at (p, q): row p of the left operand against column q of the right. -/
theorem dot_ff_apply (a : FVec Ideal S2000x256 .bf16) (b : FVec Ideal S256x256 .bf16) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  show FloatOps.matmul dot_S2000x256_S256x256_S2000x256_1_0_0_1_n_n none a b (constant (F := Ideal) S2000x256 .f32 0x00000000#32) (ix2 p q) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k :=
    funext fun a => Fin.ext (by
      match a with
      | ⟨0, _⟩ => exact lhs_ff_0 _ _
      | ⟨1, _⟩ => exact (lhs_ff_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q :=
    funext fun a => Fin.ext (by
      match a with
      | ⟨0, _⟩ => exact (rhs_ff_0 _ _).trans hk
      | ⟨1, _⟩ => exact rhs_ff_1 _ _)
  rw [el, er]

/-- The product into the zero accumulator at (p, q): row p of the left operand against column q of the right. -/
theorem dot_fh_apply (a : FVec Ideal S2000x256 .bf16) (b : FVec Ideal S256x8 .bf16) (p : Fin 2000) (q : Fin 8) :
    matmul dot_S2000x256_S256x8_S2000x8_1_0_0_1_n_n none a b (constant (F := Ideal) S2000x8 .f32 0x00000000#32) (ix2 p q)
      = ∑ k : Fin 256, a (ix2 p k) * b (ix2 k q) := by
  show FloatOps.matmul dot_S2000x256_S256x8_S2000x8_1_0_0_1_n_n none a b (constant (F := Ideal) S2000x8 .f32 0x00000000#32) (ix2 p q) = _
  rw [Ideal.matmul_constant_zero_apply, ← Equiv.sum_comp (contrEquiv1 dot_S2000x256_S256x8_S2000x8_1_0_0_1_n_n 256 rfl rfl).symm]
  refine Finset.sum_congr rfl fun k _ => ?_
  have hk := contrEquiv1_symm_val dot_S2000x256_S256x8_S2000x8_1_0_0_1_n_n 256 rfl rfl k
  have el : dot_S2000x256_S256x8_S2000x8_1_0_0_1_n_n.lhsIdx (ix2 p q) ((contrEquiv1 dot_S2000x256_S256x8_S2000x8_1_0_0_1_n_n 256 rfl rfl).symm k) = ix2 p k :=
    funext fun a => Fin.ext (by
      match a with
      | ⟨0, _⟩ => exact lhs_fh_0 _ _
      | ⟨1, _⟩ => exact (lhs_fh_1 _ _).trans hk)
  have er : dot_S2000x256_S256x8_S2000x8_1_0_0_1_n_n.rhsIdx (ix2 p q) ((contrEquiv1 dot_S2000x256_S256x8_S2000x8_1_0_0_1_n_n 256 rfl rfl).symm k) = ix2 k q :=
    funext fun a => Fin.ext (by
      match a with
      | ⟨0, _⟩ => exact (rhs_fh_0 _ _).trans hk
      | ⟨1, _⟩ => exact rhs_fh_1 _ _)
  rw [el, er]

/-- The projection payload at (p, q): row p of the block against column q of the weight. -/
theorem mm_apply (x : Vec Ideal S2000x256 .f32) (w : Vec Ideal S256x256 .f32) (p : Fin 2000) (q : Fin 256) :
    k0_pay2 x w (ix2 p q) = ∑ k : Fin 256, x (ix2 p k) * w (ix2 k q) := by
  unfold k0_pay2 k0_pay1
  exact dot_ff_apply _ _ p q

/-- The skip payload is the same product with the skip weight. -/
theorem mm3_apply (x : Vec Ideal S2000x256 .f32) (w : Vec Ideal S256x256 .f32) (p : Fin 2000) (q : Fin 256) :
    k0_pay3 x w (ix2 p q) = ∑ k : Fin 256, x (ix2 p k) * w (ix2 k q) := by
  unfold k0_pay3 k0_pay1
  exact dot_ff_apply _ _ p q

/-- A score payload at (p, h): row p of the projection against column h of the head weight, plus the head's bias. -/
theorem sc5_apply (x : Vec Ideal S2000x256 .f32) (w : Vec Ideal S256x256 .f32) (ws : Vec Ideal S256x8 .f32)
    (b : Vec Ideal S1x8 .f32) (p : Fin 2000) (h : Fin 8) :
    k0_pay5 x w ws b (ix2 p h) = (∑ k : Fin 256, k0_pay2 x w (ix2 p k) * ws (ix2 k h)) + b (ix2 0 h) := by
  unfold k0_pay5 k0_pay4
  simp only [shapeCast_self]
  have hb : broadcastTo S2000x8 b broadcasts_S1x8_S2000x8 (ix2 p h) = b (ix2 0 h) :=
    broadcastTo_apply _ _ _ _ (fun a => by match a with | ⟨0, _⟩ => rfl | ⟨1, _⟩ => rfl)
  rw [addf_apply, hb, dot_fh_apply]
  rfl

theorem sc6_apply (x : Vec Ideal S2000x256 .f32) (w : Vec Ideal S256x256 .f32) (wt : Vec Ideal S256x8 .f32)
    (b : Vec Ideal S1x8 .f32) (p : Fin 2000) (h : Fin 8) :
    k0_pay6 x w wt b (ix2 p h) = (∑ k : Fin 256, k0_pay2 x w (ix2 p k) * wt (ix2 k h)) + b (ix2 0 h) := by
  unfold k0_pay6 k0_pay4
  simp only [shapeCast_self]
  have hb : broadcastTo S2000x8 b broadcasts_S1x8_S2000x8 (ix2 p h) = b (ix2 0 h) :=
    broadcastTo_apply _ _ _ _ (fun a => by match a with | ⟨0, _⟩ => rfl | ⟨1, _⟩ => rfl)
  rw [addf_apply, hb, dot_fh_apply]
  rfl

-- the buffer contents the region is entered with: a parameter, as in the generated frame
variable (V : (c : Dev nD) → (b : Ref sig .tc) → Buf (Elt Ideal) ((c : Thread nD τ).loc b))

/-- The region's seven input arrays at their literal types. -/
abbrev xArr (c : Dev nD) : S20000x256.Idx → EReal := V c main_arg0
abbrev wpArr (c : Dev nD) : S256x256.Idx → EReal := V c main_arg2
abbrev wkArr (c : Dev nD) : S256x256.Idx → EReal := V c main_arg7
abbrev wsArr (c : Dev nD) : S256x8.Idx → EReal := V c main_arg3
abbrev wtArr (c : Dev nD) : S256x8.Idx → EReal := V c main_arg5
abbrev bsArr (c : Dev nD) : S1x8.Idx → EReal := V c main_v4
abbrev btArr (c : Dev nD) : S1x8.Idx → EReal := V c main_v5

/-! ## From blocks to the arrays -/

/-- Where each window's block sits at point t: the row-blocked windows at block t, the weights and biases whole. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row p of block t is row 2000 t + p of the array. -/
def rowOf (t : Fin cfg0.N) (p : Fin 2000) : Fin 20000 :=
  ⟨t.val * 2000 + p.val, by have hN : cfg0.N = 10 := N_0; have := t.isLt; have := p.isLt; omega⟩

/-- The projection payload of block t at (p, q) is the whole product at row 2000 t + p: the same sum, term by term. -/
theorem pay2_eq (c : Dev nD) (t : Fin cfg0.N) (p : Fin 2000) (q : Fin 256) :
    k0_pay2 (iblk0 V c 0 t) (iblk0 V c 1 t) (ix2 p q) = Cert.Spec.feat (xArr V c) (wpArr V c) (ix2 (rowOf t p) q) := by
  obtain ⟨⟨e00, e01⟩, ⟨e10, e11⟩, -⟩ := idx_facts t
  refine (mm_apply _ _ p q).trans ?_
  unfold Cert.Spec.feat
  refine Finset.sum_congr rfl fun k _ => ?_
  have h0 : ((cfg0.win 0).blk t).view.emb (ix2 p k) = ix2 (rowOf t p) k := by
    funext a; apply Fin.ext
    match a with
    | ⟨0, _⟩ => show win0_0.index t (0 : Fin 2) * 2000 + 1 * p.val = t.val * 2000 + p.val; omega
    | ⟨1, _⟩ => show win0_0.index t (1 : Fin 2) * 256 + 1 * k.val = k.val; omega
  have h1 : ((cfg0.win 1).blk t).view.emb (ix2 k q) = ix2 k q := by
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  show xArr V c (((cfg0.win 0).blk t).view.emb (ix2 p k)) * wpArr V c (((cfg0.win 1).blk t).view.emb (ix2 k q))
    = xArr V c (ix2 (rowOf t p) k) * wpArr V c (ix2 k q)
  rw [h0, h1]

/-- The skip payload likewise, with the skip weight. -/
theorem pay3_eq (c : Dev nD) (t : Fin cfg0.N) (p : Fin 2000) (q : Fin 256) :
    k0_pay3 (iblk0 V c 0 t) (iblk0 V c 2 t) (ix2 p q) = Cert.Spec.feat (xArr V c) (wkArr V c) (ix2 (rowOf t p) q) := by
  obtain ⟨⟨e00, e01⟩, -, ⟨e20, e21⟩, -⟩ := idx_facts t
  refine (mm3_apply _ _ p q).trans ?_
  unfold Cert.Spec.feat
  refine Finset.sum_congr rfl fun k _ => ?_
  have h0 : ((cfg0.win 0).blk t).view.emb (ix2 p k) = ix2 (rowOf t p) k := by
    funext a; apply Fin.ext
    match a with
    | ⟨0, _⟩ => show win0_0.index t (0 : Fin 2) * 2000 + 1 * p.val = t.val * 2000 + p.val; omega
    | ⟨1, _⟩ => show win0_0.index t (1 : Fin 2) * 256 + 1 * k.val = k.val; omega
  have h2 : ((cfg0.win 2).blk t).view.emb (ix2 k q) = ix2 k q := by
    funext a; apply Fin.ext
    match a with
    | ⟨0, _⟩ => show win0_2.index t (0 : Fin 2) * 256 + 1 * k.val = k.val; omega
    | ⟨1, _⟩ => show win0_2.index t (1 : Fin 2) * 256 + 1 * q.val = q.val; omega
  show xArr V c (((cfg0.win 0).blk t).view.emb (ix2 p k)) * wkArr V c (((cfg0.win 2).blk t).view.emb (ix2 k q))
    = xArr V c (ix2 (rowOf t p) k) * wkArr V c (ix2 k q)
  rw [h0, h2]

theorem flushed_proj (c : Dev nD) (t : Fin cfg0.N) :
    (dat0 V c).flushed 7 t = ((cfg0.win 7).blk t).view.read (Elt Ideal) (Cert.Spec.feat (xArr V c) (wpArr V c)) := by
  show (cfg0.win 7).cut (grid0.coords t) ((dat0 V c).after 7 t) = _
  rw [after0_7]
  unfold out0_7
  rw [View.canon_unit_zero hz]
  simp only [View.ld_unit_zero (S := S2000x256) hz, View.ld_unit_zero (S := S256x256) hz]
  obtain ⟨-, -, -, -, -, -, -, ⟨e70, e71⟩, -⟩ := idx_facts t
  funext j
  show k0_pay2 (iblk0 V c 0 t) (iblk0 V c 1 t) j
    = Cert.Spec.feat (xArr V c) (wpArr V c) (((cfg0.win 7).blk t).view.emb j)
  obtain ⟨p, q, rfl⟩ : ∃ (p : Fin 2000) (q : Fin 256), j = ix2 p q := ⟨j 0, j 1, eq_ix2 j⟩
  have he : ((cfg0.win 7).blk t).view.emb (ix2 p q) = ix2 (rowOf t p) q := by
    funext a; apply Fin.ext
    match a with
    | ⟨0, _⟩ => show win0_7.index t (0 : Fin 2) * 2000 + 1 * p.val = t.val * 2000 + p.val; omega
    | ⟨1, _⟩ => show win0_7.index t (1 : Fin 2) * 256 + 1 * q.val = q.val; omega
  rw [he]
  exact pay2_eq V c t p q

theorem flushed_skip (c : Dev nD) (t : Fin cfg0.N) :
    (dat0 V c).flushed 8 t = ((cfg0.win 8).blk t).view.read (Elt Ideal) (Cert.Spec.feat (xArr V c) (wkArr V c)) := by
  show (cfg0.win 8).cut (grid0.coords t) ((dat0 V c).after 8 t) = _
  rw [after0_8]
  unfold out0_8
  rw [View.canon_unit_zero hz]
  simp only [View.ld_unit_zero (S := S2000x256) hz, View.ld_unit_zero (S := S256x256) hz]
  obtain ⟨-, -, -, -, -, -, -, -, ⟨e80, e81⟩, -⟩ := idx_facts t
  funext j
  show k0_pay3 (iblk0 V c 0 t) (iblk0 V c 2 t) j
    = Cert.Spec.feat (xArr V c) (wkArr V c) (((cfg0.win 8).blk t).view.emb j)
  obtain ⟨p, q, rfl⟩ : ∃ (p : Fin 2000) (q : Fin 256), j = ix2 p q := ⟨j 0, j 1, eq_ix2 j⟩
  have he : ((cfg0.win 8).blk t).view.emb (ix2 p q) = ix2 (rowOf t p) q := by
    funext a; apply Fin.ext
    match a with
    | ⟨0, _⟩ => show win0_8.index t (0 : Fin 2) * 2000 + 1 * p.val = t.val * 2000 + p.val; omega
    | ⟨1, _⟩ => show win0_8.index t (1 : Fin 2) * 256 + 1 * q.val = q.val; omega
  rw [he]
  exact pay3_eq V c t p q

theorem flushed_ssrc (c : Dev nD) (t : Fin cfg0.N) :
    (dat0 V c).flushed 9 t = ((cfg0.win 9).blk t).view.read (Elt Ideal)
      (Cert.Spec.score (Cert.Spec.feat (xArr V c) (wpArr V c)) (wsArr V c) (fun h => bsArr V c (ix2 0 (h 0)))) := by
  show (cfg0.win 9).cut (grid0.coords t) ((dat0 V c).after 9 t) = _
  rw [after0_9]
  unfold out0_9
  rw [View.canon_unit_zero hz]
  simp only [View.ld_unit_zero (S := S2000x256) hz, View.ld_unit_zero (S := S256x256) hz,
    View.ld_unit_zero (S := S256x8) hz, View.ld_unit_zero (S := S1x8) hz]
  obtain ⟨-, -, -, ⟨e30, e31⟩, -, ⟨e50, e51⟩, -, -, -, ⟨e90, e91⟩, -⟩ := idx_facts t
  funext j
  show k0_pay5 (iblk0 V c 0 t) (iblk0 V c 1 t) (iblk0 V c 3 t) (iblk0 V c 5 t) j
    = Cert.Spec.score (Cert.Spec.feat (xArr V c) (wpArr V c)) (wsArr V c) (fun h => bsArr V c (ix2 0 (h 0)))
        (((cfg0.win 9).blk t).view.emb j)
  obtain ⟨p, h, rfl⟩ : ∃ (p : Fin 2000) (h : Fin 8), j = ix2 p h := ⟨j 0, j 1, eq_ix2 j⟩
  have he : ((cfg0.win 9).blk t).view.emb (ix2 p h) = ix2 (rowOf t p) h := by
    funext a; apply Fin.ext
    match a with
    | ⟨0, _⟩ => show win0_9.index t (0 : Fin 2) * 2000 + 1 * p.val = t.val * 2000 + p.val; omega
    | ⟨1, _⟩ => show win0_9.index t (1 : Fin 2) * 8 + 1 * h.val = h.val; omega
  rw [he]
  refine (sc5_apply _ _ _ _ p h).trans ?_
  unfold Cert.Spec.score
  have h3 : ∀ k : Fin 256, ((cfg0.win 3).blk t).view.emb (ix2 k h) = ix2 k h := fun k => by
    funext a; apply Fin.ext
    match a with
    | ⟨0, _⟩ => show win0_3.index t (0 : Fin 2) * 256 + 1 * k.val = k.val; omega
    | ⟨1, _⟩ => show win0_3.index t (1 : Fin 2) * 8 + 1 * h.val = h.val; omega
  have h5 : ((cfg0.win 5).blk t).view.emb (ix2 (0 : Fin 1) h) = ix2 (0 : Fin 1) h := by
    funext a; apply Fin.ext
    match a with
    | ⟨0, _⟩ => show win0_5.index t (0 : Fin 2) * 1 + 1 * 0 = 0; omega
    | ⟨1, _⟩ => show win0_5.index t (1 : Fin 2) * 8 + 1 * h.val = h.val; omega
  show (∑ k : Fin 256, k0_pay2 (iblk0 V c 0 t) (iblk0 V c 1 t) (ix2 p k) * wsArr V c (((cfg0.win 3).blk t).view.emb (ix2 k h)))
      + bsArr V c (((cfg0.win 5).blk t).view.emb (ix2 (0 : Fin 1) h))
    = (∑ k : Fin 256, Cert.Spec.feat (xArr V c) (wpArr V c) (ix2 (rowOf t p) k) * wsArr V c (ix2 k h))
      + bsArr V c (ix2 (0 : Fin 1) h)
  rw [h5]
  refine congrArg (· + bsArr V c (ix2 (0 : Fin 1) h)) (Finset.sum_congr rfl fun k _ => ?_)
  rw [h3 k, pay2_eq V c t p k]

theorem flushed_stgt (c : Dev nD) (t : Fin cfg0.N) :
    (dat0 V c).flushed 10 t = ((cfg0.win 10).blk t).view.read (Elt Ideal)
      (Cert.Spec.score (Cert.Spec.feat (xArr V c) (wpArr V c)) (wtArr V c) (fun h => btArr V c (ix2 0 (h 0)))) := by
  show (cfg0.win 10).cut (grid0.coords t) ((dat0 V c).after 10 t) = _
  rw [after0_10]
  unfold out0_10
  rw [View.canon_unit_zero hz]
  simp only [View.ld_unit_zero (S := S2000x256) hz, View.ld_unit_zero (S := S256x256) hz,
    View.ld_unit_zero (S := S256x8) hz, View.ld_unit_zero (S := S1x8) hz]
  obtain ⟨-, -, -, -, ⟨e40, e41⟩, -, ⟨e60, e61⟩, -, -, -, ⟨e100, e101⟩⟩ := idx_facts t
  funext j
  show k0_pay6 (iblk0 V c 0 t) (iblk0 V c 1 t) (iblk0 V c 4 t) (iblk0 V c 6 t) j
    = Cert.Spec.score (Cert.Spec.feat (xArr V c) (wpArr V c)) (wtArr V c) (fun h => btArr V c (ix2 0 (h 0)))
        (((cfg0.win 10).blk t).view.emb j)
  obtain ⟨p, h, rfl⟩ : ∃ (p : Fin 2000) (h : Fin 8), j = ix2 p h := ⟨j 0, j 1, eq_ix2 j⟩
  have he : ((cfg0.win 10).blk t).view.emb (ix2 p h) = ix2 (rowOf t p) h := by
    funext a; apply Fin.ext
    match a with
    | ⟨0, _⟩ => show win0_10.index t (0 : Fin 2) * 2000 + 1 * p.val = t.val * 2000 + p.val; omega
    | ⟨1, _⟩ => show win0_10.index t (1 : Fin 2) * 8 + 1 * h.val = h.val; omega
  rw [he]
  refine (sc6_apply _ _ _ _ p h).trans ?_
  unfold Cert.Spec.score
  have h4 : ∀ k : Fin 256, ((cfg0.win 4).blk t).view.emb (ix2 k h) = ix2 k h := fun k => by
    funext a; apply Fin.ext
    match a with
    | ⟨0, _⟩ => show win0_4.index t (0 : Fin 2) * 256 + 1 * k.val = k.val; omega
    | ⟨1, _⟩ => show win0_4.index t (1 : Fin 2) * 8 + 1 * h.val = h.val; omega
  have h6 : ((cfg0.win 6).blk t).view.emb (ix2 (0 : Fin 1) h) = ix2 (0 : Fin 1) h := by
    funext a; apply Fin.ext
    match a with
    | ⟨0, _⟩ => show win0_6.index t (0 : Fin 2) * 1 + 1 * 0 = 0; omega
    | ⟨1, _⟩ => show win0_6.index t (1 : Fin 2) * 8 + 1 * h.val = h.val; omega
  show (∑ k : Fin 256, k0_pay2 (iblk0 V c 0 t) (iblk0 V c 1 t) (ix2 p k) * wtArr V c (((cfg0.win 4).blk t).view.emb (ix2 k h)))
      + btArr V c (((cfg0.win 6).blk t).view.emb (ix2 (0 : Fin 1) h))
    = (∑ k : Fin 256, Cert.Spec.feat (xArr V c) (wpArr V c) (ix2 (rowOf t p) k) * wtArr V c (ix2 k h))
      + btArr V c (ix2 (0 : Fin 1) h)
  rw [h6]
  refine congrArg (· + btArr V c (ix2 (0 : Fin 1) h)) (Finset.sum_congr rfl fun k _ => ?_)
  rw [h4 k, pay2_eq V c t p k]

/-! ## Every row is in the block of exactly the point that computes it -/

theorem mem_blk7 (t : Fin cfg0.N) (i : S20000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v6_0).slice (win0_7.rect t)).set ↔ _
  rw [View.set_slice_whole, Rect.mem_set_unit]
  exact Iff.rfl

theorem cover7 (i : S20000x256.Idx) : ∃ t : Fin cfg0.N, (cfg0.win 7).flush t = true ∧ i ∈ ((cfg0.win 7).blk t).view.set := by
  have hi0 : (i 0).val < 20000 := (i 0).isLt
  have hi1 : (i 1).val < 256 := (i 1).isLt
  have hN : cfg0.N = 10 := N_0
  refine ⟨⟨(i 0).val / 2000, by rw [hN]; omega⟩, flush0_7 _, ?_⟩
  rw [mem_blk7]
  obtain ⟨-, -, -, -, -, -, -, ⟨e0, e1⟩, -⟩ := idx_facts ⟨(i 0).val / 2000, by rw [hN]; omega⟩
  intro a
  match a with
  | ⟨0, _⟩ => show win0_7.index _ (0 : Fin 2) * 2000 ≤ (i 0).val ∧ (i 0).val < win0_7.index _ (0 : Fin 2) * 2000 + 2000; rw [e0]; show (i 0).val / 2000 * 2000 ≤ _ ∧ _ < (i 0).val / 2000 * 2000 + 2000; omega
  | ⟨1, _⟩ => show win0_7.index _ (1 : Fin 2) * 256 ≤ (i 1).val ∧ (i 1).val < win0_7.index _ (1 : Fin 2) * 256 + 256; rw [e1]; omega

theorem mem_blk8 (t : Fin cfg0.N) (i : S20000x256.Idx) :
    i ∈ ((cfg0.win 8).blk t).view.set ↔ ∀ a : Fin 2, win0_8.index t a * S2000x256.size a ≤ (i a).val ∧ (i a).val < win0_8.index t a * S2000x256.size a + S2000x256.size a := by
  show i ∈ ((View.whole main_v6_1).slice (win0_8.rect t)).set ↔ _
  rw [View.set_slice_whole, Rect.mem_set_unit]
  exact Iff.rfl

theorem cover8 (i : S20000x256.Idx) : ∃ t : Fin cfg0.N, (cfg0.win 8).flush t = true ∧ i ∈ ((cfg0.win 8).blk t).view.set := by
  have hi0 : (i 0).val < 20000 := (i 0).isLt
  have hi1 : (i 1).val < 256 := (i 1).isLt
  have hN : cfg0.N = 10 := N_0
  refine ⟨⟨(i 0).val / 2000, by rw [hN]; omega⟩, flush0_8 _, ?_⟩
  rw [mem_blk8]
  obtain ⟨-, -, -, -, -, -, -, -, ⟨e0, e1⟩, -⟩ := idx_facts ⟨(i 0).val / 2000, by rw [hN]; omega⟩
  intro a
  match a with
  | ⟨0, _⟩ => show win0_8.index _ (0 : Fin 2) * 2000 ≤ (i 0).val ∧ (i 0).val < win0_8.index _ (0 : Fin 2) * 2000 + 2000; rw [e0]; show (i 0).val / 2000 * 2000 ≤ _ ∧ _ < (i 0).val / 2000 * 2000 + 2000; omega
  | ⟨1, _⟩ => show win0_8.index _ (1 : Fin 2) * 256 ≤ (i 1).val ∧ (i 1).val < win0_8.index _ (1 : Fin 2) * 256 + 256; rw [e1]; omega

theorem mem_blk9 (t : Fin cfg0.N) (i : S20000x8.Idx) :
    i ∈ ((cfg0.win 9).blk t).view.set ↔ ∀ a : Fin 2, win0_9.index t a * S2000x8.size a ≤ (i a).val ∧ (i a).val < win0_9.index t a * S2000x8.size a + S2000x8.size a := by
  show i ∈ ((View.whole main_v6_2).slice (win0_9.rect t)).set ↔ _
  rw [View.set_slice_whole, Rect.mem_set_unit]
  exact Iff.rfl

theorem cover9 (i : S20000x8.Idx) : ∃ t : Fin cfg0.N, (cfg0.win 9).flush t = true ∧ i ∈ ((cfg0.win 9).blk t).view.set := by
  have hi0 : (i 0).val < 20000 := (i 0).isLt
  have hi1 : (i 1).val < 8 := (i 1).isLt
  have hN : cfg0.N = 10 := N_0
  refine ⟨⟨(i 0).val / 2000, by rw [hN]; omega⟩, flush0_9 _, ?_⟩
  rw [mem_blk9]
  obtain ⟨-, -, -, -, -, -, -, -, -, ⟨e0, e1⟩, -⟩ := idx_facts ⟨(i 0).val / 2000, by rw [hN]; omega⟩
  intro a
  match a with
  | ⟨0, _⟩ => show win0_9.index _ (0 : Fin 2) * 2000 ≤ (i 0).val ∧ (i 0).val < win0_9.index _ (0 : Fin 2) * 2000 + 2000; rw [e0]; show (i 0).val / 2000 * 2000 ≤ _ ∧ _ < (i 0).val / 2000 * 2000 + 2000; omega
  | ⟨1, _⟩ => show win0_9.index _ (1 : Fin 2) * 8 ≤ (i 1).val ∧ (i 1).val < win0_9.index _ (1 : Fin 2) * 8 + 8; rw [e1]; omega

theorem mem_blk10 (t : Fin cfg0.N) (i : S20000x8.Idx) :
    i ∈ ((cfg0.win 10).blk t).view.set ↔ ∀ a : Fin 2, win0_10.index t a * S2000x8.size a ≤ (i a).val ∧ (i a).val < win0_10.index t a * S2000x8.size a + S2000x8.size a := by
  show i ∈ ((View.whole main_v6_3).slice (win0_10.rect t)).set ↔ _
  rw [View.set_slice_whole, Rect.mem_set_unit]
  exact Iff.rfl

theorem cover10 (i : S20000x8.Idx) : ∃ t : Fin cfg0.N, (cfg0.win 10).flush t = true ∧ i ∈ ((cfg0.win 10).blk t).view.set := by
  have hi0 : (i 0).val < 20000 := (i 0).isLt
  have hi1 : (i 1).val < 8 := (i 1).isLt
  have hN : cfg0.N = 10 := N_0
  refine ⟨⟨(i 0).val / 2000, by rw [hN]; omega⟩, flush0_10 _, ?_⟩
  rw [mem_blk10]
  obtain ⟨-, -, -, -, -, -, -, -, -, -, ⟨e0, e1⟩⟩ := idx_facts ⟨(i 0).val / 2000, by rw [hN]; omega⟩
  intro a
  match a with
  | ⟨0, _⟩ => show win0_10.index _ (0 : Fin 2) * 2000 ≤ (i 0).val ∧ (i 0).val < win0_10.index _ (0 : Fin 2) * 2000 + 2000; rw [e0]; show (i 0).val / 2000 * 2000 ≤ _ ∧ _ < (i 0).val / 2000 * 2000 + 2000; omega
  | ⟨1, _⟩ => show win0_10.index _ (1 : Fin 2) * 8 ≤ (i 1).val ∧ (i 1).val < win0_10.index _ (1 : Fin 2) * 8 + 8; rw [e1]; omega

/-- The projection array after the region. -/
theorem final_proj (c : Dev nD) : (dat0 V c).arrAt 7 cfg0.N = Cert.Spec.feat (xArr V c) (wpArr V c) :=
  (dat0 V c).arrAt_eq_of_cover 7 _ (fun t _ => flushed_proj V c t) cover7

/-- The skip array after the region. -/
theorem final_skip (c : Dev nD) : (dat0 V c).arrAt 8 cfg0.N = Cert.Spec.feat (xArr V c) (wkArr V c) :=
  (dat0 V c).arrAt_eq_of_cover 8 _ (fun t _ => flushed_skip V c t) cover8

/-- The source-score array after the region. -/
theorem final_ssrc (c : Dev nD) : (dat0 V c).arrAt 9 cfg0.N
    = Cert.Spec.score (Cert.Spec.feat (xArr V c) (wpArr V c)) (wsArr V c) (fun h => bsArr V c (ix2 0 (h 0))) :=
  (dat0 V c).arrAt_eq_of_cover 9 _ (fun t _ => flushed_ssrc V c t) cover9

/-- The target-score array after the region. -/
theorem final_stgt (c : Dev nD) : (dat0 V c).arrAt 10 cfg0.N
    = Cert.Spec.score (Cert.Spec.feat (xArr V c) (wpArr V c)) (wtArr V c) (fun h => btArr V c (ix2 0 (h 0))) :=
  (dat0 V c).arrAt_eq_of_cover 10 _ (fun t _ => flushed_stgt V c t) cover10

end Cert.KernelIdeal.Region0

end
-- ==== Proof.Region1.lean ====
/-
  Region 1 (the edge logits), read as a whole array at the ideal instance: over ten blocks of 2000 rows of the
  lane-dense 20000 × 128 view, elu of the sum of the two gathered score arrays, entry by entry.
-/
import proofs.«128282_j20770461843840_1_alg».proof.Proof.Gen.KernelIdeal.Frame
import proofs.«128282_j20770461843840_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Region1

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen
open scoped BigOperators

-- the buffer contents the region is entered with: a parameter, as in the generated frame
variable (V : (c : Dev nD) → (b : Ref sig .tc) → Buf (Elt Ideal) ((c : Thread nD τ).loc b))

theorem hz : (![0, 0] : Fin 2 → Nat) = fun _ => 0 := funext fun a => by fin_cases a <;> rfl

theorem exp_apply {s : Shape} {φ : FTy} (v : FVec Ideal s φ) (i : s.Idx) : exp v i = Ideal.exp (v i) := rfl

/-- The region's two input arrays at their literal types. -/
abbrev fsArr (c : Dev nD) : S20000x128.Idx → EReal := V c main_v21
abbrev ftArr (c : Dev nD) : S20000x128.Idx → EReal := V c main_v22

/-- The whole-array function of region 1. -/
def G (a b : S20000x128.Idx → EReal) : S20000x128.Idx → EReal := fun i => Cert.Spec.elu (a i + b i)

/-- The body's value at an entry: elu of the sum of the two loaded entries. -/
theorem pay_apply (x0 x1 : Vec Ideal S2000x128 .f32) (p : Fin 2000) (q : Fin 128) :
    k1_pay1 x0 x1 (ix2 p q) = Cert.Spec.elu (x0 (ix2 p q) + x1 (ix2 p q)) := by
  unfold k1_pay1 Cert.Spec.elu
  simp only [shapeCast_self]
  simp only [select_apply, cmpf_apply, subf_apply, addf_apply, broadcast_apply, exp_apply, Ideal.ofBits_def, Ideal.ofBits_one_f32]

/-- The printed index maps over the grid: every window's block at point t is rows 2000 t … of its array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function. -/
theorem flushed_eq (c : Dev nD) (t : Fin cfg1.N) :
    (dat1 V c).flushed 2 t = ((cfg1.win 2).blk t).view.read (Elt Ideal) (G (fsArr V c) (ftArr V c)) := by
  show (cfg1.win 2).cut (grid1.coords t) ((dat1 V c).after 2 t) = _
  rw [after1_2]
  unfold out1_2
  rw [View.canon_unit_zero hz]
  simp only [View.ld_unit_zero (S := S2000x128) hz]
  obtain ⟨e0, e1, e2, e3, e4, e5⟩ := idx_facts t
  funext j
  show k1_pay1 (iblk1 V c 0 t) (iblk1 V c 1 t) j = G (fsArr V c) (ftArr V c) (((cfg1.win 2).blk t).view.emb j)
  obtain ⟨p, q, rfl⟩ : ∃ (p : Fin 2000) (q : Fin 128), j = ix2 p q := ⟨j 0, j 1, eq_ix2 j⟩
  refine (pay_apply (iblk1 V c 0 t) (iblk1 V c 1 t) p q).trans ?_
  unfold G
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 p q) = ((cfg1.win 2).blk t).view.emb (ix2 p q) := by
    funext a; apply Fin.ext
    match a with
    | ⟨0, _⟩ => show win1_1.index t (0 : Fin 2) * 2000 + 1 * p.val = win1_2.index t (0 : Fin 2) * 2000 + 1 * p.val; omega
    | ⟨1, _⟩ => show win1_1.index t (1 : Fin 2) * 128 + 1 * q.val = win1_2.index t (1 : Fin 2) * 128 + 1 * q.val; omega
  show Cert.Spec.elu (fsArr V c (((cfg1.win 0).blk t).view.emb (ix2 p q)) + ftArr V c (((cfg1.win 1).blk t).view.emb (ix2 p q))) = _
  rw [h0, h1]

/-- An index is in point t's block iff each coordinate is in the block's range. -/
theorem mem_blk (t : Fin cfg1.N) (i : S20000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v23).slice (win1_2.rect t)).set ↔ _
  rw [View.set_slice_whole, Rect.mem_set_unit]
  exact Iff.rfl

/-- Every index is in some point's block: row r is in block r / 2000. -/
theorem cover (i : S20000x128.Idx) : ∃ t : Fin cfg1.N, (cfg1.win 2).flush t = true ∧ i ∈ ((cfg1.win 2).blk t).view.set := by
  have hi0 : (i 0).val < 20000 := (i 0).isLt
  have hi1 : (i 1).val < 128 := (i 1).isLt
  have hN : cfg1.N = 10 := N_1
  refine ⟨⟨(i 0).val / 2000, by rw [hN]; omega⟩, flush1_2 _, ?_⟩
  rw [mem_blk]
  obtain ⟨-, -, -, -, e4, e5⟩ := idx_facts ⟨(i 0).val / 2000, by rw [hN]; omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ _ ∧ _ < (i 0).val / 2000 * 2000 + 2000; omega
  | ⟨1, _⟩ => show win1_2.index _ (1 : Fin 2) * 128 ≤ (i 1).val ∧ (i 1).val < win1_2.index _ (1 : Fin 2) * 128 + 128; rw [e5]; omega

/-- Region 1's result array after the run. -/
theorem final (c : Dev nD) : (dat1 V c).arrAt 2 cfg1.N = G (fsArr V c) (ftArr V c) :=
  (dat1 V c).arrAt_eq_of_cover 2 _ (fun t _ => flushed_eq V c t) cover

end Cert.KernelIdeal.Region1

end
-- ==== Proof.Region2.lean ====
/-
  Region 2 (the softmax numerators), read as a whole array at the ideal instance: over ten blocks of 2000 rows of the
  20000 × 128 view, the exponential of each logit minus the one entry of the 1 × 1 maximum array.
-/
import proofs.«128282_j20770461843840_1_alg».proof.Proof.Gen.KernelIdeal.Frame
import proofs.«128282_j20770461843840_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Region2

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen
open scoped BigOperators

-- the buffer contents the region is entered with: a parameter, as in the generated frame
variable (V : (c : Dev nD) → (b : Ref sig .tc) → Buf (Elt Ideal) ((c : Thread nD τ).loc b))

theorem hz : (![0, 0] : Fin 2 → Nat) = fun _ => 0 := funext fun a => by fin_cases a <;> rfl

theorem exp_apply {s : Shape} {φ : FTy} (v : FVec Ideal s φ) (i : s.Idx) : exp v i = Ideal.exp (v i) := rfl

/-- The region's two input arrays at their literal types. -/
abbrev lgArr (c : Dev nD) : S20000x128.Idx → EReal := V c main_v23
abbrev mxArr (c : Dev nD) : S1x1.Idx → EReal := V c main_v25

/-- The whole-array function of region 2. -/
def G (a : S20000x128.Idx → EReal) (g : S1x1.Idx → EReal) : S20000x128.Idx → EReal :=
  fun i => Ideal.exp (a i - g (ix2 0 0))

/-- The one entry of a 1 × 1 array. -/
theorem extract_one (x : Vec Ideal S1x1 .f32) : extractAt ![0, 0] x inpos_S1x1_p0_0 = x (ix2 0 0) := by
  unfold extractAt
  refine congrArg x (funext fun a => Fin.ext ?_)
  match a with
  | ⟨0, _⟩ => rfl
  | ⟨1, _⟩ => rfl

/-- The body's value at an entry: the exponential of the loaded entry minus the maximum. -/
theorem pay_apply (x0 : Vec Ideal S2000x128 .f32) (x1 : Vec Ideal S1x1 .f32) (p : Fin 2000) (q : Fin 128) :
    k2_pay1 x0 x1 (ix2 p q) = Ideal.exp (x0 (ix2 p q) - x1 (ix2 0 0)) := by
  unfold k2_pay1
  simp only [shapeCast_self]
  simp only [subf_apply, broadcast_apply, exp_apply]
  rw [extract_one x1]

/-- The printed index maps over the grid: the logits' and the result's block at point t is rows 2000 t …; the
    maximum's block is the whole 1 × 1 array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array function. -/
theorem flushed_eq (c : Dev nD) (t : Fin cfg2.N) :
    (dat2 V c).flushed 2 t = ((cfg2.win 2).blk t).view.read (Elt Ideal) (G (lgArr V c) (mxArr V c)) := by
  show (cfg2.win 2).cut (grid2.coords t) ((dat2 V c).after 2 t) = _
  rw [after2_2]
  unfold out2_2
  rw [View.canon_unit_zero hz]
  simp only [View.ld_unit_zero (S := S2000x128) hz, View.ld_unit_zero (S := S1x1) hz]
  obtain ⟨e0, e1, e2, e3, e4, e5⟩ := idx_facts t
  funext j
  show k2_pay1 (iblk2 V c 0 t) (iblk2 V c 1 t) j = G (lgArr V c) (mxArr V c) (((cfg2.win 2).blk t).view.emb j)
  obtain ⟨p, q, rfl⟩ : ∃ (p : Fin 2000) (q : Fin 128), j = ix2 p q := ⟨j 0, j 1, eq_ix2 j⟩
  refine (pay_apply (iblk2 V c 0 t) (iblk2 V c 1 t) p q).trans ?_
  unfold G
  have h0 : ((cfg2.win 0).blk t).view.emb (ix2 p q) = ((cfg2.win 2).blk t).view.emb (ix2 p q) := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * q.val = win2_2.index t (1 : Fin 2) * 128 + 1 * q.val; omega
  have h1 : ((cfg2.win 1).blk t).view.emb (ix2 (0 : Fin 1) (0 : Fin 1)) = ix2 (0 : Fin 1) (0 : Fin 1) := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  show Ideal.exp (lgArr V c (((cfg2.win 0).blk t).view.emb (ix2 p q)) - mxArr V c (((cfg2.win 1).blk t).view.emb (ix2 (0 : Fin 1) (0 : Fin 1)))) = _
  rw [h0, h1]

/-- An index is in point t's block iff each coordinate is in the block's range. -/
theorem mem_blk (t : Fin cfg2.N) (i : S20000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v26).slice (win2_2.rect t)).set ↔ _
  rw [View.set_slice_whole, Rect.mem_set_unit]
  exact Iff.rfl

/-- Every index is in some point's block: row r is in block r / 2000. -/
theorem cover (i : S20000x128.Idx) : ∃ t : Fin cfg2.N, (cfg2.win 2).flush t = true ∧ i ∈ ((cfg2.win 2).blk t).view.set := by
  have hi0 : (i 0).val < 20000 := (i 0).isLt
  have hi1 : (i 1).val < 128 := (i 1).isLt
  have hN : cfg2.N = 10 := N_2
  refine ⟨⟨(i 0).val / 2000, by rw [hN]; omega⟩, flush2_2 _, ?_⟩
  rw [mem_blk]
  obtain ⟨-, -, -, -, e4, e5⟩ := idx_facts ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ _ ∧ _ < (i 0).val / 2000 * 2000 + 2000; omega
  | ⟨1, _⟩ => show win2_2.index _ (1 : Fin 2) * 128 ≤ (i 1).val ∧ (i 1).val < win2_2.index _ (1 : Fin 2) * 128 + 128; rw [e5]; omega

/-- Region 2's result array after the run. -/
theorem final (c : Dev nD) : (dat2 V c).arrAt 2 cfg2.N = G (lgArr V c) (mxArr V c) :=
  (dat2 V c).arrAt_eq_of_cover 2 _ (fun t _ => flushed_eq V c t) cover

end Cert.KernelIdeal.Region2

end
-- ==== Proof.Region3.lean ====
/-
  Region 3 (the weighted messages), read as a whole array at the ideal instance: over 64 blocks of 5000 edges the kernel
  leaves, at edge e and column j, the gathered projection times the row e of the attention weights against column j
  of the 8 × 256 expansion matrix.
-/
import proofs.«128282_j20770461843840_1_alg».proof.Proof.Gen.KernelIdeal.Frame
import proofs.«128282_j20770461843840_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Region3

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen
open scoped BigOperators

-- the buffer contents the region is entered with: a parameter, as in the generated frame
variable (V : (c : Dev nD) → (b : Ref sig .tc) → Buf (Elt Ideal) ((c : Thread nD τ).loc b))

/-- The region's three input arrays at their literal types. -/
abbrev gArr (c : Dev nD) : S320000x256.Idx → EReal := V c main_v49
abbrev attArr (c : Dev nD) : S320000x8.Idx → EReal := V c main_v40
abbrev ematArr (c : Dev nD) : S8x256.Idx → EReal := V c main_v57

/-- The whole-array function of region 3. -/
def G (g : S320000x256.Idx → EReal) (a : S320000x8.Idx → EReal) (e : S8x256.Idx → EReal) : S320000x256.Idx → EReal :=
  fun i => g i * ∑ k : Fin 8, a (ix2 (i 0) k) * e (ix2 k (i 1))

theorem hz : (![0, 0] : Fin 2 → Nat) = fun _ => 0 := funext fun a => by fin_cases a <;> rfl

/-! ## The block product at an index

The product contracts the left operand's axis 1 with the right operand's axis 0: at output (p, q) and contraction
position k the left operand is read at (p, k) and the right at (k, q). The four coordinates, one lemma each. -/

/-- Left operand, axis 0: the output's row. -/
theorem lhs_0 (i : S5000x256.Idx) (k : dot_S5000x8_S8x256_S5000x256_1_0_0_1_n_n.contr.Idx) :
    (dot_S5000x8_S8x256_S5000x256_1_0_0_1_n_n.lhsIdx i k 0).val = (i 0).val := by
  unfold DotDims.lhsIdx
  rw [dif_neg (show ¬(0 : Fin S5000x8.rank) ∈ dot_S5000x8_S8x256_S5000x256_1_0_0_1_n_n.lhsBatch by decide),
    dif_pos (show (0 : Fin S5000x8.rank) ∈ dot_S5000x8_S8x256_S5000x256_1_0_0_1_n_n.lhsNonContracting by decide)]
  rfl

/-- Left operand, axis 1: the contraction position. -/
theorem lhs_1 (i : S5000x256.Idx) (k : dot_S5000x8_S8x256_S5000x256_1_0_0_1_n_n.contr.Idx) :
    (dot_S5000x8_S8x256_S5000x256_1_0_0_1_n_n.lhsIdx i k 1).val = (k ⟨0, by decide⟩).val :=
  dot_S5000x8_S8x256_S5000x256_1_0_0_1_n_n.lhsIdx_val_of_single rfl i k

/-- Right operand, axis 0: the contraction position. -/
theorem rhs_0 (i : S5000x256.Idx) (k : dot_S5000x8_S8x256_S5000x256_1_0_0_1_n_n.contr.Idx) :
    (dot_S5000x8_S8x256_S5000x256_1_0_0_1_n_n.rhsIdx i k 0).val = (k ⟨0, by decide⟩).val :=
  dot_S5000x8_S8x256_S5000x256_1_0_0_1_n_n.rhsIdx_val_of_single rfl i k

/-- Right operand, axis 1: the output's column. -/
theorem rhs_1 (i : S5000x256.Idx) (k : dot_S5000x8_S8x256_S5000x256_1_0_0_1_n_n.contr.Idx) :
    (dot_S5000x8_S8x256_S5000x256_1_0_0_1_n_n.rhsIdx i k 1).val = (i 1).val := by
  unfold DotDims.rhsIdx
  rw [dif_neg (show ¬(1 : Fin S8x256.rank) ∈ dot_S5000x8_S8x256_S5000x256_1_0_0_1_n_n.rhsBatch by decide),
    dif_pos (show (1 : Fin S8x256.rank) ∈ dot_S5000x8_S8x256_S5000x256_1_0_0_1_n_n.rhsNonContracting by decide)]
  rfl

/-- The block product into the zero block, at (p, q): row p of the left operand against column q of the right. -/
theorem matmul_apply {φ₁ φ₂ : FTy} (a : FVec Ideal S5000x8 φ₁) (e : FVec Ideal S8x256 φ₂) (p : Fin 5000) (q : Fin 256) :
    matmul dot_S5000x8_S8x256_S5000x256_1_0_0_1_n_n none a e (constant (F := Ideal) S5000x256 .f32 0x00000000#32) (ix2 p q)
      = ∑ k : Fin 8, a (ix2 p k) * e (ix2 k q) := by
  simp only [matmul]
  rw [Ideal.matmul_constant_zero_apply,
    ← Equiv.sum_comp (contrEquiv1 dot_S5000x8_S8x256_S5000x256_1_0_0_1_n_n 8 rfl rfl).symm]
  refine Finset.sum_congr rfl fun k _ => ?_
  have hk := contrEquiv1_symm_val dot_S5000x8_S8x256_S5000x256_1_0_0_1_n_n 8 rfl rfl k
  have el : dot_S5000x8_S8x256_S5000x256_1_0_0_1_n_n.lhsIdx (ix2 p q)
      ((contrEquiv1 dot_S5000x8_S8x256_S5000x256_1_0_0_1_n_n 8 rfl rfl).symm k) = ix2 p k :=
    funext fun x => Fin.ext (by
      match x with
      | ⟨0, _⟩ => exact lhs_0 _ _
      | ⟨1, _⟩ => exact (lhs_1 _ _).trans hk)
  have er : dot_S5000x8_S8x256_S5000x256_1_0_0_1_n_n.rhsIdx (ix2 p q)
      ((contrEquiv1 dot_S5000x8_S8x256_S5000x256_1_0_0_1_n_n 8 rfl rfl).symm k) = ix2 k q :=
    funext fun x => Fin.ext (by
      match x with
      | ⟨0, _⟩ => exact (rhs_0 _ _).trans hk
      | ⟨1, _⟩ => exact rhs_1 _ _)
  rw [el, er]

/-- The payload at (p, q): the gathered entry times the attention row against the expansion matrix's column. -/
theorem pay_apply (a : Vec Ideal S5000x8 .f32) (e : Vec Ideal S8x256 .f32) (g : Vec Ideal S5000x256 .f32)
    (p : Fin 5000) (q : Fin 256) :
    k3_pay1 a e g (ix2 p q) = g (ix2 p q) * ∑ k : Fin 8, a (ix2 p k) * e (ix2 k q) := by
  unfold k3_pay1
  simp only [shapeCast_self]
  rw [mulf_apply, matmul_apply]
  rfl

/-! ## From blocks to the array -/

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem flushed_eq (c : Dev nD) (t : Fin cfg3.N) :
    (dat3 V c).flushed 3 t = ((cfg3.win 3).blk t).view.read (Elt Ideal) (G (gArr V c) (attArr V c) (ematArr V c)) := by
  show (cfg3.win 3).cut (grid3.coords t) ((dat3 V c).after 3 t) = _
  rw [after3_3]
  unfold out3_3
  rw [View.canon_unit_zero hz]
  simp only [View.ld_unit_zero (S := S5000x256) hz, View.ld_unit_zero (S := S5000x8) hz, View.ld_unit_zero (S := S8x256) hz]
  obtain ⟨e0, e1, e2, e3, e4, e5, e6, e7⟩ := idx_facts t
  funext j
  show k3_pay1 (iblk3 V c 1 t) (iblk3 V c 2 t) (iblk3 V c 0 t) j
    = G (gArr V c) (attArr V c) (ematArr V c) (((cfg3.win 3).blk t).view.emb j)
  obtain ⟨p, q, rfl⟩ : ∃ (p : Fin 5000) (q : Fin 256), j = ix2 p q := ⟨j 0, j 1, eq_ix2 j⟩
  refine (pay_apply (iblk3 V c 1 t) (iblk3 V c 2 t) (iblk3 V c 0 t) p q).trans ?_
  unfold G
  -- the gathered block sits where the result block does
  have h0 : ((cfg3.win 0).blk t).view.emb (ix2 p q) = ((cfg3.win 3).blk t).view.emb (ix2 p q) := by
    funext x; apply Fin.ext
    match x with
    | ⟨0, _⟩ => show win3_0.index t (0 : Fin 2) * 5000 + 1 * p.val = win3_3.index t (0 : Fin 2) * 5000 + 1 * p.val; omega
    | ⟨1, _⟩ => show win3_0.index t (1 : Fin 2) * 256 + 1 * q.val = win3_3.index t (1 : Fin 2) * 256 + 1 * q.val; omega
  -- the attention block holds the same edges' rows, all eight heads
  have h1 : ∀ k : Fin 8, ((cfg3.win 1).blk t).view.emb (ix2 p k)
      = ix2 ((((cfg3.win 3).blk t).view.emb (ix2 p q)) 0) k := fun k => by
    funext x; apply Fin.ext
    match x with
    | ⟨0, _⟩ => show win3_1.index t (0 : Fin 2) * 5000 + 1 * p.val = win3_3.index t (0 : Fin 2) * 5000 + 1 * p.val; omega
    | ⟨1, _⟩ => show win3_1.index t (1 : Fin 2) * 8 + 1 * k.val = k.val; omega
  -- the expansion matrix is read whole; the result's column is the block's
  have h2 : ∀ k : Fin 8, ((cfg3.win 2).blk t).view.emb (ix2 k q)
      = ix2 k ((((cfg3.win 3).blk t).view.emb (ix2 p q)) 1) := fun k => by
    funext x; apply Fin.ext
    match x with
    | ⟨0, _⟩ => show win3_2.index t (0 : Fin 2) * 8 + 1 * k.val = k.val; omega
    | ⟨1, _⟩ => show win3_2.index t (1 : Fin 2) * 256 + 1 * q.val = win3_3.index t (1 : Fin 2) * 256 + 1 * q.val; omega
  show gArr V c (((cfg3.win 0).blk t).view.emb (ix2 p q))
      * ∑ k : Fin 8, attArr V c (((cfg3.win 1).blk t).view.emb (ix2 p k)) * ematArr V c (((cfg3.win 2).blk t).view.emb (ix2 k q)) = _
  rw [h0]
  refine congrArg (_ * ·) (Finset.sum_congr rfl fun k _ => ?_)
  rw [h1 k, h2 k]
  rfl

theorem mem_blk (t : Fin cfg3.N) (i : S320000x256.Idx) :
    i ∈ ((cfg3.win 3).blk t).view.set ↔ ∀ a : Fin 2, win3_3.index t a * S5000x256.size a ≤ (i a).val ∧ (i a).val < win3_3.index t a * S5000x256.size a + S5000x256.size a := by
  show i ∈ ((View.whole main_v58).slice (win3_3.rect t)).set ↔ _
  rw [View.set_slice_whole, Rect.mem_set_unit]
  exact Iff.rfl

/-- Edge e lies in block e / 5000. -/
theorem cover (i : S320000x256.Idx) : ∃ t : Fin cfg3.N, (cfg3.win 3).flush t = true ∧ i ∈ ((cfg3.win 3).blk t).view.set := by
  have hi0 : (i 0).val < 320000 := (i 0).isLt
  have hi1 : (i 1).val < 256 := (i 1).isLt
  have hN : cfg3.N = 64 := N_3
  refine ⟨⟨(i 0).val / 5000, by rw [hN]; omega⟩, flush3_3 _, ?_⟩
  rw [mem_blk]
  obtain ⟨-, -, -, -, -, -, e6, e7⟩ := idx_facts ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e6]; show (i 0).val / 5000 * 5000 ≤ _ ∧ _ < (i 0).val / 5000 * 5000 + 5000; omega
  | ⟨1, _⟩ => show win3_3.index _ (1 : Fin 2) * 256 ≤ (i 1).val ∧ (i 1).val < win3_3.index _ (1 : Fin 2) * 256 + 256; rw [e7]; omega

/-- The message array after the region. -/
theorem final (c : Dev nD) : (dat3 V c).arrAt 3 cfg3.N = G (gArr V c) (attArr V c) (ematArr V c) :=
  (dat3 V c).arrAt_eq_of_cover 3 _ (fun t _ => flushed_eq V c t) cover

end Cert.KernelIdeal.Region3

end
-- ==== Proof.Region4.lean ====
/-
  Region 4 (the final combine), read as a whole array at the ideal instance: over ten blocks of 2000 rows, elu of the
  aggregated messages plus the skip term plus the bias row, entry by entry.
-/
import proofs.«128282_j20770461843840_1_alg».proof.Proof.Gen.KernelIdeal.Frame
import proofs.«128282_j20770461843840_1_alg».proof.Proof.Spec
import Idealize.ShloMosaic.Lib.Pipeline.Value
import Idealize.ShloMosaic.Lib.ValueIdx
import Idealize.ShloMosaic.Lib.IdealHost

set_option maxRecDepth 16384

noncomputable section

namespace Cert.KernelIdeal.Region4

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem exp_apply {s : Shape} {φ : FTy} (v : FVec Ideal s φ) (i : s.Idx) : exp v i = Ideal.exp (v i) := rfl

/-- The whole-array function of region 4. -/
def G (a s : S20000x256.Idx → EReal) (b : S1x256.Idx → EReal) : S20000x256.Idx → EReal :=
  fun i => Cert.Spec.elu (a i + s i + b (ix2 0 (i 1)))

theorem pay_apply (x0 x1 : Vec Ideal S2000x256 .f32) (x2 : Vec Ideal S1x256 .f32) (p : Fin 2000) (q : Fin 256) :
    k4_pay1 x0 x1 x2 (ix2 p q) = Cert.Spec.elu (x0 (ix2 p q) + x1 (ix2 p q) + x2 (ix2 0 q)) := by
  unfold k4_pay1 Cert.Spec.elu
  simp only [shapeCast_self]
  have hb : broadcastTo S2000x256 x2 broadcasts_S1x256_S2000x256 (ix2 p q) = x2 (ix2 0 q) :=
    broadcastTo_apply _ _ _ _ (fun a => by match a with | ⟨0, _⟩ => rfl | ⟨1, _⟩ => rfl)
  simp only [select_apply, cmpf_apply, subf_apply, addf_apply, broadcast_apply, exp_apply, hb, Ideal.ofBits_def, Ideal.ofBits_one_f32]

/-- The region's three input arrays at their literal types. -/
abbrev aggArr (c : Dev nD) : S20000x256.Idx → EReal := V c main_v63
abbrev skipArr (c : Dev nD) : S20000x256.Idx → EReal := V c main_v6_1
abbrev biasArr (c : Dev nD) : S1x256.Idx → EReal := V c main_v64

theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem flushed_eq (c : Dev nD) (t : Fin cfg4.N) :
    (dat4 V c).flushed 3 t = ((cfg4.win 3).blk t).view.read (Elt Ideal) (G (aggArr V c) (skipArr V c) (biasArr V c)) := by
  show (cfg4.win 3).cut (grid4.coords t) ((dat4 V c).after 3 t) = _
  rw [after4_3]
  unfold out4_3
  rw [View.canon_unit_zero hz]
  simp only [View.ld_unit_zero (S := S2000x256) hz, View.ld_unit_zero (S := S1x256) hz]
  obtain ⟨e0, e1, e2, e3, e4, e5, e6, e7⟩ := idx_facts t
  funext j
  show k4_pay1 (iblk4 V c 0 t) (iblk4 V c 1 t) (iblk4 V c 2 t) j
    = G (aggArr V c) (skipArr V c) (biasArr V c) (((cfg4.win 3).blk t).view.emb j)
  obtain ⟨p, q, rfl⟩ : ∃ (p : Fin 2000) (q : Fin 256), j = ix2 p q := ⟨j 0, j 1, eq_ix2 j⟩
  refine (pay_apply (iblk4 V c 0 t) (iblk4 V c 1 t) (iblk4 V c 2 t) p q).trans ?_
  unfold G
  have h0 : ((cfg4.win 0).blk t).view.emb (ix2 p q) = ((cfg4.win 3).blk t).view.emb (ix2 p q) := by
    funext a; apply Fin.ext
    match a with
    | ⟨0, _⟩ => show win4_0.index t (0 : Fin 2) * 2000 + 1 * p.val = win4_3.index t (0 : Fin 2) * 2000 + 1 * p.val; omega
    | ⟨1, _⟩ => show win4_0.index t (1 : Fin 2) * 256 + 1 * q.val = win4_3.index t (1 : Fin 2) * 256 + 1 * q.val; omega
  have h1 : ((cfg4.win 1).blk t).view.emb (ix2 p q) = ((cfg4.win 3).blk t).view.emb (ix2 p q) := by
    funext a; apply Fin.ext
    match a with
    | ⟨0, _⟩ => show win4_1.index t (0 : Fin 2) * 2000 + 1 * p.val = win4_3.index t (0 : Fin 2) * 2000 + 1 * p.val; omega
    | ⟨1, _⟩ => show win4_1.index t (1 : Fin 2) * 256 + 1 * q.val = win4_3.index t (1 : Fin 2) * 256 + 1 * q.val; omega
  have h2 : ((cfg4.win 2).blk t).view.emb (ix2 (0 : Fin 1) q) = ix2 (0 : Fin 1) ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 256 + 1 * q.val = win4_3.index t (1 : Fin 2) * 256 + 1 * q.val; omega
  show Cert.Spec.elu (aggArr V c (((cfg4.win 0).blk t).view.emb (ix2 p q)) + skipArr V c (((cfg4.win 1).blk t).view.emb (ix2 p q)) + biasArr V c (((cfg4.win 2).blk t).view.emb (ix2 (0 : Fin 1) q))) = _
  rw [h0, h1, h2]
  rfl

theorem mem_blk (t : Fin cfg4.N) (i : S20000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v65).slice (win4_3.rect t)).set ↔ _
  rw [View.set_slice_whole, Rect.mem_set_unit]
  exact Iff.rfl

theorem cover (i : S20000x256.Idx) : ∃ t : Fin cfg4.N, (cfg4.win 3).flush t = true ∧ i ∈ ((cfg4.win 3).blk t).view.set := by
  have hi0 : (i 0).val < 20000 := (i 0).isLt
  have hi1 : (i 1).val < 256 := (i 1).isLt
  have hN : cfg4.N = 10 := N_4
  refine ⟨⟨(i 0).val / 2000, by rw [hN]; omega⟩, flush4_3 _, ?_⟩
  rw [mem_blk]
  obtain ⟨-, -, -, -, -, -, e6, e7⟩ := idx_facts ⟨(i 0).val / 2000, by rw [hN]; omega⟩
  intro a
  match a with
  | ⟨0, _⟩ => show win4_3.index _ (0 : Fin 2) * 2000 ≤ (i 0).val ∧ (i 0).val < win4_3.index _ (0 : Fin 2) * 2000 + 2000; rw [e6]; show (i 0).val / 2000 * 2000 ≤ _ ∧ _ < (i 0).val / 2000 * 2000 + 2000; omega
  | ⟨1, _⟩ => show win4_3.index _ (1 : Fin 2) * 256 ≤ (i 1).val ∧ (i 1).val < win4_3.index _ (1 : Fin 2) * 256 + 256; rw [e7]; omega

/-- Region 4's result array after the run. -/
theorem final (c : Dev nD) : (dat4 V c).arrAt 3 cfg4.N = G (aggArr V c) (skipArr V c) (biasArr V c) :=
  (dat4 V c).arrAt_eq_of_cover 3 _ (fun t _ => flushed_eq V c t) cover

end Cert.KernelIdeal.Region4
end
-- ==== Proof.KerChain.lean ====
/-
  The kernel program's result array, at the ideal instance, is the specification's result: the buffer contents at each
  boundary of @main — after each stretch of host operations and after each of the five kernel regions — are read one
  after the other as the specification's arrays (the projection, the skip term, the head scores, the logits in their
  lane-dense view, their maximum, the exponentials, the attention weights, the gathered projection, the messages,
  their sum per target), down to the result.
-/
import proofs.«128282_j20770461843840_1_alg».proof.Proof.Gen.KernelIdeal.Frame
import proofs.«128282_j20770461843840_1_alg».proof.Proof.Spec
import proofs.«128282_j20770461843840_1_alg».proof.Proof.KerMath
import proofs.«128282_j20770461843840_1_alg».proof.Proof.Region0
import proofs.«128282_j20770461843840_1_alg».proof.Proof.Region1
import proofs.«128282_j20770461843840_1_alg».proof.Proof.Region2
import proofs.«128282_j20770461843840_1_alg».proof.Proof.Region3
import proofs.«128282_j20770461843840_1_alg».proof.Proof.Region4
import Idealize.ShloMosaic.Lib.StableHlo.Run
import Idealize.ShloMosaic.Lib.Pipeline.Value
import Idealize.ShloMosaic.Lib.ValueIdx
import Idealize.ShloMosaic.Lib.IdealHost

set_option maxRecDepth 16384
-- reading a buffer through a stretch of twenty to forty host operations rewrites once per operation
set_option maxHeartbeats 4000000

noncomputable section

namespace Cert.KernelIdeal.Chain

open Idealize.ShloMosaic Idealize.ShloMosaic.TcCoe Idealize.ShloMosaic.Tactic Idealize.SL.Sem
open Idealize.ShloMosaic.ValueIdx
open Cert.KernelIdeal Cert.KernelIdeal.Gen

variable (m : (ℓ : Loc nD τ sig) → Buf (Elt Ideal) ℓ) (ρ : Dev nD → PrngReg) (c : Dev nD)

/-! ## The nine arguments and the specification's arrays of them -/

abbrev aX : S20000x256.Idx → EReal := m ((c : Thread nD τ).loc main_arg0)
abbrev aE : IVec S2x320000 32 := m ((c : Thread nD τ).loc main_arg1)
abbrev aWp : S256x256.Idx → EReal := m ((c : Thread nD τ).loc main_arg2)
abbrev aWs : S256x8.Idx → EReal := m ((c : Thread nD τ).loc main_arg3)
abbrev aBs : S8.Idx → EReal := m ((c : Thread nD τ).loc main_arg4)
abbrev aWt : S256x8.Idx → EReal := m ((c : Thread nD τ).loc main_arg5)
abbrev aBt : S8.Idx → EReal := m ((c : Thread nD τ).loc main_arg6)
abbrev aWk : S256x256.Idx → EReal := m ((c : Thread nD τ).loc main_arg7)
abbrev aBias : S256.Idx → EReal := m ((c : Thread nD τ).loc main_arg8)

abbrev gH : (Cert.Spec.sNH.Idx → EReal) → (Cert.Spec.sE1.Idx → BitVec 32) → (Cert.Spec.sEH.Idx → EReal) :=
  fun x i => Host.gather Cert.Spec.gdH x i
abbrev sH : (Cert.Spec.sNH.Idx → EReal) → (Cert.Spec.sE1.Idx → BitVec 32) → (Cert.Spec.sEH.Idx → EReal) → (Cert.Spec.sNH.Idx → EReal) :=
  fun x i u => Host.scatterAdd (F := Ideal) (φ := .f32) Cert.Spec.sdH x i u
abbrev gHC : (Cert.Spec.sNHC.Idx → EReal) → (Cert.Spec.sE1.Idx → BitVec 32) → (Cert.Spec.sEHC.Idx → EReal) :=
  fun x i => Host.gather Cert.Spec.gdHC x i
abbrev sHC : (Cert.Spec.sNHC.Idx → EReal) → (Cert.Spec.sE1.Idx → BitVec 32) → (Cert.Spec.sEHC.Idx → EReal) → (Cert.Spec.sNHC.Idx → EReal) :=
  fun x i u => Host.scatterAdd (F := Ideal) (φ := .f32) Cert.Spec.sdHC x i u

abbrev row0 : IVec Cert.Spec.sE 32 := Cert.Spec.edgeRow 0 (aE m c) (by decide)
abbrev row1 : IVec Cert.Spec.sE 32 := Cert.Spec.edgeRow 1 (aE m c) (by decide)
abbrev srcC : IVec Cert.Spec.sE1 32 := Cert.Spec.normIdx (row0 m c)
abbrev tgtC : IVec Cert.Spec.sE1 32 := Cert.Spec.normIdx (row1 m c)
abbrev tgtR : IVec Cert.Spec.sE1 32 := Cert.Spec.rawIdx (row1 m c)

abbrev sProj : Cert.Spec.sNF.Idx → EReal := Cert.Spec.feat (aX m c) (aWp m c)
abbrev sSkip : Cert.Spec.sNF.Idx → EReal := Cert.Spec.feat (aX m c) (aWk m c)
abbrev sSsrc : Cert.Spec.sNH.Idx → EReal := Cert.Spec.score (sProj m c) (aWs m c) (aBs m c)
abbrev sStgt : Cert.Spec.sNH.Idx → EReal := Cert.Spec.score (sProj m c) (aWt m c) (aBt m c)
abbrev sLogit : Cert.Spec.sEH.Idx → EReal :=
  Cert.Spec.logit gH (srcC m c) (tgtC m c) (aX m c) (aWp m c) (aWs m c) (aBs m c) (aWt m c) (aBt m c)
abbrev sGmax : EReal := Cert.Spec.gmax gH (srcC m c) (tgtC m c) (aX m c) (aWp m c) (aWs m c) (aBs m c) (aWt m c) (aBt m c)
abbrev sEx : Cert.Spec.sEH.Idx → EReal :=
  Cert.Spec.ex gH (srcC m c) (tgtC m c) (aX m c) (aWp m c) (aWs m c) (aBs m c) (aWt m c) (aBt m c)
abbrev sAtt : Cert.Spec.sEH.Idx → EReal :=
  Cert.Spec.att gH sH (srcC m c) (tgtC m c) (tgtR m c) (aX m c) (aWp m c) (aWs m c) (aBs m c) (aWt m c) (aBt m c)
abbrev sGathered : Cert.Spec.sEHC.Idx → EReal := Cert.Spec.gathered gHC (srcC m c) (aX m c) (aWp m c)
abbrev sWeighted : Cert.Spec.sEHC.Idx → EReal :=
  Cert.Spec.weighted gH sH gHC (srcC m c) (tgtC m c) (tgtR m c) (aX m c) (aWp m c) (aWs m c) (aBs m c) (aWt m c) (aBt m c)
abbrev sAgg : Cert.Spec.sNHC.Idx → EReal :=
  Cert.Spec.agg gH sH gHC sHC (srcC m c) (tgtC m c) (tgtR m c) (aX m c) (aWp m c) (aWs m c) (aBs m c) (aWt m c) (aBt m c)

/-! ## Boundary 1: after the first stretch (the edge rows, the biases as 1 × 8) -/

theorem w1_v1 : W1 m ρ c (Proc.devRef .tc main_v1) = row0 m c := by
  show StableHlo.after hostOps0 (W0 m ρ c) (Proc.devRef .tc main_v1) = _
  after_results; rfl
theorem w1_v3 : W1 m ρ c (Proc.devRef .tc main_v3) = row1 m c := by
  show StableHlo.after hostOps0 (W0 m ρ c) (Proc.devRef .tc main_v3) = _
  after_results; rfl
theorem w1_v4 : W1 m ρ c (Proc.devRef .tc main_v4) = shapeCast S1x8 (aBs m c) Facts₀.shapeCasts_S8_S1x8 := by
  show StableHlo.after hostOps0 (W0 m ρ c) (Proc.devRef .tc main_v4) = _
  after_results; rfl
theorem w1_v5 : W1 m ρ c (Proc.devRef .tc main_v5) = shapeCast S1x8 (aBt m c) Facts₀.shapeCasts_S8_S1x8 := by
  show StableHlo.after hostOps0 (W0 m ρ c) (Proc.devRef .tc main_v5) = _
  after_results; rfl
theorem w1_arg0 : W1 m ρ c (Proc.devRef .tc main_arg0) = aX m c := by
  show StableHlo.after hostOps0 (W0 m ρ c) (Proc.devRef .tc main_arg0) = _
  after_results
theorem w1_arg2 : W1 m ρ c (Proc.devRef .tc main_arg2) = aWp m c := by
  show StableHlo.after hostOps0 (W0 m ρ c) (Proc.devRef .tc main_arg2) = _
  after_results
theorem w1_arg3 : W1 m ρ c (Proc.devRef .tc main_arg3) = aWs m c := by
  show StableHlo.after hostOps0 (W0 m ρ c) (Proc.devRef .tc main_arg3) = _
  after_results
theorem w1_arg5 : W1 m ρ c (Proc.devRef .tc main_arg5) = aWt m c := by
  show StableHlo.after hostOps0 (W0 m ρ c) (Proc.devRef .tc main_arg5) = _
  after_results
theorem w1_arg7 : W1 m ρ c (Proc.devRef .tc main_arg7) = aWk m c := by
  show StableHlo.after hostOps0 (W0 m ρ c) (Proc.devRef .tc main_arg7) = _
  after_results
theorem w1_arg8 : W1 m ρ c (Proc.devRef .tc main_arg8) = aBias m c := by
  show StableHlo.after hostOps0 (W0 m ρ c) (Proc.devRef .tc main_arg8) = _
  after_results

/-! ## Boundary 2: after region 0 (the projection, the skip term, the head scores) -/

/-- A 1 × 8 view of a bias, read at (0, h), is the bias at h. -/
theorem bias_row (b : S8.Idx → EReal) : (fun h : Cert.Spec.sH.Idx => shapeCast S1x8 b Facts₀.shapeCasts_S8_S1x8 (ix2 0 (h 0))) = b := by
  funext h
  refine shapeCast_apply b _ (ix2 0 (h 0)) h ?_
  rw [Shape.rowMajor_val_one, Shape.rowMajor_val_two]
  show (h 0).val = (0 : Fin 1).val * 8 + (h 0).val
  simp

theorem w2_v6_0 : W2 m ρ c (Proc.devRef .tc main_v6_0) = sProj m c := by
  refine (W2_arr m ρ c 7).trans ((Region0.final_proj (V1 m ρ) c).trans ?_)
  show Cert.Spec.feat (W1 m ρ c (Proc.devRef .tc main_arg0)) (W1 m ρ c (Proc.devRef .tc main_arg2)) = _
  rw [w1_arg0, w1_arg2]

theorem w2_v6_1 : W2 m ρ c (Proc.devRef .tc main_v6_1) = sSkip m c := by
  refine (W2_arr m ρ c 8).trans ((Region0.final_skip (V1 m ρ) c).trans ?_)
  show Cert.Spec.feat (W1 m ρ c (Proc.devRef .tc main_arg0)) (W1 m ρ c (Proc.devRef .tc main_arg7)) = _
  rw [w1_arg0, w1_arg7]

theorem w2_v6_2 : W2 m ρ c (Proc.devRef .tc main_v6_2) = sSsrc m c := by
  refine (W2_arr m ρ c 9).trans ((Region0.final_ssrc (V1 m ρ) c).trans ?_)
  show Cert.Spec.score (Cert.Spec.feat (W1 m ρ c (Proc.devRef .tc main_arg0)) (W1 m ρ c (Proc.devRef .tc main_arg2)))
    (W1 m ρ c (Proc.devRef .tc main_arg3)) (fun h : Cert.Spec.sH.Idx => (W1 m ρ c (Proc.devRef .tc main_v4) : S1x8.Idx → EReal) (ix2 0 (h 0))) = _
  rw [w1_arg0, w1_arg2, w1_arg3, w1_v4, bias_row]

theorem w2_v6_3 : W2 m ρ c (Proc.devRef .tc main_v6_3) = sStgt m c := by
  refine (W2_arr m ρ c 10).trans ((Region0.final_stgt (V1 m ρ) c).trans ?_)
  show Cert.Spec.score (Cert.Spec.feat (W1 m ρ c (Proc.devRef .tc main_arg0)) (W1 m ρ c (Proc.devRef .tc main_arg2)))
    (W1 m ρ c (Proc.devRef .tc main_arg5)) (fun h : Cert.Spec.sH.Idx => (W1 m ρ c (Proc.devRef .tc main_v5) : S1x8.Idx → EReal) (ix2 0 (h 0))) = _
  rw [w1_arg0, w1_arg2, w1_arg5, w1_v5, bias_row]

theorem w2_v1 : W2 m ρ c (Proc.devRef .tc main_v1) = row0 m c :=
  (W2_of_ne m ρ c main_v1 (by decide)).trans (w1_v1 m ρ c)
theorem w2_v3 : W2 m ρ c (Proc.devRef .tc main_v3) = row1 m c :=
  (W2_of_ne m ρ c main_v3 (by decide)).trans (w1_v3 m ρ c)
theorem w2_arg8 : W2 m ρ c (Proc.devRef .tc main_arg8) = aBias m c :=
  (W2_of_ne m ρ c main_arg8 (by decide)).trans (w1_arg8 m ρ c)

/-! ## Boundary 3: after the second stretch (the scores gathered at the edges' ends, in the 20000 × 128 view) -/

theorem w3_v21 : W3 m ρ c (Proc.devRef .tc main_v21)
    = shapeCast S20000x128 (gH (sSsrc m c) (srcC m c)) Facts₀.shapeCasts_S320000x8_S20000x128 := by
  show StableHlo.after hostOps1 (W2 m ρ c) (Proc.devRef .tc main_v21) = _
  after_results
  rw [w2_v6_2, w2_v1]
  rfl
theorem w3_v22 : W3 m ρ c (Proc.devRef .tc main_v22)
    = shapeCast S20000x128 (gH (sStgt m c) (tgtC m c)) Facts₀.shapeCasts_S320000x8_S20000x128 := by
  show StableHlo.after hostOps1 (W2 m ρ c) (Proc.devRef .tc main_v22) = _
  after_results
  rw [w2_v6_3, w2_v3]
  rfl
theorem w3_v1 : W3 m ρ c (Proc.devRef .tc main_v1) = row0 m c := by
  show StableHlo.after hostOps1 (W2 m ρ c) (Proc.devRef .tc main_v1) = _
  after_results
  exact w2_v1 m ρ c
theorem w3_v3 : W3 m ρ c (Proc.devRef .tc main_v3) = row1 m c := by
  show StableHlo.after hostOps1 (W2 m ρ c) (Proc.devRef .tc main_v3) = _
  after_results
  exact w2_v3 m ρ c
theorem w3_v6_0 : W3 m ρ c (Proc.devRef .tc main_v6_0) = sProj m c := by
  show StableHlo.after hostOps1 (W2 m ρ c) (Proc.devRef .tc main_v6_0) = _
  after_results
  exact w2_v6_0 m ρ c
theorem w3_v6_1 : W3 m ρ c (Proc.devRef .tc main_v6_1) = sSkip m c := by
  show StableHlo.after hostOps1 (W2 m ρ c) (Proc.devRef .tc main_v6_1) = _
  after_results
  exact w2_v6_1 m ρ c
theorem w3_arg8 : W3 m ρ c (Proc.devRef .tc main_arg8) = aBias m c := by
  show StableHlo.after hostOps1 (W2 m ρ c) (Proc.devRef .tc main_arg8) = _
  after_results
  exact w2_arg8 m ρ c

/-! ## Boundary 4: after region 1 (the logits, in the 20000 × 128 view) -/

theorem w4_v23 : W4 m ρ c (Proc.devRef .tc main_v23)
    = shapeCast S20000x128 (sLogit m c) Facts₀.shapeCasts_S320000x8_S20000x128 := by
  refine (W4_arr m ρ c 2).trans ((Region1.final (V3 m ρ) c).trans ?_)
  show Region1.G (W3 m ρ c (Proc.devRef .tc main_v21)) (W3 m ρ c (Proc.devRef .tc main_v22)) = _
  rw [w3_v21, w3_v22]
  rfl
theorem w4_v1 : W4 m ρ c (Proc.devRef .tc main_v1) = row0 m c :=
  (W4_of_ne m ρ c main_v1 (by decide)).trans (w3_v1 m ρ c)
theorem w4_v3 : W4 m ρ c (Proc.devRef .tc main_v3) = row1 m c :=
  (W4_of_ne m ρ c main_v3 (by decide)).trans (w3_v3 m ρ c)
theorem w4_v6_0 : W4 m ρ c (Proc.devRef .tc main_v6_0) = sProj m c :=
  (W4_of_ne m ρ c main_v6_0 (by decide)).trans (w3_v6_0 m ρ c)
theorem w4_v6_1 : W4 m ρ c (Proc.devRef .tc main_v6_1) = sSkip m c :=
  (W4_of_ne m ρ c main_v6_1 (by decide)).trans (w3_v6_1 m ρ c)
theorem w4_arg8 : W4 m ρ c (Proc.devRef .tc main_arg8) = aBias m c :=
  (W4_of_ne m ρ c main_arg8 (by decide)).trans (w3_arg8 m ρ c)

/-! ## Boundary 5: after the third stretch (the greatest logit, as a 1 × 1 array) -/

theorem w5_v25 : W5 m ρ c (Proc.devRef .tc main_v25) = fun _ => sGmax m c := by
  show StableHlo.after hostOps2 (W4 m ρ c) (Proc.devRef .tc main_v25) = _
  after_results
  rw [w4_v23]
  funext i
  show Host.reduce (FloatOps.maximumf (F := Ideal) (φ := .f32)) (shapeCast S20000x128 (sLogit m c) Facts₀.shapeCasts_S320000x8_S20000x128)
    (constant (F := Ideal) S_ .f32 0xFF800000#32) Facts₀.reducesTo_S20000x128_S_d0_1 Facts₀.h_S_ _ = _
  exact Cert.KerMath.reduce_max_reshape (sLogit m c) (constant (F := Ideal) S_ .f32 0xFF800000#32) _ _ _ _
theorem w5_v23 : W5 m ρ c (Proc.devRef .tc main_v23)
    = shapeCast S20000x128 (sLogit m c) Facts₀.shapeCasts_S320000x8_S20000x128 := by
  show StableHlo.after hostOps2 (W4 m ρ c) (Proc.devRef .tc main_v23) = _
  after_results
  exact w4_v23 m ρ c
theorem w5_v1 : W5 m ρ c (Proc.devRef .tc main_v1) = row0 m c := by
  show StableHlo.after hostOps2 (W4 m ρ c) (Proc.devRef .tc main_v1) = _
  after_results
  exact w4_v1 m ρ c
theorem w5_v3 : W5 m ρ c (Proc.devRef .tc main_v3) = row1 m c := by
  show StableHlo.after hostOps2 (W4 m ρ c) (Proc.devRef .tc main_v3) = _
  after_results
  exact w4_v3 m ρ c
theorem w5_v6_0 : W5 m ρ c (Proc.devRef .tc main_v6_0) = sProj m c := by
  show StableHlo.after hostOps2 (W4 m ρ c) (Proc.devRef .tc main_v6_0) = _
  after_results
  exact w4_v6_0 m ρ c
theorem w5_v6_1 : W5 m ρ c (Proc.devRef .tc main_v6_1) = sSkip m c := by
  show StableHlo.after hostOps2 (W4 m ρ c) (Proc.devRef .tc main_v6_1) = _
  after_results
  exact w4_v6_1 m ρ c
theorem w5_arg8 : W5 m ρ c (Proc.devRef .tc main_arg8) = aBias m c := by
  show StableHlo.after hostOps2 (W4 m ρ c) (Proc.devRef .tc main_arg8) = _
  after_results
  exact w4_arg8 m ρ c

/-! ## Boundary 6: after region 2 (the exponentials, in the 20000 × 128 view) -/

theorem w6_v26 : W6 m ρ c (Proc.devRef .tc main_v26)
    = shapeCast S20000x128 (sEx m c) Facts₀.shapeCasts_S320000x8_S20000x128 := by
  refine (W6_arr m ρ c 2).trans ((Region2.final (V5 m ρ) c).trans ?_)
  show Region2.G (W5 m ρ c (Proc.devRef .tc main_v23)) (W5 m ρ c (Proc.devRef .tc main_v25)) = _
  rw [w5_v23, w5_v25]
  rfl
theorem w6_v1 : W6 m ρ c (Proc.devRef .tc main_v1) = row0 m c :=
  (W6_of_ne m ρ c main_v1 (by decide)).trans (w5_v1 m ρ c)
theorem w6_v3 : W6 m ρ c (Proc.devRef .tc main_v3) = row1 m c :=
  (W6_of_ne m ρ c main_v3 (by decide)).trans (w5_v3 m ρ c)
theorem w6_v6_0 : W6 m ρ c (Proc.devRef .tc main_v6_0) = sProj m c :=
  (W6_of_ne m ρ c main_v6_0 (by decide)).trans (w5_v6_0 m ρ c)
theorem w6_v6_1 : W6 m ρ c (Proc.devRef .tc main_v6_1) = sSkip m c :=
  (W6_of_ne m ρ c main_v6_1 (by decide)).trans (w5_v6_1 m ρ c)
theorem w6_arg8 : W6 m ρ c (Proc.devRef .tc main_arg8) = aBias m c :=
  (W6_of_ne m ρ c main_arg8 (by decide)).trans (w5_arg8 m ρ c)

end Cert.KernelIdeal.Chain

end
-- ==== Proof.KerChainB.lean ====
/-
  The kernel program's boundary contents, second half: from the exponentials to the result (the attention weights, the
  gathered projection, the expansion matrix, the messages, their sum per target, the final combine).
-/
import proofs.«128282_j20770461843840_1_alg».proof.Proof.KerChain

set_option maxRecDepth 16384
-- reading a buffer through a stretch of twenty to forty host operations rewrites once per operation
set_option maxHeartbeats 4000000

noncomputable section

namespace Cert.KernelIdeal.Chain

open Idealize.ShloMosaic Idealize.ShloMosaic.TcCoe Idealize.ShloMosaic.Tactic Idealize.SL.Sem
open Idealize.ShloMosaic.ValueIdx
open Cert.KernelIdeal Cert.KernelIdeal.Gen
open scoped BigOperators

variable (m : (ℓ : Loc nD τ sig) → Buf (Elt Ideal) ℓ) (ρ : Dev nD → PrngReg) (c : Dev nD)

/-! ## Boundary 7: after the fourth stretch (the attention weights, the gathered projection as edges × 256, the
    expansion matrix) -/

/-- The two programs' row gather and per-target sum on nodes × heads arrays, and the columns of node numbers they take,
    are the specification's. -/
theorem gd_eq : gather_S20000x8_S320000x1_S320000x8_1_0_n_n_0_1_18 = Cert.Spec.gdH := rfl
theorem sd_eq : scatter_S20000x8_S320000x1_S320000x8_1_0_0_1 = Cert.Spec.sdH := rfl
theorem norm_eq (v : IVec S320000 32) : broadcastInDim S320000x1 ![0] Facts₀.bcast_S320000_S320000x1_0
    (select (cmpi CmpIPredicate.slt v (broadcastInDim S320000 ![] Facts₀.bcast_S_S320000 (constantI S_ 32 0#32)))
      (addi v (broadcastInDim S320000 ![] Facts₀.bcast_S_S320000 (constantI S_ 32 20000#32))) v) = Cert.Spec.normIdx v := rfl
theorem raw_eq (v : IVec S320000 32) : broadcastInDim S320000x1 ![0] Facts₀.bcast_S320000_S320000x1_0 v = Cert.Spec.rawIdx v := rfl
/-- A scalar float constant broadcast to any shape is that constant's value everywhere. -/
theorem bcast_const {t : Shape} (h : S_.BroadcastsInDim t ![]) (w : BitVec 32) :
    broadcastInDim t ![] h (constant (F := Ideal) S_ .f32 w) = fun _ => Ideal.ofBits .f32 w := rfl
/-- The host's quotient, entry by entry. -/
theorem hostDivf_apply {s : Shape} (a b : FVec Ideal s .f32) (i : s.Idx) : Host.divf a b i = Ideal.div (a i) (b i) := rfl

theorem w7_v40 : W7 m ρ c (Proc.devRef .tc main_v40) = sAtt m c := by
  show StableHlo.after hostOps3 (W6 m ρ c) (Proc.devRef .tc main_v40) = _
  after_results_simp
  rw [w6_v26, w6_v3]
  have hx : (fun i => shapeCast main_v27.ty.shape (shapeCast S20000x128 (sEx m c) Facts₀.shapeCasts_S320000x8_S20000x128)
      Facts₀.shapeCasts_S20000x128_S320000x8 i) = sEx m c := shapeCast_shapeCast _ _ _
  rw [hx, gd_eq, sd_eq, norm_eq, raw_eq]
  unfold sAtt Cert.Spec.att Cert.Spec.denom
  funext i
  rw [hostDivf_apply, addf_apply, bcast_const, bcast_const]
theorem w7_v49 : W7 m ρ c (Proc.devRef .tc main_v49)
    = shapeCast S320000x256 (sGathered m c) Facts₀.shapeCasts_S320000x8x32_S320000x256 := by
  show StableHlo.after hostOps3 (W6 m ρ c) (Proc.devRef .tc main_v49) = _
  after_results_simp
  rw [w6_v6_0, w6_v1]
  rfl
theorem w7_v57 : W7 m ρ c (Proc.devRef .tc main_v57) = Cert.KerMath.emat := by
  show StableHlo.after hostOps3 (W6 m ρ c) (Proc.devRef .tc main_v57) = _
  after_results_simp
  rfl
theorem w7_v3 : W7 m ρ c (Proc.devRef .tc main_v3) = row1 m c := by
  show StableHlo.after hostOps3 (W6 m ρ c) (Proc.devRef .tc main_v3) = _
  after_results_simp
  exact w6_v3 m ρ c
theorem w7_v6_1 : W7 m ρ c (Proc.devRef .tc main_v6_1) = sSkip m c := by
  show StableHlo.after hostOps3 (W6 m ρ c) (Proc.devRef .tc main_v6_1) = _
  after_results_simp
  exact w6_v6_1 m ρ c
theorem w7_arg8 : W7 m ρ c (Proc.devRef .tc main_arg8) = aBias m c := by
  show StableHlo.after hostOps3 (W6 m ρ c) (Proc.devRef .tc main_arg8) = _
  after_results_simp
  exact w6_arg8 m ρ c

/-! ## Boundary 8: after region 3 (the messages, as edges × 256) -/

theorem w8_v58 : W8 m ρ c (Proc.devRef .tc main_v58)
    = fun i : S320000x256.Idx => shapeCast S320000x256 (sGathered m c) Facts₀.shapeCasts_S320000x8x32_S320000x256 i
        * ∑ k : Fin 8, sAtt m c (ix2 (i 0) k) * Cert.KerMath.emat (ix2 k (i 1)) := by
  refine (W8_arr m ρ c 3).trans ((Region3.final (V7 m ρ) c).trans ?_)
  show Region3.G (W7 m ρ c (Proc.devRef .tc main_v49)) (W7 m ρ c (Proc.devRef .tc main_v40)) (W7 m ρ c (Proc.devRef .tc main_v57)) = _
  rw [w7_v49, w7_v40, w7_v57]
  rfl
theorem w8_v3 : W8 m ρ c (Proc.devRef .tc main_v3) = row1 m c :=
  (W8_of_ne m ρ c main_v3 (by decide)).trans (w7_v3 m ρ c)
theorem w8_v6_1 : W8 m ρ c (Proc.devRef .tc main_v6_1) = sSkip m c :=
  (W8_of_ne m ρ c main_v6_1 (by decide)).trans (w7_v6_1 m ρ c)
theorem w8_arg8 : W8 m ρ c (Proc.devRef .tc main_arg8) = aBias m c :=
  (W8_of_ne m ρ c main_arg8 (by decide)).trans (w7_arg8 m ρ c)

/-! ## Boundary 9: after the fifth stretch (the messages summed per target, as nodes × 256; the bias as 1 × 256) -/

theorem w9_v63 : W9 m ρ c (Proc.devRef .tc main_v63)
    = shapeCast S20000x256 (sAgg m c) Facts₀.shapeCasts_S20000x8x32_S20000x256 := by
  show StableHlo.after hostOps4 (W8 m ρ c) (Proc.devRef .tc main_v63) = _
  after_results_simp
  rw [w8_v58, w8_v3]
  have hw : (fun i => shapeCast main_v59.ty.shape
      (fun i : S320000x256.Idx => shapeCast S320000x256 (sGathered m c) Facts₀.shapeCasts_S320000x8x32_S320000x256 i
        * ∑ k : Fin 8, sAtt m c (ix2 (i 0) k) * Cert.KerMath.emat (ix2 k (i 1)))
      Facts₀.shapeCasts_S320000x256_S320000x8x32 i)
      = fun j : Cert.Spec.sEHC.Idx => sGathered m c j * sAtt m c (ix2 (j 0) (j 1)) :=
    Cert.KerMath.weighted_reshape _ _ _ _
  rw [hw]
  rfl
theorem w9_v64 : W9 m ρ c (Proc.devRef .tc main_v64) = shapeCast S1x256 (aBias m c) Facts₀.shapeCasts_S256_S1x256 := by
  show StableHlo.after hostOps4 (W8 m ρ c) (Proc.devRef .tc main_v64) = _
  after_results_simp
  rw [w8_arg8]
  rfl
theorem w9_v6_1 : W9 m ρ c (Proc.devRef .tc main_v6_1) = sSkip m c := by
  show StableHlo.after hostOps4 (W8 m ρ c) (Proc.devRef .tc main_v6_1) = _
  after_results
  exact w8_v6_1 m ρ c

/-! ## Boundary 10: after region 4 — the result -/

/-- A 1 × 256 view of the bias, read at (0, q), is the bias at q. -/
theorem bias_row256 (b : S256.Idx → EReal) (q : Fin 256) :
    shapeCast S1x256 b Facts₀.shapeCasts_S256_S1x256 (ix2 0 q) = b (ix1 q) := by
  refine shapeCast_apply b _ (ix2 0 q) (ix1 q) ?_
  rw [Shape.rowMajor_val_one, Shape.rowMajor_val_two]
  show q.val = (0 : Fin 1).val * 256 + q.val
  simp

/-- THE KERNEL'S RESULT ARRAY at the last boundary is the specification's result of the nine arguments. -/
theorem w10_v65 : W10 m ρ c (Proc.devRef .tc main_v65)
    = Cert.Spec.result (aX m c) (aE m c) (aWp m c) (aWs m c) (aBs m c) (aWt m c) (aBt m c) (aWk m c) (aBias m c) := by
  refine (W10_arr m ρ c 3).trans ((Region4.final (V9 m ρ) c).trans ?_)
  show Region4.G (W9 m ρ c (Proc.devRef .tc main_v63)) (W9 m ρ c (Proc.devRef .tc main_v6_1)) (W9 m ρ c (Proc.devRef .tc main_v64)) = _
  rw [w9_v63, w9_v6_1, w9_v64]
  funext i
  obtain ⟨p, q, rfl⟩ : ∃ (p : Fin 20000) (q : Fin 256), i = ix2 p q := ⟨i 0, i 1, eq_ix2 i⟩
  unfold Region4.G
  show Cert.Spec.elu (_ + _ + shapeCast S1x256 (aBias m c) Facts₀.shapeCasts_S256_S1x256 (ix2 0 q)) = _
  rw [bias_row256]
  rfl

end Cert.KernelIdeal.Chain

end
-- ==== Proof.RefTerm.lean ====
/-
  The reference program's result as ONE term of its nine argument arrays: @main's host operations composed, stage by
  stage, in the order @main applies them (the projection, the head scores, the rows gathered at the edges' ends, elu,
  the greatest logit, the exponentials, the denominators summed per target, the attention weights, the messages, their
  sum per target, the skip term and the bias, elu). Each stage is the program's own operation on the stages before it.
-/
import proofs.«128282_j20770461843840_1_alg».proof.ReferenceIdeal
import proofs.«128282_j20770461843840_1_alg».proof.Proof.Gen.ReferenceIdeal

noncomputable section

namespace Cert.ReferenceIdeal.Term

open Idealize.ShloMosaic Cert.ReferenceIdeal Cert.ReferenceIdeal.Facts₀

variable {F : FTy → Type} [FloatOps F]

/-- Row 0 / row 1 of the edge table as a vector of node numbers (@main's %1, %3). -/
def rowIdx0 (a1 : IVec S2x320000 32) : IVec S320000 32 :=
  shapeCast S320000 (extractStridedSlice S1x320000 ![0, 0] a1 slices_S2x320000_S1x320000_0_0) shapeCasts_S1x320000_S320000
def rowIdx1 (a1 : IVec S2x320000 32) : IVec S320000 32 :=
  shapeCast S320000 (extractStridedSlice S1x320000 ![1, 0] a1 slices_S2x320000_S1x320000_1_0) shapeCasts_S1x320000_S320000

/-- The rows a gather reads, a negative node number counted from the end, as a column (%14, %25, %41, %53). -/
def normCol (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 20000#32))) v)

/-- The rows a scatter writes, as a column (%34, %58). -/
def rawCol (v : IVec S320000 32) : IVec S320000x1 32 := broadcastInDim S320000x1 ![0] bcast_S320000_S320000x1_0 v

/-- Node features times a 256 × 256 weight (%4 with W_proj, %60 with W_skip). -/
def proj (x : FVec F S20000x256 .f32) (w : FVec F S256x256 .f32) : FVec F S20000x256 .f32 :=
  Host.dotGeneral dot_S20000x256_S256x256_S20000x256_1_0_0_1_n_n none x w

/-- The head scores of a projection (%8, %19). -/
def score (p : FVec F S20000x256 .f32) (w : FVec F S256x8 .f32) (b : FVec F S8 .f32) : FVec F S20000x8 .f32 :=
  addf (Host.dotGeneral dot_S20000x256_S256x8_S20000x8_1_0_0_1_n_n none p w)
    (broadcastInDim S20000x8 ![0, 1] bcast_S1x8_S20000x8_0_1 (broadcastInDim S1x8 ![1] bcast_S8_S1x8_1 b))

/-- Rows of a nodes × heads array at a column of node numbers (%15, %26, %42). -/
def gatherH (x : FVec F S20000x8 .f32) (i : IVec S320000x1 32) : FVec F S320000x8 .f32 :=
  Host.gather gather_S20000x8_S320000x1_S320000x8_1_0_n_n_0_1_18 x i

/-- jax's elu on the edges × heads array (@elu: %28). -/
def eluE (x : FVec F S320000x8 .f32) : FVec F S320000x8 .f32 :=
  select (cmpf .ogt x (broadcastInDim S320000x8 ![] bcast_S_S320000x8 (constant S_ .f32 0x00000000#32))) x
    (mulf (broadcastInDim S320000x8 ![] bcast_S_S320000x8 (constant S_ .f32 0x3F800000#32))
      (Host.expm1 (select (cmpf .ogt x (broadcastInDim S320000x8 ![] bcast_S_S320000x8 (constant S_ .f32 0x00000000#32)))
        (broadcastInDim S320000x8 ![] bcast_S_S320000x8 (id (constant S_ .f32 0x00000000#32))) x)))

/-- The edge logits (%28). -/
def logits (a0 : FVec F S20000x256 .f32) (a1 : IVec S2x320000 32) (a2 : FVec F S256x256 .f32) (a3 : FVec F S256x8 .f32)
    (a4 : FVec F S8 .f32) (a5 : FVec F S256x8 .f32) (a6 : FVec F S8 .f32) : FVec F S320000x8 .f32 :=
  eluE (addf (gatherH (score (proj a0 a2) a3 a4) (normCol (rowIdx0 a1)))
    (gatherH (score (proj a0 a2) a5 a6) (normCol (rowIdx1 a1))))

/-- The greatest logit (%29). -/
def gmaxS (l : FVec F S320000x8 .f32) : FVec F S_ .f32 :=
  Host.reduce FloatOps.maximumf l (constant S_ .f32 0xFF800000#32) reducesTo_S320000x8_S_d0_1 h_S_

/-- The softmax numerators (%32). -/
def expo (l : FVec F S320000x8 .f32) : FVec F S320000x8 .f32 :=
  Host.exp (subf l (broadcastInDim S320000x8 ![] bcast_S_S320000x8 (gmaxS l)))

/-- The softmax denominators (%35). -/
def denomN (x : FVec F S320000x8 .f32) (tr : IVec S320000x1 32) : FVec F S20000x8 .f32 :=
  Host.scatterAdd scatter_S20000x8_S320000x1_S320000x8_1_0_0_1
    (broadcastInDim S20000x8 ![] bcast_S_S20000x8 (constant S_ .f32 0x00000000#32)) tr x

/-- The attention weights (%45). -/
def attn (x : FVec F S320000x8 .f32) (tn tr : IVec S320000x1 32) : FVec F S320000x8 .f32 :=
  Host.divf x (addf (gatherH (denomN x tr) tn)
    (broadcastInDim S320000x8 ![] bcast_S_S320000x8 (constant S_ .f32 0x2EDBE6FF#32)))

/-- The messages (%56). -/
def msgs (p : FVec F S20000x256 .f32) (sn : IVec S320000x1 32) (a : FVec F S320000x8 .f32) : FVec F S320000x8x32 .f32 :=
  mulf (Host.gather gather_S20000x8x32_S320000x1_S320000x8x32_12_0_n_n_0_1_1832
      (shapeCast S20000x8x32 p shapeCasts_S20000x256_S20000x8x32) sn)
    (broadcastInDim S320000x8x32 ![0, 1, 2] bcast_S320000x8x1_S320000x8x32_0_1_2
      (broadcastInDim S320000x8x1 ![0, 1] bcast_S320000x8_S320000x8x1_0_1 a))

/-- The messages summed per target (%59). -/
def aggr (w : FVec F S320000x8x32 .f32) (tr : IVec S320000x1 32) : FVec F S20000x8x32 .f32 :=
  Host.scatterAdd scatter_S20000x8x32_S320000x1_S320000x8x32_12_0_0_1
    (broadcastInDim S20000x8x32 ![] bcast_S_S20000x8x32 (constant S_ .f32 0x00000000#32)) tr w

/-- The sum plus the skip term plus the bias (%66). -/
def pre (o : FVec F S20000x8x32 .f32) (k : FVec F S20000x256 .f32) (b : FVec F S256 .f32) : FVec F S20000x256 .f32 :=
  addf (shapeCast S20000x256 (addf o (shapeCast S20000x8x32 k shapeCasts_S20000x256_S20000x8x32)) shapeCasts_S20000x8x32_S20000x256)
    (broadcastInDim S20000x256 ![0, 1] bcast_S1x256_S20000x256_0_1 (broadcastInDim S1x256 ![1] bcast_S256_S1x256_1 b))

/-- jax's elu on the nodes × features array (@elu_1: %67). -/
def eluN (x : FVec F S20000x256 .f32) : FVec F S20000x256 .f32 :=
  select (cmpf .ogt x (broadcastInDim S20000x256 ![] bcast_S_S20000x256 (constant S_ .f32 0x00000000#32))) x
    (mulf (broadcastInDim S20000x256 ![] bcast_S_S20000x256 (constant S_ .f32 0x3F800000#32))
      (Host.expm1 (select (cmpf .ogt x (broadcastInDim S20000x256 ![] bcast_S_S20000x256 (constant S_ .f32 0x00000000#32)))
        (broadcastInDim S20000x256 ![] bcast_S_S20000x256 (id (constant S_ .f32 0x00000000#32))) x)))

/-- THE REFERENCE'S RESULT (%67) as one term of the nine arguments. -/
def refTerm (a0 : FVec F S20000x256 .f32) (a1 : IVec S2x320000 32) (a2 : FVec F S256x256 .f32) (a3 : FVec F S256x8 .f32)
    (a4 : FVec F S8 .f32) (a5 : FVec F S256x8 .f32) (a6 : FVec F S8 .f32) (a7 : FVec F S256x256 .f32) (a8 : FVec F S256 .f32) :
    FVec F S20000x256 .f32 :=
  eluN (pre
    (aggr (msgs (proj a0 a2) (normCol (rowIdx0 a1))
        (attn (expo (logits a0 a1 a2 a3 a4 a5 a6)) (normCol (rowIdx1 a1)) (rawCol (rowIdx1 a1))))
      (rawCol (rowIdx1 a1)))
    (proj a0 a7) a8)

end Cert.ReferenceIdeal.Term

end
-- ==== Proof.RefRun.lean ====
/-
  The reference program's run: every weakly fair execution of @main terminates with the result array at the composed
  term of the nine arguments (Proof/RefTerm.lean) and the arguments unchanged.

  @main is a straight line of host operations once its two calls are unfolded: @elu (on the edges × heads array) and
  @elu_1 (on the nodes × features array) are each fifteen operations — two comparisons with a broadcast zero, the
  inner where (the zero converted, broadcast, the select), exp − 1, the product with a broadcast one, the outer
  select — over the call's own buffers. The list below is that line; the run is the library's statement for a
  list of operations, read at the result buffer and at the nine arguments.
-/
import proofs.«128282_j20770461843840_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's first window, the call of @elu unfolded: the edge rows, the projection, the two head scores gathered at
    the edges' ends, elu of their sum, the greatest logit, the exponentials, the denominators and the attention weights,
    the projection read as heads × channels, and the first comparison of the last gather's rows (74 operations). -/
abbrev ops0 : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    binary main_arg0 main_arg2 main_v4 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    binary main_v4 main_arg3 main_v5 ((fun l r => Host.dotGeneral dot_S20000x256_S256x8_S20000x8_1_0_0_1_n_n none l r) : (⟨S20000x256, .f32⟩ : BufTy).Contents (Elt F) → (⟨S256x8, .f32⟩ : BufTy).Contents (Elt F) → (⟨S20000x8, .f32⟩ : BufTy).Contents (Elt F)),
    unary main_arg4 main_v6 (broadcastInDim S1x8 ![1] bcast_S8_S1x8_1 : (⟨S8, .f32⟩ : BufTy).Contents (Elt F) → (⟨S1x8, .f32⟩ : BufTy).Contents (Elt F)),
    unary main_v6 main_v7 (broadcastInDim S20000x8 ![0, 1] bcast_S1x8_S20000x8_0_1 : (⟨S1x8, .f32⟩ : BufTy).Contents (Elt F) → (⟨S20000x8, .f32⟩ : BufTy).Contents (Elt F)),
    binary main_v5 main_v7 main_v8 (addf : (⟨S20000x8, .f32⟩ : BufTy).Contents (Elt F) → (⟨S20000x8, .f32⟩ : BufTy).Contents (Elt F) → (⟨S20000x8, .f32⟩ : BufTy).Contents (Elt F)),
    nullary main_c (constantI S_ 32 0#32),
    unary main_c main_v9 (broadcastInDim S320000 ![] bcast_S_S320000 : (⟨S_, .i32⟩ : BufTy).Contents (Elt F) → (⟨S320000, .i32⟩ : BufTy).Contents (Elt F)),
    binary main_v1 main_v9 main_v10 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v11 (broadcastInDim S320000 ![] bcast_S_S320000 : (⟨S_, .i32⟩ : BufTy).Contents (Elt F) → (⟨S320000, .i32⟩ : BufTy).Contents (Elt F)),
    binary main_v1 main_v11 main_v12 (addi : (⟨S320000, .i32⟩ : BufTy).Contents (Elt F) → (⟨S320000, .i32⟩ : BufTy).Contents (Elt F) → (⟨S320000, .i32⟩ : BufTy).Contents (Elt F)),
    ternary main_v10 main_v12 main_v1 main_v13 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v13 main_v14 (broadcastInDim S320000x1 ![0] bcast_S320000_S320000x1_0 : (⟨S320000, .i32⟩ : BufTy).Contents (Elt F) → (⟨S320000x1, .i32⟩ : BufTy).Contents (Elt F)),
    binary main_v8 main_v14 main_v15 ((fun x i => Host.gather gather_S20000x8_S320000x1_S320000x8_1_0_n_n_0_1_18 x i) : (⟨S20000x8, .f32⟩ : BufTy).Contents (Elt F) → (⟨S320000x1, .i32⟩ : BufTy).Contents (Elt F) → (⟨S320000x8, .f32⟩ : BufTy).Contents (Elt F)),
    binary main_v4 main_arg5 main_v16 ((fun l r => Host.dotGeneral dot_S20000x256_S256x8_S20000x8_1_0_0_1_n_n none l r) : (⟨S20000x256, .f32⟩ : BufTy).Contents (Elt F) → (⟨S256x8, .f32⟩ : BufTy).Contents (Elt F) → (⟨S20000x8, .f32⟩ : BufTy).Contents (Elt F)),
    unary main_arg6 main_v17 (broadcastInDim S1x8 ![1] bcast_S8_S1x8_1 : (⟨S8, .f32⟩ : BufTy).Contents (Elt F) → (⟨S1x8, .f32⟩ : BufTy).Contents (Elt F)),
    unary main_v17 main_v18 (broadcastInDim S20000x8 ![0, 1] bcast_S1x8_S20000x8_0_1 : (⟨S1x8, .f32⟩ : BufTy).Contents (Elt F) → (⟨S20000x8, .f32⟩ : BufTy).Contents (Elt F)),
    binary main_v16 main_v18 main_v19 (addf : (⟨S20000x8, .f32⟩ : BufTy).Contents (Elt F) → (⟨S20000x8, .f32⟩ : BufTy).Contents (Elt F) → (⟨S20000x8, .f32⟩ : BufTy).Contents (Elt F)),
    nullary main_c_1 (constantI S_ 32 0#32),
    unary main_c_1 main_v20 (broadcastInDim S320000 ![] bcast_S_S320000 : (⟨S_, .i32⟩ : BufTy).Contents (Elt F) → (⟨S320000, .i32⟩ : BufTy).Contents (Elt F)),
    binary main_v3 main_v20 main_v21 (cmpi .slt : (⟨S320000, .i32⟩ : BufTy).Contents (Elt F) → (⟨S320000, .i32⟩ : BufTy).Contents (Elt F) → (⟨S320000, .i1⟩ : BufTy).Contents (Elt F)),
    nullary main_c_2 (constantI S_ 32 20000#32),
    unary main_c_2 main_v22 (broadcastInDim S320000 ![] bcast_S_S320000 : (⟨S_, .i32⟩ : BufTy).Contents (Elt F) → (⟨S320000, .i32⟩ : BufTy).Contents (Elt F)),
    binary main_v3 main_v22 main_v23 (addi : (⟨S320000, .i32⟩ : BufTy).Contents (Elt F) → (⟨S320000, .i32⟩ : BufTy).Contents (Elt F) → (⟨S320000, .i32⟩ : BufTy).Contents (Elt F)),
    ternary main_v21 main_v23 main_v3 main_v24 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v24 main_v25 (broadcastInDim S320000x1 ![0] bcast_S320000_S320000x1_0 : (⟨S320000, .i32⟩ : BufTy).Contents (Elt F) → (⟨S320000x1, .i32⟩ : BufTy).Contents (Elt F)),
    binary main_v19 main_v25 main_v26 ((fun x i => Host.gather gather_S20000x8_S320000x1_S320000x8_1_0_n_n_0_1_18 x i) : (⟨S20000x8, .f32⟩ : BufTy).Contents (Elt F) → (⟨S320000x1, .i32⟩ : BufTy).Contents (Elt F) → (⟨S320000x8, .f32⟩ : BufTy).Contents (Elt F)),
    binary main_v15 main_v26 main_v27 (addf : (⟨S320000x8, .f32⟩ : BufTy).Contents (Elt F) → (⟨S320000x8, .f32⟩ : BufTy).Contents (Elt F) → (⟨S320000x8, .f32⟩ : BufTy).Contents (Elt F)),
    TRef.nullary main_call0.cst (constant S_ .f32 0x00000000#32),
    TRef.unary main_call0.cst main_call0.v0 (broadcastInDim S320000x8 ![] bcast_S_S320000x8),
    TRef.binary (.of main_v27 : TRef sig ⟨S320000x8, .f32⟩) main_call0.v0 main_call0.v1 (cmpf .ogt),
    TRef.nullary main_call0.cst_0 (constant S_ .f32 0x00000000#32),
    TRef.unary main_call0.cst_0 main_call0.v2 (broadcastInDim S320000x8 ![] bcast_S_S320000x8),
    TRef.binary (.of main_v27 : TRef sig ⟨S320000x8, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S320000x8 ![] bcast_S_S320000x8),
    TRef.ternary main_call0.v3 main_call0.call0.v1 (.of main_v27 : TRef sig ⟨S320000x8, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S320000x8 ![] bcast_S_S320000x8),
    TRef.binary main_call0.v6 main_call0.v5 main_call0.v7 mulf,
    TRef.ternary main_call0.v1 (.of main_v27 : TRef sig ⟨S320000x8, .f32⟩) main_call0.v7 main_call0.call1.v0 select,
    nullary main_cst (constant S_ .f32 0xFF800000#32),
    binary main_v28 main_cst main_v29 ((fun x v => Host.reduce FloatOps.maximumf x v reducesTo_S320000x8_S_d0_1 h_S_) : (⟨S320000x8, .f32⟩ : BufTy).Contents (Elt F) → (⟨S_, .f32⟩ : BufTy).Contents (Elt F) → (⟨S_, .f32⟩ : BufTy).Contents (Elt F)),
    unary main_v29 main_v30 (broadcastInDim S320000x8 ![] bcast_S_S320000x8 : (⟨S_, .f32⟩ : BufTy).Contents (Elt F) → (⟨S320000x8, .f32⟩ : BufTy).Contents (Elt F)),
    binary main_v28 main_v30 main_v31 (subf : (⟨S320000x8, .f32⟩ : BufTy).Contents (Elt F) → (⟨S320000x8, .f32⟩ : BufTy).Contents (Elt F) → (⟨S320000x8, .f32⟩ : BufTy).Contents (Elt F)),
    unary main_v31 main_v32 (Host.exp : (⟨S320000x8, .f32⟩ : BufTy).Contents (Elt F) → (⟨S320000x8, .f32⟩ : BufTy).Contents (Elt F)),
    nullary main_cst_3 (constant S_ .f32 0x00000000#32),
    unary main_cst_3 main_v33 (broadcastInDim S20000x8 ![] bcast_S_S20000x8 : (⟨S_, .f32⟩ : BufTy).Contents (Elt F) → (⟨S20000x8, .f32⟩ : BufTy).Contents (Elt F)),
    unary main_v3 main_v34 (broadcastInDim S320000x1 ![0] bcast_S320000_S320000x1_0 : (⟨S320000, .i32⟩ : BufTy).Contents (Elt F) → (⟨S320000x1, .i32⟩ : BufTy).Contents (Elt F)),
    ternary main_v33 main_v34 main_v32 main_v35 ((fun x i u => Host.scatterAdd scatter_S20000x8_S320000x1_S320000x8_1_0_0_1 x i u) : (⟨S20000x8, .f32⟩ : BufTy).Contents (Elt F) → (⟨S320000x1, .i32⟩ : BufTy).Contents (Elt F) → (⟨S320000x8, .f32⟩ : BufTy).Contents (Elt F) → (⟨S20000x8, .f32⟩ : BufTy).Contents (Elt F)),
    nullary main_c_4 (constantI S_ 32 0#32),
    unary main_c_4 main_v36 (broadcastInDim S320000 ![] bcast_S_S320000 : (⟨S_, .i32⟩ : BufTy).Contents (Elt F) → (⟨S320000, .i32⟩ : BufTy).Contents (Elt F)),
    binary main_v3 main_v36 main_v37 (cmpi .slt : (⟨S320000, .i32⟩ : BufTy).Contents (Elt F) → (⟨S320000, .i32⟩ : BufTy).Contents (Elt F) → (⟨S320000, .i1⟩ : BufTy).Contents (Elt F)),
    nullary main_c_5 (constantI S_ 32 20000#32),
    unary main_c_5 main_v38 (broadcastInDim S320000 ![] bcast_S_S320000 : (⟨S_, .i32⟩ : BufTy).Contents (Elt F) → (⟨S320000, .i32⟩ : BufTy).Contents (Elt F)),
    binary main_v3 main_v38 main_v39 (addi : (⟨S320000, .i32⟩ : BufTy).Contents (Elt F) → (⟨S320000, .i32⟩ : BufTy).Contents (Elt F) → (⟨S320000, .i32⟩ : BufTy).Contents (Elt F)),
    ternary main_v37 main_v39 main_v3 main_v40 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v40 main_v41 (broadcastInDim S320000x1 ![0] bcast_S320000_S320000x1_0 : (⟨S320000, .i32⟩ : BufTy).Contents (Elt F) → (⟨S320000x1, .i32⟩ : BufTy).Contents (Elt F)),
    binary main_v35 main_v41 main_v42 ((fun x i => Host.gather gather_S20000x8_S320000x1_S320000x8_1_0_n_n_0_1_18 x i) : (⟨S20000x8, .f32⟩ : BufTy).Contents (Elt F) → (⟨S320000x1, .i32⟩ : BufTy).Contents (Elt F) → (⟨S320000x8, .f32⟩ : BufTy).Contents (Elt F)),
    nullary main_cst_6 (constant S_ .f32 0x2EDBE6FF#32),
    unary main_cst_6 main_v43 (broadcastInDim S320000x8 ![] bcast_S_S320000x8 : (⟨S_, .f32⟩ : BufTy).Contents (Elt F) → (⟨S320000x8, .f32⟩ : BufTy).Contents (Elt F)),
    binary main_v42 main_v43 main_v44 (addf : (⟨S320000x8, .f32⟩ : BufTy).Contents (Elt F) → (⟨S320000x8, .f32⟩ : BufTy).Contents (Elt F) → (⟨S320000x8, .f32⟩ : BufTy).Contents (Elt F)),
    binary main_v32 main_v44 main_v45 (Host.divf : (⟨S320000x8, .f32⟩ : BufTy).Contents (Elt F) → (⟨S320000x8, .f32⟩ : BufTy).Contents (Elt F) → (⟨S320000x8, .f32⟩ : BufTy).Contents (Elt F)),
    unary main_v45 main_v46 (broadcastInDim S320000x8x1 ![0, 1] bcast_S320000x8_S320000x8x1_0_1 : (⟨S320000x8, .f32⟩ : BufTy).Contents (Elt F) → (⟨S320000x8x1, .f32⟩ : BufTy).Contents (Elt F)),
    reshape main_v4 main_v47 rfl shapeCasts_S20000x256_S20000x8x32,
    nullary main_c_7 (constantI S_ 32 0#32),
    unary main_c_7 main_v48 (broadcastInDim S320000 ![] bcast_S_S320000 : (⟨S_, .i32⟩ : BufTy).Contents (Elt F) → (⟨S320000, .i32⟩ : BufTy).Contents (Elt F)),
    binary main_v1 main_v48 main_v49 (cmpi .slt : (⟨S320000, .i32⟩ : BufTy).Contents (Elt F) → (⟨S320000, .i32⟩ : BufTy).Contents (Elt F) → (⟨S320000, .i1⟩ : BufTy).Contents (Elt F)) ]

/-- @main's second window, the call of @elu_1 unfolded: the source rows, the messages, their sum per target, the skip
    term, the bias, elu (34 operations). -/
abbrev ops1 : List (HloOp τ sig (Elt F)) :=
  [ nullary main_c_8 (constantI S_ 32 20000#32),
    unary main_c_8 main_v50 (broadcastInDim S320000 ![] bcast_S_S320000 : (⟨S_, .i32⟩ : BufTy).Contents (Elt F) → (⟨S320000, .i32⟩ : BufTy).Contents (Elt F)),
    binary main_v1 main_v50 main_v51 (addi : (⟨S320000, .i32⟩ : BufTy).Contents (Elt F) → (⟨S320000, .i32⟩ : BufTy).Contents (Elt F) → (⟨S320000, .i32⟩ : BufTy).Contents (Elt F)),
    ternary main_v49 main_v51 main_v1 main_v52 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v52 main_v53 (broadcastInDim S320000x1 ![0] bcast_S320000_S320000x1_0 : (⟨S320000, .i32⟩ : BufTy).Contents (Elt F) → (⟨S320000x1, .i32⟩ : BufTy).Contents (Elt F)),
    binary main_v47 main_v53 main_v54 ((fun x i => Host.gather gather_S20000x8x32_S320000x1_S320000x8x32_12_0_n_n_0_1_1832 x i) : (⟨S20000x8x32, .f32⟩ : BufTy).Contents (Elt F) → (⟨S320000x1, .i32⟩ : BufTy).Contents (Elt F) → (⟨S320000x8x32, .f32⟩ : BufTy).Contents (Elt F)),
    unary main_v46 main_v55 (broadcastInDim S320000x8x32 ![0, 1, 2] bcast_S320000x8x1_S320000x8x32_0_1_2 : (⟨S320000x8x1, .f32⟩ : BufTy).Contents (Elt F) → (⟨S320000x8x32, .f32⟩ : BufTy).Contents (Elt F)),
    binary main_v54 main_v55 main_v56 (mulf : (⟨S320000x8x32, .f32⟩ : BufTy).Contents (Elt F) → (⟨S320000x8x32, .f32⟩ : BufTy).Contents (Elt F) → (⟨S320000x8x32, .f32⟩ : BufTy).Contents (Elt F)),
    nullary main_cst_9 (constant S_ .f32 0x00000000#32),
    unary main_cst_9 main_v57 (broadcastInDim S20000x8x32 ![] bcast_S_S20000x8x32 : (⟨S_, .f32⟩ : BufTy).Contents (Elt F) → (⟨S20000x8x32, .f32⟩ : BufTy).Contents (Elt F)),
    unary main_v3 main_v58 (broadcastInDim S320000x1 ![0] bcast_S320000_S320000x1_0 : (⟨S320000, .i32⟩ : BufTy).Contents (Elt F) → (⟨S320000x1, .i32⟩ : BufTy).Contents (Elt F)),
    ternary main_v57 main_v58 main_v56 main_v59 ((fun x i u => Host.scatterAdd scatter_S20000x8x32_S320000x1_S320000x8x32_12_0_0_1 x i u) : (⟨S20000x8x32, .f32⟩ : BufTy).Contents (Elt F) → (⟨S320000x1, .i32⟩ : BufTy).Contents (Elt F) → (⟨S320000x8x32, .f32⟩ : BufTy).Contents (Elt F) → (⟨S20000x8x32, .f32⟩ : BufTy).Contents (Elt F)),
    binary main_arg0 main_arg7 main_v60 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    reshape main_v60 main_v61 rfl shapeCasts_S20000x256_S20000x8x32,
    binary main_v59 main_v61 main_v62 (addf : (⟨S20000x8x32, .f32⟩ : BufTy).Contents (Elt F) → (⟨S20000x8x32, .f32⟩ : BufTy).Contents (Elt F) → (⟨S20000x8x32, .f32⟩ : BufTy).Contents (Elt F)),
    reshape main_v62 main_v63 rfl shapeCasts_S20000x8x32_S20000x256,
    unary main_arg8 main_v64 (broadcastInDim S1x256 ![1] bcast_S256_S1x256_1 : (⟨S256, .f32⟩ : BufTy).Contents (Elt F) → (⟨S1x256, .f32⟩ : BufTy).Contents (Elt F)),
    unary main_v64 main_v65 (broadcastInDim S20000x256 ![0, 1] bcast_S1x256_S20000x256_0_1 : (⟨S1x256, .f32⟩ : BufTy).Contents (Elt F) → (⟨S20000x256, .f32⟩ : BufTy).Contents (Elt F)),
    binary main_v63 main_v65 main_v66 (addf : (⟨S20000x256, .f32⟩ : BufTy).Contents (Elt F) → (⟨S20000x256, .f32⟩ : BufTy).Contents (Elt F) → (⟨S20000x256, .f32⟩ : BufTy).Contents (Elt F)),
    TRef.nullary main_call1.cst (constant S_ .f32 0x00000000#32),
    TRef.unary main_call1.cst main_call1.v0 (broadcastInDim S20000x256 ![] bcast_S_S20000x256),
    TRef.binary (.of main_v66 : TRef sig ⟨S20000x256, .f32⟩) main_call1.v0 main_call1.v1 (cmpf .ogt),
    TRef.nullary main_call1.cst_0 (constant S_ .f32 0x00000000#32),
    TRef.unary main_call1.cst_0 main_call1.v2 (broadcastInDim S20000x256 ![] bcast_S_S20000x256),
    TRef.binary (.of main_v66 : TRef sig ⟨S20000x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S20000x256 ![] bcast_S_S20000x256),
    TRef.ternary main_call1.v3 main_call1.call0.v1 (.of main_v66 : TRef sig ⟨S20000x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S20000x256 ![] bcast_S_S20000x256),
    TRef.binary main_call1.v6 main_call1.v5 main_call1.v7 mulf,
    TRef.ternary main_call1.v1 (.of main_v66 : TRef sig ⟨S20000x256, .f32⟩) main_call1.v7 main_call1.call1.v0 select ]

/-- @main's operations in order: the two windows one after the other. -/
abbrev ops : List (HloOp τ sig (Elt F)) := ops0 ++ ops1

-- seventy-four binds re-associated: the rewriting under the chain recurses once per statement
set_option maxRecDepth 8192 in
set_option maxHeartbeats 4000000 in
/-- The first window is that straight line: @elu's and its two wheres' definitions unfolded at the call and the
    call's record at its fields, both sides are one chain of steps once sequencing is re-associated. -/
theorem part0_eq (c : Dev nD) : main_part0 (F := F) c = seq ops0 := by
  simp only [main_part0, fn_elu.body, fn_where.body, fn_where_0.body, seq, bind_assoc, pure_bind]
  rfl

set_option maxRecDepth 8192 in
set_option maxHeartbeats 4000000 in
/-- The second window likewise, through @elu_1 and its two wheres. -/
theorem part1_eq (c : Dev nD) : main_part1 (F := F) c = seq ops1 := by
  simp only [main_part1, fn_elu_1.body, fn_where_2.body, fn_where_3.body, seq, bind_assoc, pure_bind]

/-- @main runs its two windows in order; two lines run in order are their concatenation. -/
theorem main_eq (c : Dev nD) : main (F := F) c = seq ops := by
  rw [seq_append, ← part0_eq c, ← part1_eq c]; rfl

/-- The contents after two lines run in order: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

attribute [local irreducible] Host.reduce Host.gather Host.scatterAdd in
set_option maxRecDepth 16384 in
set_option maxHeartbeats 4000000 in
/-- The fold at the result buffer is the composed term: each operation's result at its own buffer is its function
    of its operands' contents and at any other buffer what was there, so the fold read at %67 is @main's operations
    composed over the arguments' contents; the typed references' casts are the identity at these literal
    references, a reshape's transport likewise, and the stages of the composed term unfold to the same operations.
    The reduction, the gathers and the scatter-adds stay folded: the equation never looks inside them. -/
theorem out_eq (V : Valuation τ sig (Elt F)) :
    after ops V (main_v67 : DevRef τ sig) = Term.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [after_append]
  after_results_simp
  rfl

/-! No operation writes an argument's buffer. -/
theorem arg0_eq (V : Valuation τ sig (Elt F)) :
    after ops V (main_arg0 : DevRef τ sig) = V (main_arg0 : DevRef τ sig) := by
  rw [after_append]; after_results_simp
theorem arg1_eq (V : Valuation τ sig (Elt F)) :
    after ops V (main_arg1 : DevRef τ sig) = V (main_arg1 : DevRef τ sig) := by
  rw [after_append]; after_results_simp
theorem arg2_eq (V : Valuation τ sig (Elt F)) :
    after ops V (main_arg2 : DevRef τ sig) = V (main_arg2 : DevRef τ sig) := by
  rw [after_append]; after_results_simp
theorem arg3_eq (V : Valuation τ sig (Elt F)) :
    after ops V (main_arg3 : DevRef τ sig) = V (main_arg3 : DevRef τ sig) := by
  rw [after_append]; after_results_simp
theorem arg4_eq (V : Valuation τ sig (Elt F)) :
    after ops V (main_arg4 : DevRef τ sig) = V (main_arg4 : DevRef τ sig) := by
  rw [after_append]; after_results_simp
theorem arg5_eq (V : Valuation τ sig (Elt F)) :
    after ops V (main_arg5 : DevRef τ sig) = V (main_arg5 : DevRef τ sig) := by
  rw [after_append]; after_results_simp
theorem arg6_eq (V : Valuation τ sig (Elt F)) :
    after ops V (main_arg6 : DevRef τ sig) = V (main_arg6 : DevRef τ sig) := by
  rw [after_append]; after_results_simp
theorem arg7_eq (V : Valuation τ sig (Elt F)) :
    after ops V (main_arg7 : DevRef τ sig) = V (main_arg7 : DevRef τ sig) := by
  rw [after_append]; after_results_simp
theorem arg8_eq (V : Valuation τ sig (Elt F)) :
    after ops V (main_arg8 : DevRef τ sig) = V (main_arg8 : DevRef τ sig) := by
  rw [after_append]; after_results_simp

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., nullary_bufs_sub ..,
    binary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., binary_bufs_sub .., unary_bufs_sub .., reshape_bufs_sub .., nullary_bufs_sub ..,
    unary_bufs_sub .., binary_bufs_sub ..⟩

theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    binary_bufs_sub .., reshape_bufs_sub .., binary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub ..⟩

theorem ops_sub : (ops : List (HloOp τ sig (Elt F))).Forall fun op => op.bufs ⊆ tcRefs τ sig :=
  List.forall_iff_forall_mem.2 fun op h => (List.mem_append.1 h).elim
    (List.forall_iff_forall_mem.1 ops0_sub op) (List.forall_iff_forall_mem.1 ops1_sub op)

/-- Every operation determines its results: none allocates. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops_fresh : ∀ op ∈ (ops : List (HloOp τ sig (Elt F))), op.fresh = ∅ :=
  fun op h => (List.mem_append.1 h).elim (ops0_fresh op) (ops1_fresh op)

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = Term.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v67).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c))⟩)
    (run_seq scopedRefs_eq scopedSems_eq defs main (fun _ => ops) main_eq (fun _ => ops_sub) m ρ (fun _ => ops_fresh))

end Cert.ReferenceIdeal.RefRun

end
-- ==== Proof.RefValue.lean ====
/-
  The reference's composed term, at the ideal instance, is the specification's result: stage by stage the host
  operations read at an index are the specification's sums, elu, maximum, exponentials and products.
-/
import proofs.«128282_j20770461843840_1_alg».proof.Proof.RefTerm
import proofs.«128282_j20770461843840_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.RefValue

open Idealize.ShloMosaic Idealize.ShloMosaic.ValueIdx Cert.ReferenceIdeal
open scoped BigOperators

/-! ## The two matrix products read at an index -/

/-- The operand indices of the 256 × 256 product, axis by axis: the left operand is read at (row, contraction
    position), the right at (contraction position, column). -/
theorem lhs_proj_0 (i : S20000x256.Idx) (q : dot_S20000x256_S256x256_S20000x256_1_0_0_1_n_n.contr.Idx) :
    (dot_S20000x256_S256x256_S20000x256_1_0_0_1_n_n.lhsIdx i q 0).val = (i 0).val := by
  unfold DotDims.lhsIdx
  rw [dif_neg (show ¬(0 : Fin S20000x256.rank) ∈ dot_S20000x256_S256x256_S20000x256_1_0_0_1_n_n.lhsBatch by decide),
    dif_pos (show (0 : Fin S20000x256.rank) ∈ dot_S20000x256_S256x256_S20000x256_1_0_0_1_n_n.lhsNonContracting by decide)]
  rfl
theorem lhs_proj_1 (i : S20000x256.Idx) (q : dot_S20000x256_S256x256_S20000x256_1_0_0_1_n_n.contr.Idx) :
    (dot_S20000x256_S256x256_S20000x256_1_0_0_1_n_n.lhsIdx i q 1).val = (q ⟨0, by decide⟩).val :=
  dot_S20000x256_S256x256_S20000x256_1_0_0_1_n_n.lhsIdx_val_of_single rfl i q
theorem rhs_proj_0 (i : S20000x256.Idx) (q : dot_S20000x256_S256x256_S20000x256_1_0_0_1_n_n.contr.Idx) :
    (dot_S20000x256_S256x256_S20000x256_1_0_0_1_n_n.rhsIdx i q 0).val = (q ⟨0, by decide⟩).val :=
  dot_S20000x256_S256x256_S20000x256_1_0_0_1_n_n.rhsIdx_val_of_single rfl i q
theorem rhs_proj_1 (i : S20000x256.Idx) (q : dot_S20000x256_S256x256_S20000x256_1_0_0_1_n_n.contr.Idx) :
    (dot_S20000x256_S256x256_S20000x256_1_0_0_1_n_n.rhsIdx i q 1).val = (i 1).val := by
  unfold DotDims.rhsIdx
  rw [dif_neg (show ¬(1 : Fin S256x256.rank) ∈ dot_S20000x256_S256x256_S20000x256_1_0_0_1_n_n.rhsBatch by decide),
    dif_pos (show (1 : Fin S256x256.rank) ∈ dot_S20000x256_S256x256_S20000x256_1_0_0_1_n_n.rhsNonContracting by decide)]
  rfl

/-- Entry (p, q) of X·W is the sum over k of X[p, k] · W[k, q]. -/
theorem proj_apply (x : FVec Ideal S20000x256 .f32) (w : FVec Ideal S256x256 .f32) (p : Fin 20000) (q : Fin 256) :
    Term.proj (F := Ideal) x w (ix2 p q) = ∑ k : Fin 256, x (ix2 p k) * w (ix2 k q) := by
  unfold Term.proj
  simp only [Host.dotGeneral]
  rw [Ideal.dotGeneral_apply,
    ← Equiv.sum_comp (contrEquiv1 dot_S20000x256_S256x256_S20000x256_1_0_0_1_n_n 256 rfl rfl).symm]
  refine Finset.sum_congr rfl fun k _ => ?_
  have hk := contrEquiv1_symm_val dot_S20000x256_S256x256_S20000x256_1_0_0_1_n_n 256 rfl rfl k
  have el : dot_S20000x256_S256x256_S20000x256_1_0_0_1_n_n.lhsIdx (ix2 p q)
      ((contrEquiv1 dot_S20000x256_S256x256_S20000x256_1_0_0_1_n_n 256 rfl rfl).symm k) = ix2 p k :=
    funext fun a => Fin.ext (by
      match a with
      | ⟨0, _⟩ => exact lhs_proj_0 _ _
      | ⟨1, _⟩ => exact (lhs_proj_1 _ _).trans hk)
  have er : dot_S20000x256_S256x256_S20000x256_1_0_0_1_n_n.rhsIdx (ix2 p q)
      ((contrEquiv1 dot_S20000x256_S256x256_S20000x256_1_0_0_1_n_n 256 rfl rfl).symm k) = ix2 k q :=
    funext fun a => Fin.ext (by
      match a with
      | ⟨0, _⟩ => exact (rhs_proj_0 _ _).trans hk
      | ⟨1, _⟩ => exact rhs_proj_1 _ _)
  rw [el, er]

/-- The projection is the specification's. -/
theorem proj_eq (x : FVec Ideal S20000x256 .f32) (w : FVec Ideal S256x256 .f32) :
    Term.proj (F := Ideal) x w = Cert.Spec.feat x w := by
  funext i
  obtain ⟨p, q, rfl⟩ : ∃ (p : Fin 20000) (q : Fin 256), i = ix2 p q := ⟨i 0, i 1, eq_ix2 i⟩
  rw [proj_apply]
  rfl

/-- The same for the 256 × 8 product of the head scores. -/
theorem lhs_score_0 (i : S20000x8.Idx) (q : dot_S20000x256_S256x8_S20000x8_1_0_0_1_n_n.contr.Idx) :
    (dot_S20000x256_S256x8_S20000x8_1_0_0_1_n_n.lhsIdx i q 0).val = (i 0).val := by
  unfold DotDims.lhsIdx
  rw [dif_neg (show ¬(0 : Fin S20000x256.rank) ∈ dot_S20000x256_S256x8_S20000x8_1_0_0_1_n_n.lhsBatch by decide),
    dif_pos (show (0 : Fin S20000x256.rank) ∈ dot_S20000x256_S256x8_S20000x8_1_0_0_1_n_n.lhsNonContracting by decide)]
  rfl
theorem lhs_score_1 (i : S20000x8.Idx) (q : dot_S20000x256_S256x8_S20000x8_1_0_0_1_n_n.contr.Idx) :
    (dot_S20000x256_S256x8_S20000x8_1_0_0_1_n_n.lhsIdx i q 1).val = (q ⟨0, by decide⟩).val :=
  dot_S20000x256_S256x8_S20000x8_1_0_0_1_n_n.lhsIdx_val_of_single rfl i q
theorem rhs_score_0 (i : S20000x8.Idx) (q : dot_S20000x256_S256x8_S20000x8_1_0_0_1_n_n.contr.Idx) :
    (dot_S20000x256_S256x8_S20000x8_1_0_0_1_n_n.rhsIdx i q 0).val = (q ⟨0, by decide⟩).val :=
  dot_S20000x256_S256x8_S20000x8_1_0_0_1_n_n.rhsIdx_val_of_single rfl i q
theorem rhs_score_1 (i : S20000x8.Idx) (q : dot_S20000x256_S256x8_S20000x8_1_0_0_1_n_n.contr.Idx) :
    (dot_S20000x256_S256x8_S20000x8_1_0_0_1_n_n.rhsIdx i q 1).val = (i 1).val := by
  unfold DotDims.rhsIdx
  rw [dif_neg (show ¬(1 : Fin S256x8.rank) ∈ dot_S20000x256_S256x8_S20000x8_1_0_0_1_n_n.rhsBatch by decide),
    dif_pos (show (1 : Fin S256x8.rank) ∈ dot_S20000x256_S256x8_S20000x8_1_0_0_1_n_n.rhsNonContracting by decide)]
  rfl

/-- Entry (n, h) of P·W is the sum over k of P[n, k] · W[k, h]. -/
theorem dotH_apply (p : FVec Ideal S20000x256 .f32) (w : FVec Ideal S256x8 .f32) (n : Fin 20000) (h : Fin 8) :
    Host.dotGeneral (F := Ideal) dot_S20000x256_S256x8_S20000x8_1_0_0_1_n_n none p w (ix2 n h)
      = ∑ k : Fin 256, p (ix2 n k) * w (ix2 k h) := by
  simp only [Host.dotGeneral]
  rw [Ideal.dotGeneral_apply,
    ← Equiv.sum_comp (contrEquiv1 dot_S20000x256_S256x8_S20000x8_1_0_0_1_n_n 256 rfl rfl).symm]
  refine Finset.sum_congr rfl fun k _ => ?_
  have hk := contrEquiv1_symm_val dot_S20000x256_S256x8_S20000x8_1_0_0_1_n_n 256 rfl rfl k
  have el : dot_S20000x256_S256x8_S20000x8_1_0_0_1_n_n.lhsIdx (ix2 n h)
      ((contrEquiv1 dot_S20000x256_S256x8_S20000x8_1_0_0_1_n_n 256 rfl rfl).symm k) = ix2 n k :=
    funext fun a => Fin.ext (by
      match a with
      | ⟨0, _⟩ => exact lhs_score_0 _ _
      | ⟨1, _⟩ => exact (lhs_score_1 _ _).trans hk)
  have er : dot_S20000x256_S256x8_S20000x8_1_0_0_1_n_n.rhsIdx (ix2 n h)
      ((contrEquiv1 dot_S20000x256_S256x8_S20000x8_1_0_0_1_n_n 256 rfl rfl).symm k) = ix2 k h :=
    funext fun a => Fin.ext (by
      match a with
      | ⟨0, _⟩ => exact (rhs_score_0 _ _).trans hk
      | ⟨1, _⟩ => exact rhs_score_1 _ _)
  rw [el, er]

/-- The head's bias, first as a row and then down every node, read at (n, h) is the bias of head h. -/
theorem biasH_apply (b : FVec Ideal S8 .f32) (n : Fin 20000) (h : Fin 8) :
    broadcastInDim S20000x8 ![0, 1] Facts₀.bcast_S1x8_S20000x8_0_1 (broadcastInDim S1x8 ![1] Facts₀.bcast_S8_S1x8_1 b) (ix2 n h)
      = b (ix1 h) := by
  rw [broadcastInDim_apply _ _ _ (ix2 n h) (ix2 (0 : Fin 1) h) (fun a => by
      match a with
      | ⟨0, _⟩ => rfl
      | ⟨1, _⟩ => rfl),
    broadcastInDim_apply _ _ _ (ix2 (0 : Fin 1) h) (ix1 h) (fun a => by
      match a with
      | ⟨0, _⟩ => rfl)]

/-- The head scores are the specification's. -/
theorem score_eq (p : FVec Ideal S20000x256 .f32) (w : FVec Ideal S256x8 .f32) (b : FVec Ideal S8 .f32) :
    Term.score (F := Ideal) p w b = Cert.Spec.score p w b := by
  funext i
  obtain ⟨n, h, rfl⟩ : ∃ (n : Fin 20000) (h : Fin 8), i = ix2 n h := ⟨i 0, i 1, eq_ix2 i⟩
  unfold Term.score
  rw [addf_apply, dotH_apply, biasH_apply]
  rfl

/-! ## elu -/

/-- jax's elu at one value — x where x > 0, else 1 · expm1 x, the exponential's argument guarded to 0 on the
    other branch — is the specification's. -/
theorem elu_scalar (v : EReal) :
    Scalar.select (FloatOps.cmpf (F := Ideal) (φ := .f32) .ogt v Cert.Spec.zero) v
      (FloatOps.mulf (F := Ideal) (φ := .f32) (Ideal.ofBits .f32 0x3F800000#32)
        (FloatOps.hostUnary (F := Ideal) (φ := .f32) .expm1
          (Scalar.select (FloatOps.cmpf (F := Ideal) (φ := .f32) .ogt v Cert.Spec.zero) Cert.Spec.zero v)))
      = Cert.Spec.elu v := by
  unfold Cert.Spec.elu
  rcases Classical.em (FloatOps.cmpf (F := Ideal) (φ := .f32) .ogt v Cert.Spec.zero = 1#1) with h | h
  · rw [h, select_one, select_one]
  · rw [eq_zero_of_ne_one h, select_zero, select_zero, select_zero, Ideal.hostUnary_expm1_def, Ideal.mulf_def,
      Ideal.ofBits_one_f32, one_mul]

theorem eluE_eq (x : FVec Ideal S320000x8 .f32) : Term.eluE (F := Ideal) x = fun i => Cert.Spec.elu (x i) :=
  funext fun i => elu_scalar (x i)

theorem eluN_eq (x : FVec Ideal S20000x256 .f32) : Term.eluN (F := Ideal) x = fun i => Cert.Spec.elu (x i) :=
  funext fun i => elu_scalar (x i)

/-! ## The greatest logit, the exponentials, the attention weights -/

/-- The shape of a scalar has one index. -/
theorem subsingleton_scalarIdx : Subsingleton S_.Idx := ⟨fun _ _ => funext fun d => d.elim0⟩

/-- The maximum over both axes into a scalar is the maximum over every index, from −∞. -/
theorem gmaxS_eq (l : FVec Ideal S320000x8 .f32) :
    Term.gmaxS (F := Ideal) l = fun _ => Finset.univ.fold max Cert.Spec.negInf l := by
  funext j
  unfold Term.gmaxS
  haveI : Std.Commutative (FloatOps.maximumf (F := Ideal) (φ := .f32)) := ⟨fun a b => max_comm a b⟩
  haveI : Std.Associative (FloatOps.maximumf (F := Ideal) (φ := .f32)) := ⟨fun a b c => max_assoc a b c⟩
  haveI := subsingleton_scalarIdx
  rw [Host.reduce_eq_fold, Finset.filter_true_of_mem fun i _ => Subsingleton.elim _ _]
  rfl

/-- The softmax numerators at an index. -/
theorem expo_eq (l : FVec Ideal S320000x8 .f32) :
    Term.expo (F := Ideal) l = fun i => Ideal.exp (l i - Finset.univ.fold max Cert.Spec.negInf l) := by
  unfold Term.expo
  rw [gmaxS_eq]
  rfl

/-- The zero array a scatter-add starts from. -/
theorem zerosH_eq :
    broadcastInDim S20000x8 ![] Facts₀.bcast_S_S20000x8 (constant (F := Ideal) S_ .f32 0x00000000#32) = fun _ => Cert.Spec.zero :=
  rfl
theorem zerosHC_eq :
    broadcastInDim S20000x8x32 ![] Facts₀.bcast_S_S20000x8x32 (constant (F := Ideal) S_ .f32 0x00000000#32) = fun _ => Cert.Spec.zero :=
  rfl

/-- The host's quotient at an index, and a scalar word copied over the edges × heads array. -/
theorem hostDivf_apply (a b : FVec Ideal S320000x8 .f32) (i : S320000x8.Idx) : Host.divf a b i = Ideal.div (a i) (b i) := rfl
theorem splatEH_apply (w : BitVec 32) (i : S320000x8.Idx) :
    broadcastInDim S320000x8 ![] Facts₀.bcast_S_S320000x8 (constant (F := Ideal) S_ .f32 w) i = Ideal.ofBits .f32 w := rfl

/-- The attention weights at an index: the numerator over the gathered denominator plus ε. -/
theorem attn_apply (x : FVec Ideal S320000x8 .f32) (tn tr : IVec S320000x1 32) (i : S320000x8.Idx) :
    Term.attn (F := Ideal) x tn tr i = Ideal.div (x i) (Term.gatherH (Term.denomN x tr) tn i + Cert.Spec.eps) := by
  unfold Term.attn
  rw [hostDivf_apply, addf_apply, splatEH_apply]

/-- An attention weight copied along the 32 channels of its head. -/
theorem attC_apply (a : FVec Ideal S320000x8 .f32) (e : Fin 320000) (h : Fin 8) (c : Fin 32) :
    broadcastInDim S320000x8x32 ![0, 1, 2] Facts₀.bcast_S320000x8x1_S320000x8x32_0_1_2
      (broadcastInDim S320000x8x1 ![0, 1] Facts₀.bcast_S320000x8_S320000x8x1_0_1 a) (ix3 e h c) = a (ix2 e h) := by
  rw [broadcastInDim_apply _ _ _ (ix3 e h c) (ix3 e h (0 : Fin 1)) (fun d => by
      match d with
      | ⟨0, _⟩ => rfl
      | ⟨1, _⟩ => rfl
      | ⟨2, _⟩ => rfl),
    broadcastInDim_apply _ _ _ (ix3 e h (0 : Fin 1)) (ix2 e h) (fun d => by
      match d with
      | ⟨0, _⟩ => rfl
      | ⟨1, _⟩ => rfl)]

/-! ## The sum plus the skip term plus the bias -/

/-- The bias, first as a row and then down every node, read at (n, f) is the bias of feature f. -/
theorem biasF_apply (b : FVec Ideal S256 .f32) (n : Fin 20000) (f : Fin 256) :
    broadcastInDim S20000x256 ![0, 1] Facts₀.bcast_S1x256_S20000x256_0_1 (broadcastInDim S1x256 ![1] Facts₀.bcast_S256_S1x256_1 b) (ix2 n f)
      = b (ix1 f) := by
  rw [broadcastInDim_apply _ _ _ (ix2 n f) (ix2 (0 : Fin 1) f) (fun a => by
      match a with
      | ⟨0, _⟩ => rfl
      | ⟨1, _⟩ => rfl),
    broadcastInDim_apply _ _ _ (ix2 (0 : Fin 1) f) (ix1 f) (fun a => by
      match a with
      | ⟨0, _⟩ => rfl)]

/-- Reading the sum of two arrays through a reshape is the sum of the two read through it; the skip term, reshaped
    to heads × channels and back, is itself. -/
theorem pre_apply (o : FVec Ideal S20000x8x32 .f32) (k : FVec Ideal S20000x256 .f32) (b : FVec Ideal S256 .f32) (i : S20000x256.Idx) :
    Term.pre (F := Ideal) o k b i
      = shapeCast S20000x256 o Facts₀.shapeCasts_S20000x8x32_S20000x256 i + k i + b (ix1 (i 1)) := by
  obtain ⟨n, f, rfl⟩ : ∃ (n : Fin 20000) (f : Fin 256), i = ix2 n f := ⟨i 0, i 1, eq_ix2 i⟩
  unfold Term.pre
  rw [addf_apply, biasF_apply]
  have e : shapeCast S20000x256 (addf o (shapeCast S20000x8x32 k Facts₀.shapeCasts_S20000x256_S20000x8x32))
        Facts₀.shapeCasts_S20000x8x32_S20000x256
      = fun j => shapeCast S20000x256 o Facts₀.shapeCasts_S20000x8x32_S20000x256 j
        + shapeCast S20000x256 (shapeCast S20000x8x32 k Facts₀.shapeCasts_S20000x256_S20000x8x32)
            Facts₀.shapeCasts_S20000x8x32_S20000x256 j := rfl
  rw [e, shapeCast_shapeCast]

/-! ## The stages in the specification's terms

The four index operations are carried as the specification carries them, never opened. -/

/-- Reading rows of a nodes × heads array, summing edge rows into it, and the same with the channels axis. -/
abbrev gH : (Cert.Spec.sNH.Idx → EReal) → (Cert.Spec.sE1.Idx → BitVec 32) → (Cert.Spec.sEH.Idx → EReal) :=
  fun x i => Host.gather Cert.Spec.gdH x i
abbrev sH : (Cert.Spec.sNH.Idx → EReal) → (Cert.Spec.sE1.Idx → BitVec 32) → (Cert.Spec.sEH.Idx → EReal) → (Cert.Spec.sNH.Idx → EReal) :=
  fun x i u => Host.scatterAdd (F := Ideal) (φ := .f32) Cert.Spec.sdH x i u
abbrev gHC : (Cert.Spec.sNHC.Idx → EReal) → (Cert.Spec.sE1.Idx → BitVec 32) → (Cert.Spec.sEHC.Idx → EReal) :=
  fun x i => Host.gather Cert.Spec.gdHC x i
abbrev sHC : (Cert.Spec.sNHC.Idx → EReal) → (Cert.Spec.sE1.Idx → BitVec 32) → (Cert.Spec.sEHC.Idx → EReal) → (Cert.Spec.sNHC.Idx → EReal) :=
  fun x i u => Host.scatterAdd (F := Ideal) (φ := .f32) Cert.Spec.sdHC x i u

theorem gatherH_eq (x : FVec Ideal S20000x8 .f32) (i : IVec S320000x1 32) : Term.gatherH (F := Ideal) x i = gH x i := rfl

theorem denomN_eq (x : FVec Ideal S320000x8 .f32) (tr : IVec S320000x1 32) :
    Term.denomN (F := Ideal) x tr = sH (fun _ => Cert.Spec.zero) tr x := by
  unfold Term.denomN
  rw [zerosH_eq]
  rfl

section
variable (src tgt traw : IVec S320000x1 32)
variable (X : FVec Ideal S20000x256 .f32) (Wp : FVec Ideal S256x256 .f32) (Ws : FVec Ideal S256x8 .f32) (bs : FVec Ideal S8 .f32)
  (Wt : FVec Ideal S256x8 .f32) (bt : FVec Ideal S8 .f32) (Wk : FVec Ideal S256x256 .f32) (bias : FVec Ideal S256 .f32)

/-- The edge logits, from the head scores gathered at the two columns of node numbers. -/
theorem logits_spec :
    Term.eluE (F := Ideal) (addf (Term.gatherH (Term.score (Term.proj X Wp) Ws bs) src)
      (Term.gatherH (Term.score (Term.proj X Wp) Wt bt) tgt))
      = Cert.Spec.logit gH src tgt X Wp Ws bs Wt bt := by
  rw [eluE_eq, proj_eq, score_eq, score_eq, gatherH_eq, gatherH_eq]
  rfl

/-- The softmax numerators. -/
theorem expo_spec :
    Term.expo (F := Ideal) (Cert.Spec.logit gH src tgt X Wp Ws bs Wt bt) = Cert.Spec.ex gH src tgt X Wp Ws bs Wt bt := by
  rw [expo_eq]
  rfl

/-- The attention weights. -/
theorem attn_spec :
    Term.attn (F := Ideal) (Cert.Spec.ex gH src tgt X Wp Ws bs Wt bt) tgt traw
      = Cert.Spec.att gH sH src tgt traw X Wp Ws bs Wt bt := by
  funext i
  rw [attn_apply, denomN_eq, gatherH_eq]
  rfl

/-- The messages. -/
theorem msgs_spec :
    Term.msgs (F := Ideal) (Cert.Spec.feat X Wp) src (Cert.Spec.att gH sH src tgt traw X Wp Ws bs Wt bt)
      = Cert.Spec.weighted gH sH gHC src tgt traw X Wp Ws bs Wt bt := by
  funext j
  obtain ⟨e, h, c, rfl⟩ : ∃ (e : Fin 320000) (h : Fin 8) (c : Fin 32), j = ix3 e h c := ⟨j 0, j 1, j 2, eq_ix3 j⟩
  unfold Term.msgs
  rw [mulf_apply, attC_apply]
  rfl

/-- The messages summed per target. -/
theorem aggr_spec :
    Term.aggr (F := Ideal) (Cert.Spec.weighted gH sH gHC src tgt traw X Wp Ws bs Wt bt) traw
      = Cert.Spec.agg gH sH gHC sHC src tgt traw X Wp Ws bs Wt bt := by
  unfold Term.aggr
  rw [zerosHC_eq]
  rfl

/-- elu of the sum plus the skip term plus the bias. -/
theorem out_spec :
    Term.eluN (F := Ideal) (Term.pre (Cert.Spec.agg gH sH gHC sHC src tgt traw X Wp Ws bs Wt bt) (Cert.Spec.feat X Wk) bias)
      = Cert.Spec.out gH sH gHC sHC src tgt traw X Wp Ws bs Wt bt Wk bias := by
  rw [eluN_eq]
  funext i
  rw [pre_apply]
  rfl

end

/-- The reference's term is the specification's result, the index columns and the index operations as @main spells
    them. -/
theorem refTerm_out (a0 : FVec Ideal S20000x256 .f32) (a1 : IVec S2x320000 32) (a2 : FVec Ideal S256x256 .f32) (a3 : FVec Ideal S256x8 .f32)
    (a4 : FVec Ideal S8 .f32) (a5 : FVec Ideal S256x8 .f32) (a6 : FVec Ideal S8 .f32) (a7 : FVec Ideal S256x256 .f32) (a8 : FVec Ideal S256 .f32) :
    Term.refTerm (F := Ideal) a0 a1 a2 a3 a4 a5 a6 a7 a8
      = Cert.Spec.out gH sH gHC sHC (Term.normCol (Term.rowIdx0 a1)) (Term.normCol (Term.rowIdx1 a1)) (Term.rawCol (Term.rowIdx1 a1))
          a0 a2 a3 a4 a5 a6 a7 a8 := by
  unfold Term.refTerm Term.logits
  rw [logits_spec, expo_spec, attn_spec, proj_eq a0 a2, msgs_spec, aggr_spec, proj_eq a0 a7, out_spec]

theorem refTerm_eq (a0 : FVec Ideal S20000x256 .f32) (a1 : IVec S2x320000 32) (a2 : FVec Ideal S256x256 .f32) (a3 : FVec Ideal S256x8 .f32)
    (a4 : FVec Ideal S8 .f32) (a5 : FVec Ideal S256x8 .f32) (a6 : FVec Ideal S8 .f32) (a7 : FVec Ideal S256x256 .f32) (a8 : FVec Ideal S256 .f32) :
    Term.refTerm (F := Ideal) a0 a1 a2 a3 a4 a5 a6 a7 a8 = Cert.Spec.result a0 a1 a2 a3 a4 a5 a6 a7 a8 := by
  rw [refTerm_out]
  rfl

end Cert.ReferenceIdeal.RefValue

end
-- ==== Proof.lean ====
/-
  One graph-attention layer over 20000 nodes and 320000 edges: the kernel program (five kernel regions — the node
  projections; elu of the edge logits; the exponentials against the greatest logit; the messages, the attention weights
  spread over the channels by a 0/1 expansion matrix; elu of the aggregated messages plus skip plus bias — with the row
  gathers and per-target sums done by host operations between them) against the plain reference.

  At the ideal instance (a float is an extended real, every operation exact, a change of format the identity) both
  programs end with ONE function of the nine argument arrays, `Cert.Spec.result` (Proof/Spec.lean): the matrix products
  are the same sums row by row whatever the tiling; the kernel's exp x − 1 is the reference's expm1 x, and 1 · y = y;
  the greatest logit does not depend on the shape the logits are viewed in; a row of eight weights against a column of
  the expansion matrix is the weight of that column's head; a reshape and its inverse cancel. The row gathers and the
  per-target sums are the same operations in both programs, applied to arrays proved equal, and are never opened. No law
  used needs the inputs finite.

  The kernel side: the run with its result array named at the last boundary's contents (Proof/KernelRun.lean), each
  region's result array as a whole-array function of its input arrays (Proof/Region0 … Region4.lean), and the boundary
  contents read one after the other down to the result (Proof/KerChain.lean and Proof/KerChainB.lean, over Proof/KerMath.lean).
  The reference side: its run written out operation by operation (Proof/RefRun.lean) ending at its composed term
  (Proof/RefTerm.lean), and that term read stage by stage as the specification's result (Proof/RefValue.lean).
  The frames of the two kernel programs are the generated ones; the reference's frame is its run with the result
  dropped; no rewrite separates the kernel from its idealization.
-/
import proofs.«128282_j20770461843840_1_alg».proof.Defs
import proofs.«128282_j20770461843840_1_alg».proof.Proof.Gen.Kernel
import proofs.«128282_j20770461843840_1_alg».proof.Proof.Gen.Kernel.Frame
import proofs.«128282_j20770461843840_1_alg».proof.Proof.Gen.KernelIdeal
import proofs.«128282_j20770461843840_1_alg».proof.Proof.Gen.KernelIdeal.Frame
import proofs.«128282_j20770461843840_1_alg».proof.Proof.Gen.ReferenceIdeal
import proofs.«128282_j20770461843840_1_alg».proof.Proof.Gen.Pre_finite_inputs
import proofs.«128282_j20770461843840_1_alg».proof.Proof.KernelRun
import proofs.«128282_j20770461843840_1_alg».proof.Proof.KerChain
import proofs.«128282_j20770461843840_1_alg».proof.Proof.KerChainB
import proofs.«128282_j20770461843840_1_alg».proof.Proof.RefRun
import proofs.«128282_j20770461843840_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two idealized programs, from memories agreeing on the arguments, end with the specification's result of the
    arguments: the kernel's result array by the boundary chain, the reference's by its composed term. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.w10_v65 m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.RefRun.run (F := Ideal) m' ρ')
    rw [Cert.ReferenceIdeal.RefValue.refTerm_eq]
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
